-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x8 : Shape := ⟨2, ![50000, 8]⟩
abbrev S800000x4 : Shape := ⟨2, ![800000, 4]⟩
abbrev S2x800000 : Shape := ⟨2, ![2, 800000]⟩
abbrev S8x64 : Shape := ⟨2, ![8, 64]⟩
abbrev S64 : Shape := ⟨1, ![64]⟩
abbrev S64x64 : Shape := ⟨2, ![64, 64]⟩
abbrev S4x64 : Shape := ⟨2, ![4, 64]⟩
abbrev S2x192x64 : Shape := ⟨3, ![2, 192, 64]⟩
abbrev S2x64 : Shape := ⟨2, ![2, 64]⟩
abbrev S2x64x64 : Shape := ⟨3, ![2, 64, 64]⟩
abbrev S2x128x64 : Shape := ⟨3, ![2, 128, 64]⟩
abbrev S64x6 : Shape := ⟨2, ![64, 6]⟩
abbrev S6 : Shape := ⟨1, ![6]⟩
abbrev S_ : Shape := ⟨0, ![]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64 : S_.BroadcastsInDim S4x64 (![] : Fin 0 → Fin S4x64.rank)
  reducesTo_S4x64_S_d0_1 : S4x64.ReducesTo [0, 1] S_
  bcast_S_S2x192x64 : S_.BroadcastsInDim S2x192x64 (![] : Fin 0 → Fin S2x192x64.rank)
  reducesTo_S2x192x64_S_d0_1_2 : S2x192x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_
  bcast_S_S2x800000 : S_.BroadcastsInDim S2x800000 (![] : Fin 0 → Fin S2x800000.rank)
  reducesTo_S2x800000_S_d0_1 : S2x800000.ReducesTo [0, 1] S_

variable [Facts]

def fn_part6 {F : FTy → Type} [FloatOps F] (main_arg2 : IVec S2x800000 32) (main_arg22 : FVec F S6 .f32) (main_v98 : IVec S_ 1) (main_v101 : IVec S64x6 1) (main_c_39 : IVec S_ 1) : IVec S_ 1 :=
  let main_v102 : IVec S_ 1 := (fun x v => Host.reduce IntOp.andi x v reducesTo_S64x6_S_d0_1 h_S_) main_v101 main_c_39
  let main_v103 : IVec S_ 1 := andi main_v98 main_v102
  let main_v104 : FVec F S6 .f32 := Host.absf main_arg22
  let main_cst_40 : FVec F S_ .f32 := constant S_ .f32 0x7F800000#32
  let main_v105 : FVec F S6 .f32 := broadcastInDim S6 ![] bcast_S_S6 main_cst_40
  let main_v106 : IVec S6 1 := cmpf .olt main_v104 main_v105
  let main_c_41 : IVec S_ 1 := constantI S_ 1 1#1
  let main_v107 : IVec S_ 1 := (fun x v => Host.reduce IntOp.andi x v reducesTo_S6_S_d0 h_S_) main_v106 main_c_41
  let main_v108 : IVec S_ 1 := andi main_v103 main_v107
  let main_c_42 : IVec S_ 32 := constantI S_ 32 4294917296#32
  let main_v109 : IVec S2x800000 32 := broadcastInDim S2x800000 ![] bcast_S_S2x800000 main_c_42
  let main_v110 : IVec S2x800000 1 := cmpi .sge main_arg2 main_v109
  let main_c_43 : IVec S_ 1 := constantI S_ 1 1#1
  let main_v111 : IVec S_ 1 := (fun x v => Host.reduce IntOp.andi x v reducesTo_S2x800000_S_d0_1 h_S_) main_v110 main_c_43
  let main_v112 : IVec S_ 1 := andi main_v108 main_v111
  let main_c_44 : IVec S_ 32 := constantI S_ 32 50000#32
  let main_v113 : IVec S2x800000 32 := broadcastInDim S2x800000 ![] bcast_S_S2x800000 main_c_44
  let main_v114 : IVec S2x800000 1 := cmpi .slt main_arg2 main_v113
  let main_c_45 : IVec S_ 1 := constantI S_ 1 1#1
  let main_v115 : IVec S_ 1 := (fun x v => Host.reduce IntOp.andi x v reducesTo_S2x800000_S_d0_1 h_S_) main_v114 main_c_45
  let main_v116 : IVec S_ 1 := andi main_v112 main_v115
  main_v116

def fn_part5 {F : FTy → Type} [FloatOps F] (main_arg2 : IVec S2x800000 32) (main_arg19 : FVec F S64x64 .f32) (main_arg20 : FVec F S64 .f32) (main_arg21 : FVec F S64x6 .f32) (main_arg22 : FVec F S6 .f32) (main_v83 : IVec S_ 1) (main_v84 : FVec F S2x64 .f32) (main_cst_32 : FVec F S_ .f32) : IVec S_ 1 :=
  let main_v85 : FVec F S2x64 .f32 := broadcastInDim S2x64 ![] bcast_S_S2x64 main_cst_32
  let main_v86 : IVec S2x64 1 := cmpf .olt main_v84 main_v85
  let main_c_33 : IVec S_ 1 := constantI S_ 1 1#1
  let main_v87 : IVec S_ 1 := (fun x v => Host.reduce IntOp.andi x v reducesTo_S2x64_S_d0_1 h_S_) main_v86 main_c_33
  let main_v88 : IVec S_ 1 := andi main_v83 main_v87
  let main_v89 : FVec F S64x64 .f32 := Host.absf main_arg19
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x6 .f32 := Host.absf main_arg21
  let main_cst_38 : FVec F S_ .f32 := constant S_ .f32 0x7F800000#32
  let main_v100 : FVec F S64x6 .f32 := broadcastInDim S64x6 ![] bcast_S_S64x6 main_cst_38
  let main_v101 : IVec S64x6 1 := cmpf .olt main_v99 main_v100
  let main_c_39 : IVec S_ 1 := constantI S_ 1 1#1
  fn_part6 (F := F) main_arg2 main_arg22 main_v98 main_v101 main_c_39

def fn_part4 {F : FTy → Type} [FloatOps F] (main_arg2 : IVec S2x800000 32) (main_arg15 : FVec F S2x128x64 .f32) (main_arg16 : FVec F S2x64 .f32) (main_arg17 : FVec F S2x64x64 .f32) (main_arg18 : FVec F S2x64 .f32) (main_arg19 : FVec F S64x64 .f32) (main_arg20 : FVec F S64 .f32) (main_arg21 : FVec F S64x6 .f32) (main_arg22 : FVec F S6 .f32) (main_v63 : IVec S_ 1) (main_v67 : IVec S_ 1) : IVec S_ 1 :=
  let main_v68 : IVec S_ 1 := andi main_v63 main_v67
  let main_v69 : FVec F S2x128x64 .f32 := Host.absf main_arg15
  let main_cst_26 : FVec F S_ .f32 := constant S_ .f32 0x7F800000#32
  let main_v70 : FVec F S2x128x64 .f32 := broadcastInDim S2x128x64 ![] bcast_S_S2x128x64 main_cst_26
  let main_v71 : IVec S2x128x64 1 := cmpf .olt main_v69 main_v70
  let main_c_27 : IVec S_ 1 := constantI S_ 1 1#1
  let main_v72 : IVec S_ 1 := (fun x v => Host.reduce IntOp.andi x v reducesTo_S2x128x64_S_d0_1_2 h_S_) main_v71 main_c_27
  let main_v73 : IVec S_ 1 := andi main_v68 main_v72
  let main_v74 : FVec F S2x64 .f32 := Host.absf main_arg16
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_v79 : FVec F S2x64x64 .f32 := Host.absf main_arg17
  let main_cst_30 : FVec F S_ .f32 := constant S_ .f32 0x7F800000#32
  let main_v80 : FVec F S2x64x64 .f32 := broadcastInDim S2x64x64 ![] bcast_S_S2x64x64 main_cst_30
  let main_v81 : IVec S2x64x64 1 := cmpf .olt main_v79 main_v80
  let main_c_31 : IVec S_ 1 := constantI S_ 1 1#1
  let main_v82 : IVec S_ 1 := (fun x v => Host.reduce IntOp.andi x v reducesTo_S2x64x64_S_d0_1_2 h_S_) main_v81 main_c_31
  let main_v83 : IVec S_ 1 := andi main_v78 main_v82
  let main_v84 : FVec F S2x64 .f32 := Host.absf main_arg18
  let main_cst_32 : FVec F S_ .f32 := constant S_ .f32 0x7F800000#32
  fn_part5 (F := F) main_arg2 main_arg19 main_arg20 main_arg21 main_arg22 main_v83 main_v84 main_cst_32

def fn_part3 {F : FTy → Type} [FloatOps F] (main_arg2 : IVec S2x800000 32) (main_arg12 : FVec F S2x64 .f32) (main_arg13 : FVec F S2x64x64 .f32) (main_arg14 : FVec F S2x64 .f32) (main_arg15 : FVec F S2x128x64 .f32) (main_arg16 : FVec F S2x64 .f32) (main_arg17 : FVec F S2x64x64 .f32) (main_arg18 : FVec F S2x64 .f32) (main_arg19 : FVec F S64x64 .f32) (main_arg20 : FVec F S64 .f32) (main_arg21 : FVec F S64x6 .f32) (main_arg22 : FVec F S6 .f32) (main_v48 : IVec S_ 1) (main_v49 : FVec F S2x192x64 .f32) (main_v50 : FVec F S2x192x64 .f32) : IVec S_ 1 :=
  let main_v51 : IVec S2x192x64 1 := cmpf .olt main_v49 main_v50
  let main_c_19 : IVec S_ 1 := constantI S_ 1 1#1
  let main_v52 : IVec S_ 1 := (fun x v => Host.reduce IntOp.andi x v reducesTo_S2x192x64_S_d0_1_2 h_S_) main_v51 main_c_19
  let main_v53 : IVec S_ 1 := andi main_v48 main_v52
  let main_v54 : FVec F S2x64 .f32 := Host.absf main_arg12
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2x64x64 .f32 := Host.absf main_arg13
  let main_cst_22 : FVec F S_ .f32 := constant S_ .f32 0x7F800000#32
  let main_v60 : FVec F S2x64x64 .f32 := broadcastInDim S2x64x64 ![] bcast_S_S2x64x64 main_cst_22
  let main_v61 : IVec S2x64x64 1 := cmpf .olt main_v59 main_v60
  let main_c_23 : IVec S_ 1 := constantI S_ 1 1#1
  let main_v62 : IVec S_ 1 := (fun x v => Host.reduce IntOp.andi x v reducesTo_S2x64x64_S_d0_1_2 h_S_) main_v61 main_c_23
  let main_v63 : IVec S_ 1 := andi main_v58 main_v62
  let main_v64 : FVec F S2x64 .f32 := Host.absf main_arg14
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg2 main_arg15 main_arg16 main_arg17 main_arg18 main_arg19 main_arg20 main_arg21 main_arg22 main_v63 main_v67

def fn_part2 {F : FTy → Type} [FloatOps F] (main_arg2 : IVec S2x800000 32) (main_arg8 : FVec F S64 .f32) (main_arg9 : FVec F S64x64 .f32) (main_arg10 : FVec F S64 .f32) (main_arg11 : FVec F S2x192x64 .f32) (main_arg12 : FVec F S2x64 .f32) (main_arg13 : FVec F S2x64x64 .f32) (main_arg14 : FVec F S2x64 .f32) (main_arg15 : FVec F S2x128x64 .f32) (main_arg16 : FVec F S2x64 .f32) (main_arg17 : FVec F S2x64x64 .f32) (main_arg18 : FVec F S2x64 .f32) (main_arg19 : FVec F S64x64 .f32) (main_arg20 : FVec F S64 .f32) (main_arg21 : FVec F S64x6 .f32) (main_arg22 : FVec F S6 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S2x192x64 .f32 := Host.absf main_arg11
  let main_cst_18 : FVec F S_ .f32 := constant S_ .f32 0x7F800000#32
  let main_v50 : FVec F S2x192x64 .f32 := broadcastInDim S2x192x64 ![] bcast_S_S2x192x64 main_cst_18
  fn_part3 (F := F) main_arg2 main_arg12 main_arg13 main_arg14 main_arg15 main_arg16 main_arg17 main_arg18 main_arg19 main_arg20 main_arg21 main_arg22 main_v48 main_v49 main_v50

def fn_part1 {F : FTy → Type} [FloatOps F] (main_arg2 : IVec S2x800000 32) (main_arg5 : FVec F S64x64 .f32) (main_arg6 : FVec F S64 .f32) (main_arg7 : FVec F S4x64 .f32) (main_arg8 : FVec F S64 .f32) (main_arg9 : FVec F S64x64 .f32) (main_arg10 : FVec F S64 .f32) (main_arg11 : FVec F S2x192x64 .f32) (main_arg12 : FVec F S2x64 .f32) (main_arg13 : FVec F S2x64x64 .f32) (main_arg14 : FVec F S2x64 .f32) (main_arg15 : FVec F S2x128x64 .f32) (main_arg16 : FVec F S2x64 .f32) (main_arg17 : FVec F S2x64x64 .f32) (main_arg18 : FVec F S2x64 .f32) (main_arg19 : FVec F S64x64 .f32) (main_arg20 : FVec F S64 .f32) (main_arg21 : FVec F S64x6 .f32) (main_arg22 : FVec F S6 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x64 .f32 := Host.absf main_arg7
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x8 .f32) (main_arg1 : FVec F S800000x4 .f32) (main_arg2 : IVec S2x800000 32) (main_arg3 : FVec F S8x64 .f32) (main_arg4 : FVec F S64 .f32) (main_arg5 : FVec F S64x64 .f32) (main_arg6 : FVec F S64 .f32) (main_arg7 : FVec F S4x64 .f32) (main_arg8 : FVec F S64 .f32) (main_arg9 : FVec F S64x64 .f32) (main_arg10 : FVec F S64 .f32) (main_arg11 : FVec F S2x192x64 .f32) (main_arg12 : FVec F S2x64 .f32) (main_arg13 : FVec F S2x64x64 .f32) (main_arg14 : FVec F S2x64 .f32) (main_arg15 : FVec F S2x128x64 .f32) (main_arg16 : FVec F S2x64 .f32) (main_arg17 : FVec F S2x64x64 .f32) (main_arg18 : FVec F S2x64 .f32) (main_arg19 : FVec F S64x64 .f32) (main_arg20 : FVec F S64 .f32) (main_arg21 : FVec F S64x6 .f32) (main_arg22 : FVec F S6 .f32) : IVec S_ 1 :=
  let main_v0 : FVec F S50000x8 .f32 := Host.absf main_arg0
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S800000x4 .f32 := Host.absf main_arg1
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S8x64 .f32 := Host.absf main_arg3
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x8 : Shape := ⟨2, ![50000, 8]⟩
abbrev S800000x4 : Shape := ⟨2, ![800000, 4]⟩
abbrev S2x800000 : Shape := ⟨2, ![2, 800000]⟩
abbrev S8x64 : Shape := ⟨2, ![8, 64]⟩
abbrev S64 : Shape := ⟨1, ![64]⟩
abbrev S64x64 : Shape := ⟨2, ![64, 64]⟩
abbrev S4x64 : Shape := ⟨2, ![4, 64]⟩
abbrev S2x192x64 : Shape := ⟨3, ![2, 192, 64]⟩
abbrev S2x64 : Shape := ⟨2, ![2, 64]⟩
abbrev S2x64x64 : Shape := ⟨3, ![2, 64, 64]⟩
abbrev S2x128x64 : Shape := ⟨3, ![2, 128, 64]⟩
abbrev S64x6 : Shape := ⟨2, ![64, 6]⟩
abbrev S6 : Shape := ⟨1, ![6]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x8 : Shape := ⟨2, ![5000, 8]⟩
abbrev S5000x64 : Shape := ⟨2, ![5000, 64]⟩
abbrev S800000x64 : Shape := ⟨2, ![800000, 64]⟩
abbrev S4000x4 : Shape := ⟨2, ![4000, 4]⟩
abbrev S4000x64 : Shape := ⟨2, ![4000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x192x64 : Shape := ⟨3, ![1, 192, 64]⟩
abbrev S192x64 : Shape := ⟨2, ![192, 64]⟩
abbrev S1x64x64 : Shape := ⟨3, ![1, 64, 64]⟩
abbrev S4000x192 : Shape := ⟨2, ![4000, 192]⟩
abbrev S1x128x64 : Shape := ⟨3, ![1, 128, 64]⟩
abbrev S128x64 : Shape := ⟨2, ![128, 64]⟩
abbrev S5000x128 : Shape := ⟨2, ![5000, 128]⟩
abbrev S1x6 : Shape := ⟨2, ![1, 6]⟩
abbrev S50000x6 : Shape := ⟨2, ![50000, 6]⟩
abbrev S5000x6 : Shape := ⟨2, ![5000, 6]⟩

abbrev nBuf : Space → Nat
  | .hbm => 180
  | .vmem => 68
  | .smem => 0
  | _ => 0

abbrev hbmTy0_0 (i : Nat) : BufTy := match i % 128 with
  | 0 => ⟨S50000x8, .f32⟩
  | 1 => ⟨S800000x4, .f32⟩
  | 2 => ⟨S2x800000, .i32⟩
  | 3 => ⟨S8x64, .f32⟩
  | 4 => ⟨S64, .f32⟩
  | 5 => ⟨S64x64, .f32⟩
  | 6 => ⟨S64, .f32⟩
  | 7 => ⟨S4x64, .f32⟩
  | 8 => ⟨S64, .f32⟩
  | 9 => ⟨S64x64, .f32⟩
  | 10 => ⟨S64, .f32⟩
  | 11 => ⟨S2x192x64, .f32⟩
  | 12 => ⟨S2x64, .f32⟩
  | 13 => ⟨S2x64x64, .f32⟩
  | 14 => ⟨S2x64, .f32⟩
  | 15 => ⟨S2x128x64, .f32⟩
  | 16 => ⟨S2x64, .f32⟩
  | 17 => ⟨S2x64x64, .f32⟩
  | 18 => ⟨S2x64, .f32⟩
  | 19 => ⟨S64x64, .f32⟩
  | 20 => ⟨S64, .f32⟩
  | 21 => ⟨S64x6, .f32⟩
  | 22 => ⟨S6, .f32⟩
  | 23 => ⟨S1x800000, .i32⟩
  | 24 => ⟨S800000, .i32⟩
  | 25 => ⟨S1x800000, .i32⟩
  | 26 => ⟨S800000, .i32⟩
  | 27 => ⟨S1x64, .f32⟩
  | 28 => ⟨S1x64, .f32⟩
  | 29 => ⟨S50000x64, .f32⟩
  | 30 => ⟨S1x64, .f32⟩
  | 31 => ⟨S1x64, .f32⟩
  | 32 => ⟨S800000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S1, .i32⟩
  | 42 => ⟨S_, .i32⟩
  | 43 => ⟨S800000x1, .i32⟩
  | 44 => ⟨S800000x1, .i1⟩
  | 45 => ⟨S1x1, .i32⟩
  | 46 => ⟨S800000x1, .i32⟩
  | 47 => ⟨S800000x1, .i1⟩
  | 48 => ⟨S800000x1, .i1⟩
  | 49 => ⟨S_, .i1⟩
  | 50 => ⟨S800000, .i1⟩
  | 51 => ⟨S800000x64, .f32⟩
  | 52 => ⟨S800000x64, .i1⟩
  | 53 => ⟨S_, .f32⟩
  | 54 => ⟨S800000x64, .f32⟩
  | 55 => ⟨S800000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S1, .i32⟩
  | 65 => ⟨S_, .i32⟩
  | 66 => ⟨S800000x1, .i32⟩
  | 67 => ⟨S800000x1, .i1⟩
  | 68 => ⟨S1x1, .i32⟩
  | 69 => ⟨S800000x1, .i32⟩
  | 70 => ⟨S800000x1, .i1⟩
  | 71 => ⟨S800000x1, .i1⟩
  | 72 => ⟨S_, .i1⟩
  | 73 => ⟨S800000, .i1⟩
  | 74 => ⟨S800000x64, .f32⟩
  | 75 => ⟨S800000x64, .i1⟩
  | 76 => ⟨S_, .f32⟩
  | 77 => ⟨S800000x64, .f32⟩
  | 78 => ⟨S800000x64, .f32⟩
  | 79 => ⟨S1x192x64, .f32⟩
  | 80 => ⟨S192x64, .f32⟩
  | 81 => ⟨S1x64, .f32⟩
  | 82 => ⟨S64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S1x64, .f32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S1x128x64, .f32⟩
  | 95 => ⟨S128x64, .f32⟩
  | 96 => ⟨S1x64, .f32⟩
  | 97 => ⟨S64, .f32⟩
  | 98 => ⟨S1x64x64, .f32⟩
  | 99 => ⟨S64x64, .f32⟩
  | 100 => ⟨S1x64, .f32⟩
  | 101 => ⟨S64, .f32⟩
  | 102 => ⟨S1x64, .f32⟩
  | 103 => ⟨S1x64, .f32⟩
  | 104 => ⟨S50000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S1, .i32⟩
  | 114 => ⟨S_, .i32⟩
  | 115 => ⟨S800000x1, .i32⟩
  | 116 => ⟨S800000x1, .i1⟩
  | 117 => ⟨S1x1, .i32⟩
  | 118 => ⟨S800000x1, .i32⟩
  | 119 => ⟨S800000x1, .i1⟩
  | 120 => ⟨S800000x1, .i1⟩
  | 121 => ⟨S_, .i1⟩
  | 122 => ⟨S800000, .i1⟩
  | 123 => ⟨S800000x64, .f32⟩
  | 124 => ⟨S800000x64, .i1⟩
  | 125 => ⟨S_, .f32⟩
  | 126 => ⟨S800000x64, .f32⟩
  | 127 => ⟨S800000x64, .f32⟩
  | _ => ⟨S50000x8, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S1, .i32⟩
  | 9 => ⟨S_, .i32⟩
  | 10 => ⟨S800000x1, .i32⟩
  | 11 => ⟨S800000x1, .i1⟩
  | 12 => ⟨S1x1, .i32⟩
  | 13 => ⟨S800000x1, .i32⟩
  | 14 => ⟨S800000x1, .i1⟩
  | 15 => ⟨S800000x1, .i1⟩
  | 16 => ⟨S_, .i1⟩
  | 17 => ⟨S800000, .i1⟩
  | 18 => ⟨S800000x64, .f32⟩
  | 19 => ⟨S800000x64, .i1⟩
  | 20 => ⟨S_, .f32⟩
  | 21 => ⟨S800000x64, .f32⟩
  | 22 => ⟨S800000x64, .f32⟩
  | 23 => ⟨S1x192x64, .f32⟩
  | 24 => ⟨S192x64, .f32⟩
  | 25 => ⟨S1x64, .f32⟩
  | 26 => ⟨S64, .f32⟩
  | 27 => ⟨S1x64x64, .f32⟩
  | 28 => ⟨S64x64, .f32⟩
  | 29 => ⟨S1x64, .f32⟩
  | 30 => ⟨S64, .f32⟩
  | 31 => ⟨S1x64, .f32⟩
  | 32 => ⟨S1x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S1x128x64, .f32⟩
  | 39 => ⟨S128x64, .f32⟩
  | 40 => ⟨S1x64, .f32⟩
  | 41 => ⟨S64, .f32⟩
  | 42 => ⟨S1x64x64, .f32⟩
  | 43 => ⟨S64x64, .f32⟩
  | 44 => ⟨S1x64, .f32⟩
  | 45 => ⟨S64, .f32⟩
  | 46 => ⟨S1x64, .f32⟩
  | 47 => ⟨S1x64, .f32⟩
  | 48 => ⟨S50000x64, .f32⟩
  | 49 => ⟨S1x64, .f32⟩
  | 50 => ⟨S1x6, .f32⟩
  | 51 => ⟨S50000x6, .f32⟩
  | _ => ⟨S50000x8, .f32⟩

abbrev hbmTy (i : Nat) : BufTy := match i / 128 with
  | 0 => hbmTy0_0 i
  | 1 => hbmTy0_1 i
  | _ => ⟨S50000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S4000x4, .f32⟩
  | .local _ .vmem, ⟨9, _⟩ => ⟨S4000x4, .f32⟩
  | .local _ .vmem, ⟨10, _⟩ => ⟨S4x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S192x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S128x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S192x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S4000x64, .f32⟩
  | .local _ .vmem, ⟨49, _⟩ => ⟨S4000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S128x64, .f32⟩
  | .local _ .vmem, ⟨55, _⟩ => ⟨S1x64, .f32⟩
  | .local _ .vmem, ⟨56, _⟩ => ⟨S64x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S64x64, .f32⟩
  | .local _ .vmem, ⟨63, _⟩ => ⟨S1x64, .f32⟩
  | .local _ .vmem, ⟨64, _⟩ => ⟨S64x6, .f32⟩
  | .local _ .vmem, ⟨65, _⟩ => ⟨S1x6, .f32⟩
  | .local _ .vmem, ⟨66, _⟩ => ⟨S5000x6, .f32⟩
  | .local _ .vmem, ⟨67, _⟩ => ⟨S5000x6, .f32⟩
  | _, _ => ⟨S50000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v10 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_cst : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_call2_cst : Ref sig .tc := ⟨.hbm, 125, rfl⟩
abbrev main_call2_v15 : Ref sig .tc := ⟨.hbm, 126, rfl⟩
abbrev main_v37 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_v14 : Ref sig .tc := ⟨.hbm, 147, rfl⟩
abbrev main_call3_cst : Ref sig .tc := ⟨.hbm, 148, rfl⟩
abbrev main_call3_v15 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_cst_0 : Ref sig .tc := ⟨.hbm, 162, rfl⟩
abbrev main_v50 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem5_1 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S192x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S192x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x6 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x6 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x6 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  inb_S4000x4_S4000x4_0_0 : ∀ a, (![0, 0] : Fin 2 → Nat) a + S4000x4.size a ≤ S4000x4.size a
  h_S4000x4 : 0 < S4000x4.numel
  inb_S4x64_S4x64_0_0 : ∀ a, (![0, 0] : Fin 2 → Nat) a + S4x64.size a ≤ S4x64.size a
  h_S4x64 : 0 < S4x64.numel
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S2x192x64_S1x192x64_0_0_0 : S2x192x64.Slices ![0, 0, 0] S1x192x64
  shapeCasts_S1x192x64_S192x64 : S1x192x64.ShapeCasts S192x64
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  shapeCasts_S4000x64_S4000x64 : S4000x64.ShapeCasts S4000x64
  concatenates_S4000x64_S4000x64_S4000x64_S4000x192_d1 : Shape.Concatenates [S4000x64, S4000x64, S4000x64] S4000x192 1
  inb_S192x64_S192x64_0_0 : ∀ a, (![0, 0] : Fin 2 → Nat) a + S192x64.size a ≤ S192x64.size a
  h_S192x64 : 0 < S192x64.numel
  shapeCasts_S192x64_S192x64 : S192x64.ShapeCasts S192x64
  shapeCasts_S64x64_S64x64 : S64x64.ShapeCasts S64x64
  bcast_S_S50000x64 : S_.BroadcastsInDim S50000x64 (![] : Fin 0 → Fin S50000x64.rank)
  slices_S2x128x64_S1x128x64_0_0_0 : S2x128x64.Slices ![0, 0, 0] S1x128x64
  shapeCasts_S1x128x64_S128x64 : S1x128x64.ShapeCasts S128x64
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  slices_S2x192x64_S1x192x64_1_0_0 : S2x192x64.Slices ![1, 0, 0] S1x192x64
  slices_S2x64_S1x64_1_0 : S2x64.Slices ![1, 0] S1x64
  slices_S2x64x64_S1x64x64_1_0_0 : S2x64x64.Slices ![1, 0, 0] S1x64x64
  slices_S2x128x64_S1x128x64_1_0_0 : S2x128x64.Slices ![1, 0, 0] S1x128x64
  shapeCasts_S6_S1x6 : S6.ShapeCasts S1x6
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  inb_S5000x6_S5000x6_0_0 : ∀ a, (![0, 0] : Fin 2 → Nat) a + S5000x6.size a ≤ S5000x6.size a
  h_S5000x6 : 0 < S5000x6.numel
  dot_S5000x8_S8x64_S5000x64_1_0_0_1_n_n_wf : DotDims.WF S5000x8 S8x64 S5000x64 [1] [0] [0] [1] [] []
  dot_S5000x64_S64x64_S5000x64_1_0_0_1_n_n_wf : DotDims.WF S5000x64 S64x64 S5000x64 [1] [0] [0] [1] [] []
  dot_S4000x4_S4x64_S4000x64_1_0_0_1_n_n_wf : DotDims.WF S4000x4 S4x64 S4000x64 [1] [0] [0] [1] [] []
  dot_S4000x64_S64x64_S4000x64_1_0_0_1_n_n_wf : DotDims.WF S4000x64 S64x64 S4000x64 [1] [0] [0] [1] [] []
  gather_S50000x64_S800000x1_S800000x64_1_0_n_n_0_1_164_wf : GatherDims.WF S50000x64 S800000x1 S800000x64 [1] [0] [] [0] [] 1 ![1, 64]
  dot_S4000x192_S192x64_S4000x64_1_0_0_1_n_n_wf : DotDims.WF S4000x192 S192x64 S4000x64 [1] [0] [0] [1] [] []
  scatter_S50000x64_S800000x1_S800000x64_1_0_0_1_wf : ScatterDims.WF S50000x64 S800000x1 S800000x64 [1] [0] [0] 1
  dot_S5000x128_S128x64_S5000x64_1_0_0_1_n_n_wf : DotDims.WF S5000x128 S128x64 S5000x64 [1] [0] [0] [1] [] []
  dot_S5000x64_S64x6_S5000x6_1_0_0_1_n_n_wf : DotDims.WF S5000x64 S64x6 S5000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S50000x8.size a
  hwx0_0 : ∀ i : grid0.Coords, EltTy.bits .f32 = 32 ∨ (Rect.block (s := S50000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S800000x4.size a
  hwx1_0 : ∀ i : grid1.Coords, EltTy.bits .f32 = 32 ∨ (Rect.block (s := S800000x4) S4000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64.size a ≤ S4x64.size a
  hwx1_1 : ∀ i : grid1.Coords, EltTy.bits .f32 = 32 ∨ (Rect.block (s := S4x64) S4x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S800000x64.size a
  hwx1_5 : ∀ i : grid1.Coords, EltTy.bits .f32 = 32 ∨ (Rect.block (s := S800000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S800000x64.size a
  hwx2_1 : ∀ i : grid2.Coords, EltTy.bits .f32 = 32 ∨ (Rect.block (s := S800000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S800000x64.size a
  hwx2_2 : ∀ i : grid2.Coords, EltTy.bits .f32 = 32 ∨ (Rect.block (s := S800000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S192x64.size a ≤ S192x64.size a
  hwx2_3 : ∀ i : grid2.Coords, EltTy.bits .f32 = 32 ∨ (Rect.block (s := S192x64) S192x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x64.size a ≤ S800000x64.size a
  hwx2_7 : ∀ i : grid2.Coords, EltTy.bits .f32 = 32 ∨ (Rect.block (s := S800000x64) S4000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S800000x64.size a
  hwx4_0 : ∀ i : grid4.Coords, EltTy.bits .f32 = 32 ∨ (Rect.block (s := S800000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S800000x64.size a
  hwx4_1 : ∀ i : grid4.Coords, EltTy.bits .f32 = 32 ∨ (Rect.block (s := S800000x64) S4000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S800000x64.size a
  hwx4_2 : ∀ i : grid4.Coords, EltTy.bits .f32 = 32 ∨ (Rect.block (s := S800000x64) S4000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S192x64.size a ≤ S192x64.size a
  hwx4_3 : ∀ i : grid4.Coords, EltTy.bits .f32 = 32 ∨ (Rect.block (s := S192x64) S192x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x64.size a ≤ S800000x64.size a
  hwx4_7 : ∀ i : grid4.Coords, EltTy.bits .f32 = 32 ∨ (Rect.block (s := S800000x64) S4000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x6.size a ≤ S64x6.size a
  hwx6_3 : ∀ i : grid6.Coords, EltTy.bits .f32 = 32 ∨ (Rect.block (s := S64x6) S64x6.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x6.size a ≤ S1x6.size a
  hwx6_4 : ∀ i : grid6.Coords, EltTy.bits .f32 = 32 ∨ (Rect.block (s := S1x6) S1x6.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x6.size a ≤ S50000x6.size a
  hwx6_5 : ∀ i : grid6.Coords, EltTy.bits .f32 = 32 ∨ (Rect.block (s := S50000x6) S5000x6.size (cc6_transform_5 i) (hinb6_5 i)).WholeWords (EltTy.packing .f32)

variable [Facts₀]

def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S4000x4_S4x64_S4000x64_1_0_0_1_n_n : DotDims S4000x4 S4x64 S4000x64 where
  lhsContracting := [1]
  rhsContracting := [0]
  lhsNonContracting := [0]
  rhsNonContracting := [1]
  lhsBatch := []
  rhsBatch := []
  wf := dot_S4000x4_S4x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x192_S192x64_S4000x64_1_0_0_1_n_n : DotDims S4000x192 S192x64 S4000x64 where
  lhsContracting := [1]
  rhsContracting := [0]
  lhsNonContracting := [0]
  rhsNonContracting := [1]
  lhsBatch := []
  rhsBatch := []
  wf := dot_S4000x192_S192x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x6_S5000x6_1_0_0_1_n_n : DotDims S5000x64 S64x6 S5000x6 where
  lhsContracting := [1]
  rhsContracting := [0]
  lhsNonContracting := [0]
  rhsNonContracting := [1]
  lhsBatch := []
  rhsBatch := []
  wf := dot_S5000x64_S64x6_S5000x6_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S4x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v9) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S192x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S4000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v6) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v22) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v40) S192x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v44) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v48) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v49) S4000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v36) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v54) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v63) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v63) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg19) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg21) S64x6.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v65) S1x6.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v66) S5000x6.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x8 : Shape := ⟨2, ![50000, 8]⟩
abbrev S800000x4 : Shape := ⟨2, ![800000, 4]⟩
abbrev S2x800000 : Shape := ⟨2, ![2, 800000]⟩
abbrev S8x64 : Shape := ⟨2, ![8, 64]⟩
abbrev S64 : Shape := ⟨1, ![64]⟩
abbrev S64x64 : Shape := ⟨2, ![64, 64]⟩
abbrev S4x64 : Shape := ⟨2, ![4, 64]⟩
abbrev S2x192x64 : Shape := ⟨3, ![2, 192, 64]⟩
abbrev S2x64 : Shape := ⟨2, ![2, 64]⟩
abbrev S2x64x64 : Shape := ⟨3, ![2, 64, 64]⟩
abbrev S2x128x64 : Shape := ⟨3, ![2, 128, 64]⟩
abbrev S64x6 : Shape := ⟨2, ![64, 6]⟩
abbrev S6 : Shape := ⟨1, ![6]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x64 : Shape := ⟨2, ![800000, 64]⟩
abbrev S800000x1 : Shape := ⟨2, ![800000, 1]⟩
abbrev S800000x192 : Shape := ⟨2, ![800000, 192]⟩
abbrev S1x192x64 : Shape := ⟨3, ![1, 192, 64]⟩
abbrev S192x64 : Shape := ⟨2, ![192, 64]⟩
abbrev S1x64x64 : Shape := ⟨3, ![1, 64, 64]⟩
abbrev S50000x128 : Shape := ⟨2, ![50000, 128]⟩
abbrev S1x128x64 : Shape := ⟨3, ![1, 128, 64]⟩
abbrev S128x64 : Shape := ⟨2, ![128, 64]⟩
abbrev S50000x6 : Shape := ⟨2, ![50000, 6]⟩
abbrev S1x6 : Shape := ⟨2, ![1, 6]⟩

abbrev nBuf : Space → Nat
  | .hbm => 188
  | .vmem => 0
  | .smem => 0
  | _ => 0

abbrev hbmTy0_0 (i : Nat) : BufTy := match i % 128 with
  | 0 => ⟨S50000x8, .f32⟩
  | 1 => ⟨S800000x4, .f32⟩
  | 2 => ⟨S2x800000, .i32⟩
  | 3 => ⟨S8x64, .f32⟩
  | 4 => ⟨S64, .f32⟩
  | 5 => ⟨S64x64, .f32⟩
  | 6 => ⟨S64, .f32⟩
  | 7 => ⟨S4x64, .f32⟩
  | 8 => ⟨S64, .f32⟩
  | 9 => ⟨S64x64, .f32⟩
  | 10 => ⟨S64, .f32⟩
  | 11 => ⟨S2x192x64, .f32⟩
  | 12 => ⟨S2x64, .f32⟩
  | 13 => ⟨S2x64x64, .f32⟩
  | 14 => ⟨S2x64, .f32⟩
  | 15 => ⟨S2x128x64, .f32⟩
  | 16 => ⟨S2x64, .f32⟩
  | 17 => ⟨S2x64x64, .f32⟩
  | 18 => ⟨S2x64, .f32⟩
  | 19 => ⟨S64x64, .f32⟩
  | 20 => ⟨S64, .f32⟩
  | 21 => ⟨S64x6, .f32⟩
  | 22 => ⟨S6, .f32⟩
  | 23 => ⟨S1x800000, .i32⟩
  | 24 => ⟨S800000, .i32⟩
  | 25 => ⟨S1x800000, .i32⟩
  | 26 => ⟨S800000, .i32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S800000x64, .f32⟩
  | 39 => ⟨S1x64, .f32⟩
  | 40 => ⟨S800000x64, .f32⟩
  | 41 => ⟨S800000x64, .f32⟩
  | 42 => ⟨S_, .f32⟩
  | 43 => ⟨S800000x64, .f32⟩
  | 44 => ⟨S800000x64, .f32⟩
  | 45 => ⟨S800000x64, .f32⟩
  | 46 => ⟨S1x64, .f32⟩
  | 47 => ⟨S800000x64, .f32⟩
  | 48 => ⟨S800000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x192, .f32⟩
  | 68 => ⟨S1x192x64, .f32⟩
  | 69 => ⟨S192x64, .f32⟩
  | 70 => ⟨S1x64, .f32⟩
  | 71 => ⟨S64, .f32⟩
  | 72 => ⟨S1x64x64, .f32⟩
  | 73 => ⟨S64x64, .f32⟩
  | 74 => ⟨S1x64, .f32⟩
  | 75 => ⟨S64, .f32⟩
  | 76 => ⟨S800000x64, .f32⟩
  | 77 => ⟨S1x64, .f32⟩
  | 78 => ⟨S800000x64, .f32⟩
  | 79 => ⟨S800000x64, .f32⟩
  | 80 => ⟨S_, .f32⟩
  | 81 => ⟨S800000x64, .f32⟩
  | 82 => ⟨S800000x64, .f32⟩
  | 83 => ⟨S800000x64, .f32⟩
  | 84 => ⟨S1x64, .f32⟩
  | 85 => ⟨S800000x64, .f32⟩
  | 86 => ⟨S800000x64, .f32⟩
  | 87 => ⟨S800000x64, .f32⟩
  | 88 => ⟨S_, .f32⟩
  | 89 => ⟨S50000x64, .f32⟩
  | 90 => ⟨S800000x1, .i32⟩
  | 91 => ⟨S50000x64, .f32⟩
  | 92 => ⟨S50000x128, .f32⟩
  | 93 => ⟨S1x128x64, .f32⟩
  | 94 => ⟨S128x64, .f32⟩
  | 95 => ⟨S1x64, .f32⟩
  | 96 => ⟨S64, .f32⟩
  | 97 => ⟨S1x64x64, .f32⟩
  | 98 => ⟨S64x64, .f32⟩
  | 99 => ⟨S1x64, .f32⟩
  | 100 => ⟨S64, .f32⟩
  | 101 => ⟨S50000x64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x64, .f32⟩
  | 109 => ⟨S1x64, .f32⟩
  | 110 => ⟨S50000x64, .f32⟩
  | 111 => ⟨S50000x64, .f32⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x8, .f32⟩

abbrev hbmTy0_1 (i : Nat) : BufTy := match i % 128 with
  | 0 => ⟨S800000, .i32⟩
  | 1 => ⟨S800000x1, .i32⟩
  | 2 => ⟨S800000x64, .f32⟩
  | 3 => ⟨S800000x192, .f32⟩
  | 4 => ⟨S1x192x64, .f32⟩
  | 5 => ⟨S192x64, .f32⟩
  | 6 => ⟨S1x64, .f32⟩
  | 7 => ⟨S64, .f32⟩
  | 8 => ⟨S1x64x64, .f32⟩
  | 9 => ⟨S64x64, .f32⟩
  | 10 => ⟨S1x64, .f32⟩
  | 11 => ⟨S64, .f32⟩
  | 12 => ⟨S800000x64, .f32⟩
  | 13 => ⟨S1x64, .f32⟩
  | 14 => ⟨S800000x64, .f32⟩
  | 15 => ⟨S800000x64, .f32⟩
  | 16 => ⟨S_, .f32⟩
  | 17 => ⟨S800000x64, .f32⟩
  | 18 => ⟨S800000x64, .f32⟩
  | 19 => ⟨S800000x64, .f32⟩
  | 20 => ⟨S1x64, .f32⟩
  | 21 => ⟨S800000x64, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S50000x128, .f32⟩
  | 29 => ⟨S1x128x64, .f32⟩
  | 30 => ⟨S128x64, .f32⟩
  | 31 => ⟨S1x64, .f32⟩
  | 32 => ⟨S64, .f32⟩
  | 33 => ⟨S1x64x64, .f32⟩
  | 34 => ⟨S64x64, .f32⟩
  | 35 => ⟨S1x64, .f32⟩
  | 36 => ⟨S64, .f32⟩
  | 37 => ⟨S50000x64, .f32⟩
  | 38 => ⟨S1x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S50000x6, .f32⟩
  | 57 => ⟨S1x6, .f32⟩
  | 58 => ⟨S50000x6, .f32⟩
  | 59 => ⟨S50000x6, .f32⟩
  | _ => ⟨S50000x8, .f32⟩

abbrev hbmTy (i : Nat) : BufTy := match i / 128 with
  | 0 => hbmTy0_0 i
  | 1 => hbmTy0_1 i
  | _ => ⟨S50000x8, .f32⟩

abbrev bufTy : (tb : Table) → Fin (tcTables nBuf tb) → BufTy
  | .hbm, ⟨i, _⟩ => hbmTy i
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_2 : Ref sig .tc := ⟨.hbm, 58, rfl⟩
abbrev main_v31 : Ref sig .tc := ⟨.hbm, 59, rfl⟩
abbrev main_v32 : Ref sig .tc := ⟨.hbm, 60, rfl⟩
abbrev main_c_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_6 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_7 : Ref sig .tc := ⟨.hbm, 113, rfl⟩
abbrev main_v81 : Ref sig .tc := ⟨.hbm, 114, rfl⟩
abbrev main_v82 : Ref sig .tc := ⟨.hbm, 115, rfl⟩
abbrev main_c_8 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_9 : Ref sig .tc := ⟨.hbm, 122, rfl⟩
abbrev main_v88 : Ref sig .tc := ⟨.hbm, 123, rfl⟩
abbrev main_v89 : Ref sig .tc := ⟨.hbm, 124, rfl⟩
abbrev main_c_10 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_11 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_12 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_13 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_14 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  slices_S2x192x64_S1x192x64_0_0_0 : S2x192x64.Slices ![0, 0, 0] S1x192x64
  shapeCasts_S1x192x64_S192x64 : S1x192x64.ShapeCasts S192x64
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  concatenates_S50000x64_S50000x64_S50000x128_d1 : Shape.Concatenates [S50000x64, S50000x64] S50000x128 1
  slices_S2x128x64_S1x128x64_0_0_0 : S2x128x64.Slices ![0, 0, 0] S1x128x64
  shapeCasts_S1x128x64_S128x64 : S1x128x64.ShapeCasts S128x64
  slices_S2x192x64_S1x192x64_1_0_0 : S2x192x64.Slices ![1, 0, 0] S1x192x64
  slices_S2x64_S1x64_1_0 : S2x64.Slices ![1, 0] S1x64
  slices_S2x64x64_S1x64x64_1_0_0 : S2x64x64.Slices ![1, 0, 0] S1x64x64
  slices_S2x128x64_S1x128x64_1_0_0 : S2x128x64.Slices ![1, 0, 0] S1x128x64
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  dot_S50000x8_S8x64_S50000x64_1_0_0_1_n_n_wf : DotDims.WF S50000x8 S8x64 S50000x64 [1] [0] [0] [1] [] []
  dot_S50000x64_S64x64_S50000x64_1_0_0_1_n_n_wf : DotDims.WF S50000x64 S64x64 S50000x64 [1] [0] [0] [1] [] []
  dot_S800000x4_S4x64_S800000x64_1_0_0_1_n_n_wf : DotDims.WF S800000x4 S4x64 S800000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x6_S50000x6_1_0_0_1_n_n_wf : DotDims.WF S50000x64 S64x6 S50000x6 [1] [0] [0] [1] [] []

variable [Facts₀]

def dot_S50000x8_S8x64_S50000x64_1_0_0_1_n_n : DotDims S50000x8 S8x64 S50000x64 where
  lhsContracting := [1]
  rhsContracting := [0]
  lhsNonContracting := [0]
  rhsNonContracting := [1]
  lhsBatch := []
  rhsBatch := []
  wf := dot_S50000x8_S8x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x4_S4x64_S800000x64_1_0_0_1_n_n : DotDims S800000x4 S4x64 S800000x64 where
  lhsContracting := [1]
  rhsContracting := [0]
  lhsNonContracting := [0]
  rhsNonContracting := [1]
  lhsBatch := []
  rhsBatch := []
  wf := dot_S800000x4_S4x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x6_S50000x6_1_0_0_1_n_n : DotDims S50000x64 S64x6 S50000x6 where
  lhsContracting := [1]
  rhsContracting := [0]
  lhsNonContracting := [0]
  rhsNonContracting := [1]
  lhsBatch := []
  rhsBatch := []
  wf := dot_S50000x64_S64x6_S50000x6_1_0_0_1_n_n_wf

class Facts : Prop extends Facts₀ where

variable [Facts]
-- ==== Proof.IndexRange.lean ====
/-
  The range of the edge list, read back from the precondition.

  The precondition is a conjunction; its last two conjuncts say that every entry of the integer edge list,
  compared as a signed word, is at least -50000 and less than 50000. Each is an "all" over the whole list
  (a reduction by "and" to a single word), so it holds entry by entry. The float conjuncts before them are
  never opened.
-/
import proofs.«417864_j35218731827626_1_alg».proof.Proof.Gen.Pre_finite_inputs
import Idealize.ShloMosaic.Lib.ReduceAll
import Idealize.ShloMosaic.Lib.IdealHost
import Idealize.ShloMosaic.Lib.ValueIdx

noncomputable section

namespace Cert.IndexRange

open Idealize.ShloMosaic Cert.Pre_finite_inputs Cert.Pre_finite_inputs.Gen

variable {F : FTy → Type} [FloatOps F]

/-- The rank-0 shape has one index. -/
instance subsingleton_scalar_idx : Subsingleton S_.Idx := ⟨fun a b => funext fun d => d.elim0⟩

/-- The word 4294917296 read as a signed 32-bit integer is -50000. -/
theorem lower_word_toInt : (4294917296#32 : BitVec 32).toInt = -50000 := by decide

/-- The word 50000 read as a signed 32-bit integer is 50000. -/
theorem upper_word_toInt : (50000#32 : BitVec 32).toInt = 50000 := by decide

/-- Under the precondition every entry of the edge list lies in [-50000, 50000). -/
theorem edge_list_in_range
    (a0 : FVec F S50000x8 .f32) (a1 : FVec F S800000x4 .f32) (a2 : IVec S2x800000 32) (a3 : FVec F S8x64 .f32)
    (a4 : FVec F S64 .f32) (a5 : FVec F S64x64 .f32) (a6 : FVec F S64 .f32) (a7 : FVec F S4x64 .f32)
    (a8 : FVec F S64 .f32) (a9 : FVec F S64x64 .f32) (a10 : FVec F S64 .f32) (a11 : FVec F S2x192x64 .f32)
    (a12 : FVec F S2x64 .f32) (a13 : FVec F S2x64x64 .f32) (a14 : FVec F S2x64 .f32) (a15 : FVec F S2x128x64 .f32)
    (a16 : FVec F S2x64 .f32) (a17 : FVec F S2x64x64 .f32) (a18 : FVec F S2x64 .f32) (a19 : FVec F S64x64 .f32)
    (a20 : FVec F S64 .f32) (a21 : FVec F S64x6 .f32) (a22 : FVec F S6 .f32)
    (h : Cert.Pre_finite_inputs.fn (F := F) a0 a1 a2 a3 a4 a5 a6 a7 a8 a9 a10 a11 a12 a13 a14 a15 a16 a17 a18 a19 a20
      a21 a22 = (fun _ => 1#1)) :
    ∀ i : Cert.Pre_finite_inputs.S2x800000.Idx, (-50000 : Int) ≤ (a2 i).toInt ∧ (a2 i).toInt < 50000 := by
  intro i
  have h0 := congrFun h ValueIdx.ix0
  dsimp only [Cert.Pre_finite_inputs.fn, fn_part1, fn_part2, fn_part3, fn_part4, fn_part5, fn_part6] at h0
  -- the outer conjunction: (… ∧ all (a2 ≥ -50000)) ∧ all (a2 < 50000)
  obtain ⟨h1, hlt⟩ := IntOp.andi_eq_one.1 h0
  obtain ⟨_, hge⟩ := IntOp.andi_eq_one.1 h1
  have ege := Host.reduce_andi_all _ _ _ _ _ hge i
  have elt := Host.reduce_andi_all _ _ _ _ _ hlt i
  have ige := IntOp.cmpi_sge.1 ege
  have ilt := IntOp.cmpi_slt.1 elt
  rw [ValueIdx.broadcastInDim_scalar_apply] at ige ilt
  constructor
  · calc (-50000 : Int) = (4294917296#32 : BitVec 32).toInt := lower_word_toInt.symm
      _ ≤ (a2 i).toInt := ige
  · calc (a2 i).toInt < (50000#32 : BitVec 32).toInt := ilt
      _ = 50000 := upper_word_toInt

end Cert.IndexRange

end
-- ==== Proof.FoldKeeps.lean ====
/- The buffer contents at the eighteen segment boundaries of the kernel program's @main (the generated frame's
   W0 ... W18): a segment leaves every buffer it does not write as it found it. A host stretch writes the results of
   its operations; a kernel region writes its output array only (its input arrays are read, never written back).
   One lemma per segment, for any buffer outside the segment's written list; walk_back chains them, so that a
   buffer's contents at a late boundary are read back to the boundary just after the segment that wrote it. -/
import proofs.«417864_j35218731827626_1_alg».proof.Proof.Gen.KernelIdeal.Frame

set_option maxRecDepth 16384

noncomputable section
namespace Cert.KernelFold
open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A host stretch leaves a buffer none of its operations writes as it found it. -/
macro "host_keeps" ops:ident hb:ident : tactic => `(tactic|
  exact StableHlo.after_of_forall_not_mem (b := Proc.devRef .tc _) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; apply $hb:ident; subst e; decide))))

/-- The host stretch between boundaries 0 and 1 writes only the listed buffers. -/
theorem keep1 (c : Dev nD) (b : Ref sig .tc) (hb : b ∉ [main_v0, main_v1, main_v2, main_v3, main_v4, main_v5]) :
    W1 m ρ c (Proc.devRef .tc b) = W0 m ρ c (Proc.devRef .tc b) := by
  host_keeps hostOps0 hb

/-- The host stretch between boundaries 2 and 3 writes only the listed buffers. -/
theorem keep3 (c : Dev nD) (b : Ref sig .tc) (hb : b ∉ [main_v7, main_v8]) :
    W3 m ρ c (Proc.devRef .tc b) = W2 m ρ c (Proc.devRef .tc b) := by
  host_keeps hostOps1 hb

/-- The host stretch between boundaries 4 and 5 writes only the listed buffers. -/
theorem keep5 (c : Dev nD) (b : Ref sig .tc) (hb : b ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v10]) :
    W5 m ρ c (Proc.devRef .tc b) = W4 m ρ c (Proc.devRef .tc b) := by
  host_keeps hostOps2 hb

/-- The host stretch between boundaries 5 and 6 writes only the listed buffers. -/
theorem keep6 (c : Dev nD) (b : Ref sig .tc) (hb : b ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v11]) :
    W6 m ρ c (Proc.devRef .tc b) = W5 m ρ c (Proc.devRef .tc b) := by
  host_keeps hostOps2_1 hb

/-- The host stretch between boundaries 6 and 7 writes only the listed buffers. -/
theorem keep7 (c : Dev nD) (b : Ref sig .tc) (hb : b ∉ [main_v12, main_v13, main_v14, main_v15, main_v16, main_v17, main_v18, main_v19, main_v20, main_v21]) :
    W7 m ρ c (Proc.devRef .tc b) = W6 m ρ c (Proc.devRef .tc b) := by
  host_keeps hostOps2_2 hb

/-- The host stretch between boundaries 8 and 9 writes only the listed buffers. -/
theorem keep9 (c : Dev nD) (b : Ref sig .tc) (hb : b ∉ [main_cst, main_v23, main_v24, main_v25, main_v26, main_v27, main_v28, main_v29, main_v30, main_v31, main_v32, main_v33, main_v34, main_v35]) :
    W9 m ρ c (Proc.devRef .tc b) = W8 m ρ c (Proc.devRef .tc b) := by
  host_keeps hostOps3 hb

/-- The host stretch between boundaries 10 and 11 writes only the listed buffers. -/
theorem keep11 (c : Dev nD) (b : Ref sig .tc) (hb : b ∉ [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v37]) :
    W11 m ρ c (Proc.devRef .tc b) = W10 m ρ c (Proc.devRef .tc b) := by
  host_keeps hostOps4 hb

/-- The host stretch between boundaries 11 and 12 writes only the listed buffers. -/
theorem keep12 (c : Dev nD) (b : Ref sig .tc) (hb : b ∉ [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v38]) :
    W12 m ρ c (Proc.devRef .tc b) = W11 m ρ c (Proc.devRef .tc b) := by
  host_keeps hostOps4_1 hb

/-- The host stretch between boundaries 12 and 13 writes only the listed buffers. -/
theorem keep13 (c : Dev nD) (b : Ref sig .tc) (hb : b ∉ [main_v39, main_v40, main_v41, main_v42, main_v43, main_v44, main_v45, main_v46, main_v47, main_v48]) :
    W13 m ρ c (Proc.devRef .tc b) = W12 m ρ c (Proc.devRef .tc b) := by
  host_keeps hostOps4_2 hb

/-- The host stretch between boundaries 14 and 15 writes only the listed buffers. -/
theorem keep15 (c : Dev nD) (b : Ref sig .tc) (hb : b ∉ [main_cst_0, main_v50, main_v51, main_v52, main_v53, main_v54, main_v55, main_v56, main_v57, main_v58, main_v59, main_v60, main_v61, main_v62]) :
    W15 m ρ c (Proc.devRef .tc b) = W14 m ρ c (Proc.devRef .tc b) := by
  host_keeps hostOps5 hb

/-- The host stretch between boundaries 16 and 17 writes only the listed buffers. -/
theorem keep17 (c : Dev nD) (b : Ref sig .tc) (hb : b ∉ [main_v64, main_v65]) :
    W17 m ρ c (Proc.devRef .tc b) = W16 m ρ c (Proc.devRef .tc b) := by
  host_keeps hostOps6 hb

/-- Kernel region 0 (between boundaries 1 and 2) writes only its output array. -/
theorem keep2 (c : Dev nD) (b : Ref sig .tc) (hb : b ∉ [main_v6]) :
    W2 m ρ c (Proc.devRef .tc b) = W1 m ρ c (Proc.devRef .tc b) := by
  by_cases h : ∃ w, Pipeline.arrRef spec0 w = b
  · obtain ⟨w, rfl⟩ := h
    fin_cases w <;> first
      | exact absurd (List.mem_singleton.mpr rfl) hb
      | exact (W2_arr m ρ c _).trans (((dat0 (V1 m ρ) c).arrAt_in _ rfl _).trans (A_eq0 (V1 m ρ) c _))
  · exact W2_of_ne m ρ c b (fun w e => h ⟨w, e⟩)

/-- Kernel region 1 (between boundaries 3 and 4) writes only its output array. -/
theorem keep4 (c : Dev nD) (b : Ref sig .tc) (hb : b ∉ [main_v9]) :
    W4 m ρ c (Proc.devRef .tc b) = W3 m ρ c (Proc.devRef .tc b) := by
  by_cases h : ∃ w, Pipeline.arrRef spec1 w = b
  · obtain ⟨w, rfl⟩ := h
    fin_cases w <;> first
      | exact absurd (List.mem_singleton.mpr rfl) hb
      | exact (W4_arr m ρ c _).trans (((dat1 (V3 m ρ) c).arrAt_in _ rfl _).trans (A_eq1 (V3 m ρ) c _))
  · exact W4_of_ne m ρ c b (fun w e => h ⟨w, e⟩)

/-- Kernel region 2 (between boundaries 7 and 8) writes only its output array. -/
theorem keep8 (c : Dev nD) (b : Ref sig .tc) (hb : b ∉ [main_v22]) :
    W8 m ρ c (Proc.devRef .tc b) = W7 m ρ c (Proc.devRef .tc b) := by
  by_cases h : ∃ w, Pipeline.arrRef spec2 w = b
  · obtain ⟨w, rfl⟩ := h
    fin_cases w <;> first
      | exact absurd (List.mem_singleton.mpr rfl) hb
      | exact (W8_arr m ρ c _).trans (((dat2 (V7 m ρ) c).arrAt_in _ rfl _).trans (A_eq2 (V7 m ρ) c _))
  · exact W8_of_ne m ρ c b (fun w e => h ⟨w, e⟩)

/-- Kernel region 3 (between boundaries 9 and 10) writes only its output array. -/
theorem keep10 (c : Dev nD) (b : Ref sig .tc) (hb : b ∉ [main_v36]) :
    W10 m ρ c (Proc.devRef .tc b) = W9 m ρ c (Proc.devRef .tc b) := by
  by_cases h : ∃ w, Pipeline.arrRef spec3 w = b
  · obtain ⟨w, rfl⟩ := h
    fin_cases w <;> first
      | exact absurd (List.mem_singleton.mpr rfl) hb
      | exact (W10_arr m ρ c _).trans (((dat3 (V9 m ρ) c).arrAt_in _ rfl _).trans (A_eq3 (V9 m ρ) c _))
  · exact W10_of_ne m ρ c b (fun w e => h ⟨w, e⟩)

/-- Kernel region 4 (between boundaries 13 and 14) writes only its output array. -/
theorem keep14 (c : Dev nD) (b : Ref sig .tc) (hb : b ∉ [main_v49]) :
    W14 m ρ c (Proc.devRef .tc b) = W13 m ρ c (Proc.devRef .tc b) := by
  by_cases h : ∃ w, Pipeline.arrRef spec4 w = b
  · obtain ⟨w, rfl⟩ := h
    fin_cases w <;> first
      | exact absurd (List.mem_singleton.mpr rfl) hb
      | exact (W14_arr m ρ c _).trans (((dat4 (V13 m ρ) c).arrAt_in _ rfl _).trans (A_eq4 (V13 m ρ) c _))
  · exact W14_of_ne m ρ c b (fun w e => h ⟨w, e⟩)

/-- Kernel region 5 (between boundaries 15 and 16) writes only its output array. -/
theorem keep16 (c : Dev nD) (b : Ref sig .tc) (hb : b ∉ [main_v63]) :
    W16 m ρ c (Proc.devRef .tc b) = W15 m ρ c (Proc.devRef .tc b) := by
  by_cases h : ∃ w, Pipeline.arrRef spec5 w = b
  · obtain ⟨w, rfl⟩ := h
    fin_cases w <;> first
      | exact absurd (List.mem_singleton.mpr rfl) hb
      | exact (W16_arr m ρ c _).trans (((dat5 (V15 m ρ) c).arrAt_in _ rfl _).trans (A_eq5 (V15 m ρ) c _))
  · exact W16_of_ne m ρ c b (fun w e => h ⟨w, e⟩)

/-- Kernel region 6 (between boundaries 17 and 18) writes only its output array. -/
theorem keep18 (c : Dev nD) (b : Ref sig .tc) (hb : b ∉ [main_v66]) :
    W18 m ρ c (Proc.devRef .tc b) = W17 m ρ c (Proc.devRef .tc b) := by
  by_cases h : ∃ w, Pipeline.arrRef spec6 w = b
  · obtain ⟨w, rfl⟩ := h
    fin_cases w <;> first
      | exact absurd (List.mem_singleton.mpr rfl) hb
      | exact (W18_arr m ρ c _).trans (((dat6 (V17 m ρ) c).arrAt_in _ rfl _).trans (A_eq6 (V17 m ρ) c _))
  · exact W18_of_ne m ρ c b (fun w e => h ⟨w, e⟩)

/-- Walk a buffer's contents back through the boundaries, down to the segment that wrote it. -/
macro "walk_back" : tactic => `(tactic| repeat (first
  | rw [keep18 _ _ _ _ (by decide)]
  | rw [keep17 _ _ _ _ (by decide)]
  | rw [keep16 _ _ _ _ (by decide)]
  | rw [keep15 _ _ _ _ (by decide)]
  | rw [keep14 _ _ _ _ (by decide)]
  | rw [keep13 _ _ _ _ (by decide)]
  | rw [keep12 _ _ _ _ (by decide)]
  | rw [keep11 _ _ _ _ (by decide)]
  | rw [keep10 _ _ _ _ (by decide)]
  | rw [keep9 _ _ _ _ (by decide)]
  | rw [keep8 _ _ _ _ (by decide)]
  | rw [keep7 _ _ _ _ (by decide)]
  | rw [keep6 _ _ _ _ (by decide)]
  | rw [keep5 _ _ _ _ (by decide)]
  | rw [keep4 _ _ _ _ (by decide)]
  | rw [keep3 _ _ _ _ (by decide)]
  | rw [keep2 _ _ _ _ (by decide)]
  | rw [keep1 _ _ _ _ (by decide)]))

end Cert.KernelFold

end
-- ==== Proof.Spec.lean ====
/-
  What the reference computes, step by step, over abstract operands.

  A message-passing network on a graph with 50000 nodes and 800000 directed edges. A two-layer perceptron is
  relu (x · w1 + b1) · w2 + b2, row by row. Nodes (8 features) and edges (4 features) are encoded to 64 features
  by one perceptron each. Then twice: every edge gathers the rows of its source and of its target node, the
  concatenation [edge, source, target] (192 features) goes through a perceptron and is added to the edge's row;
  every node sums the rows of the edges that point at it, the concatenation [node, sum] (128 features) goes
  through a perceptron and is added to the node's row. At the end a perceptron decodes each node to 6 features.
  A row index may be negative: it then counts from the end (50000 is added).

  Each function below is a composition of the reference program's own operations, in the reference's order, so
  that the reference's result is `network` of its arguments by unfolding.
-/
import proofs.«417864_j35218731827626_1_alg».proof.Proof.Gen.ReferenceIdeal

noncomputable section

namespace Cert.Spec

open Cert.ReferenceIdeal Cert.ReferenceIdeal.Gen Idealize.ShloMosaic

variable {F : FTy → Type} [FloatOps F]

/-! ## Constants and biases -/

/-- The zero array of node rows. -/
def zeroNodes : FVec F S50000x64 .f32 := broadcastInDim S50000x64 ![] bcast_S_S50000x64 (constant S_ .f32 0x00000000#32)

/-- The zero array of edge rows. -/
def zeroEdges : FVec F S800000x64 .f32 := broadcastInDim S800000x64 ![] bcast_S_S800000x64 (constant S_ .f32 0x00000000#32)

/-- A bias of 64 entries repeated on every node row. -/
def biasNodes (b : FVec F S64 .f32) : FVec F S50000x64 .f32 :=
  broadcastInDim S50000x64 ![0, 1] bcast_S1x64_S50000x64_0_1 (broadcastInDim S1x64 ![1] bcast_S64_S1x64_1 b)

/-- A bias of 64 entries repeated on every edge row. -/
def biasEdges (b : FVec F S64 .f32) : FVec F S800000x64 .f32 :=
  broadcastInDim S800000x64 ![0, 1] bcast_S1x64_S800000x64_0_1 (broadcastInDim S1x64 ![1] bcast_S64_S1x64_1 b)

/-- A bias of 6 entries repeated on every node row. -/
def biasOut (b : FVec F S6 .f32) : FVec F S50000x6 .f32 :=
  broadcastInDim S50000x6 ![0, 1] bcast_S1x6_S50000x6_0_1 (broadcastInDim S1x6 ![1] bcast_S6_S1x6_1 b)

/-! ## The encoders -/

/-- relu (x · w1 + b1) · w2 + b2 on the 50000 node rows of 8 features. -/
def encodeNodes (x : FVec F S50000x8 .f32) (w1 : FVec F S8x64 .f32) (b1 : FVec F S64 .f32) (w2 : FVec F S64x64 .f32)
    (b2 : FVec F S64 .f32) : FVec F S50000x64 .f32 :=
  addf (Host.dotGeneral dot_S50000x64_S64x64_S50000x64_1_0_0_1_n_n none
      (maximumf (addf (Host.dotGeneral dot_S50000x8_S8x64_S50000x64_1_0_0_1_n_n none x w1) (biasNodes b1)) zeroNodes) w2)
    (biasNodes b2)

/-- relu (x · w1 + b1) · w2 + b2 on the 800000 edge rows of 4 features. -/
def encodeEdges (x : FVec F S800000x4 .f32) (w1 : FVec F S4x64 .f32) (b1 : FVec F S64 .f32) (w2 : FVec F S64x64 .f32)
    (b2 : FVec F S64 .f32) : FVec F S800000x64 .f32 :=
  addf (Host.dotGeneral dot_S800000x64_S64x64_S800000x64_1_0_0_1_n_n none
      (maximumf (addf (Host.dotGeneral dot_S800000x4_S4x64_S800000x64_1_0_0_1_n_n none x w1) (biasEdges b1)) zeroEdges) w2)
    (biasEdges b2)

/-! ## Rows of the edge list, and the layers' weights -/

/-- Row 0 of the edge list: each edge's source node. -/
def sources (ei : IVec S2x800000 32) : IVec S800000 32 :=
  shapeCast _ (extractStridedSlice S1x800000 ![0, 0] ei slices_S2x800000_S1x800000_0_0) shapeCasts_S1x800000_S800000

/-- Row 1 of the edge list: each edge's target node. -/
def targets (ei : IVec S2x800000 32) : IVec S800000 32 :=
  shapeCast _ (extractStridedSlice S1x800000 ![1, 0] ei slices_S2x800000_S1x800000_1_0) shapeCasts_S1x800000_S800000

/-- Layer 0 of a stack of two [192, 64] matrices. -/
def layer0_192 (w : FVec F S2x192x64 .f32) : FVec F S192x64 .f32 :=
  shapeCast _ (extractStridedSlice S1x192x64 ![0, 0, 0] w slices_S2x192x64_S1x192x64_0_0_0) shapeCasts_S1x192x64_S192x64
/-- Layer 1 of a stack of two [192, 64] matrices. -/
def layer1_192 (w : FVec F S2x192x64 .f32) : FVec F S192x64 .f32 :=
  shapeCast _ (extractStridedSlice S1x192x64 ![1, 0, 0] w slices_S2x192x64_S1x192x64_1_0_0) shapeCasts_S1x192x64_S192x64
/-- Layer 0 of a stack of two [128, 64] matrices. -/
def layer0_128 (w : FVec F S2x128x64 .f32) : FVec F S128x64 .f32 :=
  shapeCast _ (extractStridedSlice S1x128x64 ![0, 0, 0] w slices_S2x128x64_S1x128x64_0_0_0) shapeCasts_S1x128x64_S128x64
/-- Layer 1 of a stack of two [128, 64] matrices. -/
def layer1_128 (w : FVec F S2x128x64 .f32) : FVec F S128x64 .f32 :=
  shapeCast _ (extractStridedSlice S1x128x64 ![1, 0, 0] w slices_S2x128x64_S1x128x64_1_0_0) shapeCasts_S1x128x64_S128x64
/-- Layer 0 of a stack of two [64, 64] matrices. -/
def layer0_64 (w : FVec F S2x64x64 .f32) : FVec F S64x64 .f32 :=
  shapeCast _ (extractStridedSlice S1x64x64 ![0, 0, 0] w slices_S2x64x64_S1x64x64_0_0_0) shapeCasts_S1x64x64_S64x64
/-- Layer 1 of a stack of two [64, 64] matrices. -/
def layer1_64 (w : FVec F S2x64x64 .f32) : FVec F S64x64 .f32 :=
  shapeCast _ (extractStridedSlice S1x64x64 ![1, 0, 0] w slices_S2x64x64_S1x64x64_1_0_0) shapeCasts_S1x64x64_S64x64
/-- Layer 0 of a stack of two biases of 64 entries. -/
def layer0_b (b : FVec F S2x64 .f32) : FVec F S64 .f32 :=
  shapeCast _ (extractStridedSlice S1x64 ![0, 0] b slices_S2x64_S1x64_0_0) shapeCasts_S1x64_S64
/-- Layer 1 of a stack of two biases of 64 entries. -/
def layer1_b (b : FVec F S2x64 .f32) : FVec F S64 .f32 :=
  shapeCast _ (extractStridedSlice S1x64 ![1, 0] b slices_S2x64_S1x64_1_0) shapeCasts_S1x64_S64

/-! ## Gathering node rows along edges, and summing edge rows into nodes -/

/-- The row indices as the gather takes them: a negative index counts from the end. -/
def wrapRows (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- For each edge, the row of `x` at the edge's (wrapped) node index. -/
def gatherRows (x : FVec F S50000x64 .f32) (idx : IVec S800000 32) : FVec F S800000x64 .f32 :=
  Host.gather gather_S50000x64_S800000x1_S800000x64_1_0_n_n_0_1_164 x (wrapRows idx)

/-- For each node, the sum of the rows of the edges whose index is that node. -/
def segmentSum (e : FVec F S800000x64 .f32) (idx : IVec S800000 32) : FVec F S50000x64 .f32 :=
  Host.scatterAdd scatter_S50000x64_S800000x1_S800000x64_1_0_0_1 zeroNodes
    (broadcastInDim S800000x1 ![0] bcast_S800000_S800000x1_0 idx) e

/-! ## One round of message passing -/

/-- The edge update: e + perceptron [e, source row, target row]. -/
def edgeStep (e xs xd : FVec F S800000x64 .f32) (w1 : FVec F S192x64 .f32) (b1 : FVec F S64 .f32)
    (w2 : FVec F S64x64 .f32) (b2 : FVec F S64 .f32) : FVec F S800000x64 .f32 :=
  addf e
    (addf (Host.dotGeneral dot_S800000x64_S64x64_S800000x64_1_0_0_1_n_n none
        (maximumf (addf (Host.dotGeneral dot_S800000x192_S192x64_S800000x64_1_0_0_1_n_n none
            (concatenate S800000x192 1 [⟨S800000x64, e⟩, ⟨S800000x64, xs⟩, ⟨S800000x64, xd⟩]
              concatenates_S800000x64_S800000x64_S800000x64_S800000x192_d1) w1) (biasEdges b1)) zeroEdges) w2)
      (biasEdges b2))

/-- The node update: x + perceptron [x, sum of incoming edge rows]. -/
def nodeStep (x agg : FVec F S50000x64 .f32) (w1 : FVec F S128x64 .f32) (b1 : FVec F S64 .f32)
    (w2 : FVec F S64x64 .f32) (b2 : FVec F S64 .f32) : FVec F S50000x64 .f32 :=
  addf x
    (addf (Host.dotGeneral dot_S50000x64_S64x64_S50000x64_1_0_0_1_n_n none
        (maximumf (addf (Host.dotGeneral dot_S50000x128_S128x64_S50000x64_1_0_0_1_n_n none
            (concatenate S50000x128 1 [⟨S50000x64, x⟩, ⟨S50000x64, agg⟩] concatenates_S50000x64_S50000x64_S50000x128_d1) w1)
          (biasNodes b1)) zeroNodes) w2)
      (biasNodes b2))

/-! ## The decoder -/

/-- relu (x · w1 + b1) · w2 + b2 on the 50000 node rows, to 6 features. -/
def decode (x : FVec F S50000x64 .f32) (w1 : FVec F S64x64 .f32) (b1 : FVec F S64 .f32) (w2 : FVec F S64x6 .f32)
    (b2 : FVec F S6 .f32) : FVec F S50000x6 .f32 :=
  addf (Host.dotGeneral dot_S50000x64_S64x6_S50000x6_1_0_0_1_n_n none
      (maximumf (addf (Host.dotGeneral dot_S50000x64_S64x64_S50000x64_1_0_0_1_n_n none x w1) (biasNodes b1)) zeroNodes) w2)
    (biasOut b2)

end Cert.Spec

end
-- ==== Proof.Network.lean ====
/-
  The network as stages of its 23 inputs: the encoded nodes and edges, the edges and nodes after each of the two
  rounds of message passing, and the decoded result. Each stage is a composition of the steps of Spec.lean.
-/
import proofs.«417864_j35218731827626_1_alg».proof.Proof.Spec

noncomputable section

namespace Cert.Spec

open Cert.ReferenceIdeal Cert.ReferenceIdeal.Gen Idealize.ShloMosaic

/-- The network's 23 inputs: node features, edge features, the edge list (row 0 the sources, row 1 the targets),
    the two encoders' weights, the two rounds' edge and node perceptrons (stacked over the rounds), the decoder's. -/
structure Inputs (F : FTy → Type) [FloatOps F] where
  x : FVec F S50000x8 .f32
  ea : FVec F S800000x4 .f32
  ei : IVec S2x800000 32
  nw1 : FVec F S8x64 .f32
  nb1 : FVec F S64 .f32
  nw2 : FVec F S64x64 .f32
  nb2 : FVec F S64 .f32
  ew1 : FVec F S4x64 .f32
  eb1 : FVec F S64 .f32
  ew2 : FVec F S64x64 .f32
  eb2 : FVec F S64 .f32
  pew1 : FVec F S2x192x64 .f32
  peb1 : FVec F S2x64 .f32
  pew2 : FVec F S2x64x64 .f32
  peb2 : FVec F S2x64 .f32
  pnw1 : FVec F S2x128x64 .f32
  pnb1 : FVec F S2x64 .f32
  pnw2 : FVec F S2x64x64 .f32
  pnb2 : FVec F S2x64 .f32
  dw1 : FVec F S64x64 .f32
  db1 : FVec F S64 .f32
  dw2 : FVec F S64x6 .f32
  db2 : FVec F S6 .f32

variable {F : FTy → Type} [FloatOps F]

/-- The encoded nodes. -/
def nodes0 (a : Inputs F) : FVec F S50000x64 .f32 := encodeNodes a.x a.nw1 a.nb1 a.nw2 a.nb2
/-- The encoded edges. -/
def edges0 (a : Inputs F) : FVec F S800000x64 .f32 := encodeEdges a.ea a.ew1 a.eb1 a.ew2 a.eb2
/-- The edges after the first round. -/
def edges1 (a : Inputs F) : FVec F S800000x64 .f32 :=
  edgeStep (edges0 a) (gatherRows (nodes0 a) (sources a.ei)) (gatherRows (nodes0 a) (targets a.ei))
    (layer0_192 a.pew1) (layer0_b a.peb1) (layer0_64 a.pew2) (layer0_b a.peb2)
/-- The nodes after the first round. -/
def nodes1 (a : Inputs F) : FVec F S50000x64 .f32 :=
  nodeStep (nodes0 a) (segmentSum (edges1 a) (targets a.ei))
    (layer0_128 a.pnw1) (layer0_b a.pnb1) (layer0_64 a.pnw2) (layer0_b a.pnb2)
/-- The edges after the second round. -/
def edges2 (a : Inputs F) : FVec F S800000x64 .f32 :=
  edgeStep (edges1 a) (gatherRows (nodes1 a) (sources a.ei)) (gatherRows (nodes1 a) (targets a.ei))
    (layer1_192 a.pew1) (layer1_b a.peb1) (layer1_64 a.pew2) (layer1_b a.peb2)
/-- The nodes after the second round. -/
def nodes2 (a : Inputs F) : FVec F S50000x64 .f32 :=
  nodeStep (nodes1 a) (segmentSum (edges2 a) (targets a.ei))
    (layer1_128 a.pnw1) (layer1_b a.pnb1) (layer1_64 a.pnw2) (layer1_b a.pnb2)
/-- The network's result: the decoded nodes. -/
def network (a : Inputs F) : FVec F S50000x6 .f32 := decode (nodes2 a) a.dw1 a.db1 a.dw2 a.db2

end Cert.Spec

end
-- ==== Proof.TakeRows.lean ====
/-
  The kernel's row gather, and why it is the reference's.

  The kernel gathers node rows with a masked take: a negative row index counts from the end (50000 is added),
  the row is read at the wrapped index, and the result row is replaced by a fill value wherever the wrapped
  index is outside [0, 49999]. The reference reads the row at the wrapped index and never replaces it.
  When every index lies in [-50000, 50000) the wrapped index lies in [0, 49999]: a negative index v has
  0 ≤ v + 50000 < 50000 with no overflow in 32 bits, a non-negative one is kept. So the mask is true at every
  row, the fill is never chosen, and the two gathers are one array.
-/
import proofs.«417864_j35218731827626_1_alg».proof.Proof.Gen.KernelIdeal
import proofs.«417864_j35218731827626_1_alg».proof.Proof.Spec
import Idealize.ShloMosaic.Lib.ReduceAll
import Idealize.ShloMosaic.Lib.ValueIdx

noncomputable section

namespace Cert.TakeRows

open Idealize.ShloMosaic Cert.KernelIdeal Cert.KernelIdeal.Gen

variable {F : FTy → Type} [FloatOps F]

/-! ## The kernel's take, as one function -/

/-- The row indices as a column, a negative index counted from the end (50000 added). -/
def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The kernel's take: the row of `x` at the wrapped index where that index is in [0, 49999], the fill row
    elsewhere. -/
def takeRows (x : FVec F S50000x64 .f32) (idx : IVec S800000 32) : FVec F S800000x64 .f32 :=
  select
    (broadcastInDim S800000x64 ![0] bcast_S800000_S800000x64_0
      (Host.reduce IntOp.andi
        (andi (cmpi .sge (wrapCol idx) (broadcastInDim S800000x1 ![] bcast_S_S800000x1 (constantI S_ 32 0#32)))
          (cmpi .sle (wrapCol idx)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 x (wrapCol idx))
    (broadcastInDim S800000x64 ![] bcast_S_S800000x64 (constant S_ .f32 0x7FC00000#32))

/-! ## A conjunction over a list that is true everywhere -/

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a List.mem_cons_self, h11]
    exact foldl_andi_one f l fun n hn => h n (List.mem_cons_of_mem _ hn)

/-- A reduction by "and" from 1 of an array that is 1 everywhere is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-! ## The wrapped index is in range -/

theorem word_zero_toInt : (0#32 : BitVec 32).toInt = 0 := by decide
theorem word_50000_toInt : (50000#32 : BitVec 32).toInt = 50000 := by decide
theorem word_49999_toInt : (49999#32 : BitVec 32).toInt = 49999 := by decide

/-- A signed word v in [-50000, 50000), with 50000 added when it is negative, lies in [0, 49999]. -/
theorem wrap_word_in_range (v : BitVec 32) (hlo : (-50000 : Int) ≤ v.toInt) (hhi : v.toInt < 50000) :
    0 ≤ (Scalar.select (IntOp.cmpi .slt v 0#32) (IntOp.addi v 50000#32) v).toInt ∧
      (Scalar.select (IntOp.cmpi .slt v 0#32) (IntOp.addi v 50000#32) v).toInt ≤ 49999 := by
  by_cases hc : IntOp.cmpi .slt v 0#32 = 1#1
  · have hneg := IntOp.cmpi_slt.1 hc
    rw [word_zero_toInt] at hneg
    rw [hc, ValueIdx.select_one]
    show 0 ≤ (v + 50000#32).toInt ∧ (v + 50000#32).toInt ≤ 49999
    rw [BitVec.toInt_add, word_50000_toInt, Int.bmod_eq_of_le (by omega) (by omega)]
    omega
  · have hnn : ¬ v.toInt < 0 := fun hlt => hc (IntOp.cmpi_slt.2 (by rw [word_zero_toInt]; exact hlt))
    rw [ValueIdx.eq_zero_of_ne_one hc, ValueIdx.select_zero]
    omega

/-- Every entry of the wrapped column is in [0, 49999]. -/
theorem wrapCol_in_range (idx : IVec S800000 32)
    (h : ∀ e : S800000.Idx, (-50000 : Int) ≤ (idx e).toInt ∧ (idx e).toInt < 50000) (i : S800000x1.Idx) :
    0 ≤ (wrapCol idx i).toInt ∧ (wrapCol idx i).toInt ≤ 49999 := by
  unfold wrapCol broadcastInDim
  exact wrap_word_in_range _ (h _).1 (h _).2

/-! ## The mask is true everywhere, so the take is the plain gather -/

theorem takeRows_eq_gatherRows (x : FVec F S50000x64 .f32) (idx : IVec S800000 32)
    (h : ∀ e : S800000.Idx, (-50000 : Int) ≤ (idx e).toInt ∧ (idx e).toInt < 50000) :
    takeRows x idx = Cert.Spec.gatherRows x idx := by
  funext j
  have hm : broadcastInDim S800000x64 ![0] bcast_S800000_S800000x64_0
      (Host.reduce IntOp.andi
        (andi (cmpi .sge (wrapCol idx) (broadcastInDim S800000x1 ![] bcast_S_S800000x1 (constantI S_ 32 0#32)))
          (cmpi .sle (wrapCol idx)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_) j = 1#1 := by
    unfold broadcastInDim
    refine reduce_andi_of_all _ _ _ _ _ rfl fun i => ?_
    obtain ⟨h0, h1⟩ := wrapCol_in_range idx h i
    show IntOp.andi (IntOp.cmpi .sge (wrapCol idx i) 0#32) (IntOp.cmpi .sle (wrapCol idx i) 49999#32) = 1#1
    refine IntOp.andi_eq_one.2 ⟨IntOp.cmpi_sge.2 ?_, IntOp.cmpi_sle.2 ?_⟩
    · rw [word_zero_toInt]; exact h0
    · rw [word_49999_toInt]; exact h1
  unfold takeRows
  rw [ValueIdx.select_apply, hm, ValueIdx.select_one]
  rfl

/-! ## The two rows of the edge list inherit the list's range -/

theorem sources_in_range (ei : IVec Cert.ReferenceIdeal.S2x800000 32)
    (h : ∀ i, (-50000 : Int) ≤ (ei i).toInt ∧ (ei i).toInt < 50000) :
    ∀ e, (-50000 : Int) ≤ (Cert.Spec.sources ei e).toInt ∧ (Cert.Spec.sources ei e).toInt < 50000 := by
  intro e
  unfold Cert.Spec.sources shapeCast extractStridedSlice
  exact h _

theorem targets_in_range (ei : IVec Cert.ReferenceIdeal.S2x800000 32)
    (h : ∀ i, (-50000 : Int) ≤ (ei i).toInt ∧ (ei i).toInt < 50000) :
    ∀ e, (-50000 : Int) ≤ (Cert.Spec.targets ei e).toInt ∧ (Cert.Spec.targets ei e).toInt < 50000 := by
  intro e
  unfold Cert.Spec.targets shapeCast extractStridedSlice
  exact h _

end Cert.TakeRows

end
-- ==== Proof.TakeStretches.lean ====
/-
  The four row gathers of the kernel program, each read at its result buffer.

  Each gather is a stretch of 23 host operations: the wrap of negative indices, the range test of the wrapped
  index, the gather itself and the select between the gathered row and the fill. Whatever the buffers hold when
  the stretch is entered, its result buffer then holds the take (`Cert.TakeRows.takeRows`) of what the stretch
  finds in its two argument buffers: every operation's result is its function of its operands' contents, every
  other buffer is left as it was, and a value moved to a buffer's own type and back is itself.
-/
import proofs.«417864_j35218731827626_1_alg».proof.Proof.Gen.KernelIdeal.Frame
import proofs.«417864_j35218731827626_1_alg».proof.Proof.TakeRows
import Idealize.ShloMosaic.Lib.StableHlo.Run

noncomputable section

namespace Cert.KernelValue

open Cert.KernelIdeal Cert.KernelIdeal.Gen Idealize.ShloMosaic Idealize.ShloMosaic.TcCoe Idealize.SL.Sem Idealize.ShloMosaic.StableHlo

variable {F : FTy → Type} [FloatOps F]

set_option maxRecDepth 16384

/-- Contents moved to a reference's own type and back are themselves. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

set_option maxHeartbeats 4000000 in
theorem take0_after (W : Valuation τ sig (Elt F)) :
    StableHlo.after hostOps2 W (Proc.devRef .tc main_v10)
      = Cert.TakeRows.takeRows (W (Proc.devRef .tc main_v6)) (W (Proc.devRef .tc main_v1)) := by
  have ei : (TRef.of main_v1 : TRef sig ⟨S800000, .i32⟩).ofBuf (W (Proc.devRef .tc main_v1))
      = W (Proc.devRef .tc main_v1) := rfl
  have ex : (TRef.of main_v6 : TRef sig ⟨S50000x64, .f32⟩).ofBuf (W (Proc.devRef .tc main_v6))
      = W (Proc.devRef .tc main_v6) := rfl
  have eo : ∀ v : BufTy.Contents (Elt F) ⟨S800000x64, .f32⟩,
      @Eq (FVec F S800000x64 .f32) ((TRef.of main_v10 : TRef sig ⟨S800000x64, .f32⟩).toBuf v) v := fun _ => rfl
  after_results
  simp only [ofBuf_toBuf]
  rw [ei, ex, eo]
  unfold Cert.TakeRows.takeRows Cert.TakeRows.wrapCol
  rfl

set_option maxHeartbeats 4000000 in
theorem take1_after (W : Valuation τ sig (Elt F)) :
    StableHlo.after hostOps2_1 W (Proc.devRef .tc main_v11)
      = Cert.TakeRows.takeRows (W (Proc.devRef .tc main_v6)) (W (Proc.devRef .tc main_v3)) := by
  have ei : (TRef.of main_v3 : TRef sig ⟨S800000, .i32⟩).ofBuf (W (Proc.devRef .tc main_v3))
      = W (Proc.devRef .tc main_v3) := rfl
  have ex : (TRef.of main_v6 : TRef sig ⟨S50000x64, .f32⟩).ofBuf (W (Proc.devRef .tc main_v6))
      = W (Proc.devRef .tc main_v6) := rfl
  have eo : ∀ v : BufTy.Contents (Elt F) ⟨S800000x64, .f32⟩,
      @Eq (FVec F S800000x64 .f32) ((TRef.of main_v11 : TRef sig ⟨S800000x64, .f32⟩).toBuf v) v := fun _ => rfl
  after_results
  simp only [ofBuf_toBuf]
  rw [ei, ex, eo]
  unfold Cert.TakeRows.takeRows Cert.TakeRows.wrapCol
  rfl

set_option maxHeartbeats 4000000 in
theorem take2_after (W : Valuation τ sig (Elt F)) :
    StableHlo.after hostOps4 W (Proc.devRef .tc main_v37)
      = Cert.TakeRows.takeRows (W (Proc.devRef .tc main_v36)) (W (Proc.devRef .tc main_v1)) := by
  have ei : (TRef.of main_v1 : TRef sig ⟨S800000, .i32⟩).ofBuf (W (Proc.devRef .tc main_v1))
      = W (Proc.devRef .tc main_v1) := rfl
  have ex : (TRef.of main_v36 : TRef sig ⟨S50000x64, .f32⟩).ofBuf (W (Proc.devRef .tc main_v36))
      = W (Proc.devRef .tc main_v36) := rfl
  have eo : ∀ v : BufTy.Contents (Elt F) ⟨S800000x64, .f32⟩,
      @Eq (FVec F S800000x64 .f32) ((TRef.of main_v37 : TRef sig ⟨S800000x64, .f32⟩).toBuf v) v := fun _ => rfl
  after_results
  simp only [ofBuf_toBuf]
  rw [ei, ex, eo]
  unfold Cert.TakeRows.takeRows Cert.TakeRows.wrapCol
  rfl

set_option maxHeartbeats 4000000 in
theorem take3_after (W : Valuation τ sig (Elt F)) :
    StableHlo.after hostOps4_1 W (Proc.devRef .tc main_v38)
      = Cert.TakeRows.takeRows (W (Proc.devRef .tc main_v36)) (W (Proc.devRef .tc main_v3)) := by
  have ei : (TRef.of main_v3 : TRef sig ⟨S800000, .i32⟩).ofBuf (W (Proc.devRef .tc main_v3))
      = W (Proc.devRef .tc main_v3) := rfl
  have ex : (TRef.of main_v36 : TRef sig ⟨S50000x64, .f32⟩).ofBuf (W (Proc.devRef .tc main_v36))
      = W (Proc.devRef .tc main_v36) := rfl
  have eo : ∀ v : BufTy.Contents (Elt F) ⟨S800000x64, .f32⟩,
      @Eq (FVec F S800000x64 .f32) ((TRef.of main_v38 : TRef sig ⟨S800000x64, .f32⟩).toBuf v) v := fun _ => rfl
  after_results
  simp only [ofBuf_toBuf]
  rw [ei, ex, eo]
  unfold Cert.TakeRows.takeRows Cert.TakeRows.wrapCol
  rfl

end Cert.KernelValue

end
-- ==== Proof.LibMatmul.lean ====
/-
  A product of two matrices, read at an entry (a general lemma: nothing here depends on a program).

  Two layouts of a contraction over one axis, without batch axes. In the first the left factor is [A, K] and is
  contracted on its axis 1, the right factor is [K, B] and is contracted on its axis 0: entry (i, j) of the product
  is the sum over k of l[i, k] * r[k, j]. In the second the left factor is [K, A] and is contracted on its axis 0
  (the product with the transpose of the left factor), the right factor is again [K, B] contracted on its axis 0:
  entry (i, j) is the sum over k of l[k, i] * r[k, j]. Over the extended reals the host's product is exactly that
  sum, and the matrix unit's is the accumulator's entry plus that sum.
-/
import Idealize.ShloMosaic.Lib.ValueIdx
import Idealize.ShloMosaic.PureOps.Ideal.Laws

noncomputable section

namespace Cert.Lib.MatMul

open Idealize.ShloMosaic Idealize.ShloMosaic.ValueIdx

/-! ## Left factor [A, K] on its axis 1, right factor [K, B] on its axis 0 -/

section Plain

/-- The dimension numbers of [A, K] times [K, B]: the left factor contracted on axis 1, the right on axis 0, no
    batch axes. -/
abbrev mmD (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

/-- The left factor's row is the result's row. -/
theorem mm_lhs0 (j : (⟨2, ![A, B]⟩ : Shape).Idx) (q : (mmD A K B wf).contr.Idx) :
    ((mmD A K B wf).lhsIdx j q 0).val = (j 0).val := by
  unfold DotDims.lhsIdx
  rw [dif_neg (show ¬(0 : Fin 2) ∈ (mmD A K B wf).lhsBatch from List.not_mem_nil),
    dif_pos (show (0 : Fin 2) ∈ (mmD A K B wf).lhsNonContracting from List.mem_singleton.mpr rfl)]
  rfl

/-- The left factor's column is the contraction position. -/
theorem mm_lhs1 (j : (⟨2, ![A, B]⟩ : Shape).Idx) (q : (mmD A K B wf).contr.Idx) :
    ((mmD A K B wf).lhsIdx j q 1).val = (q ⟨0, Nat.one_pos⟩).val :=
  (mmD A K B wf).lhsIdx_val_of_single rfl j q

/-- The right factor's row is the contraction position. -/
theorem mm_rhs0 (j : (⟨2, ![A, B]⟩ : Shape).Idx) (q : (mmD A K B wf).contr.Idx) :
    ((mmD A K B wf).rhsIdx j q 0).val = (q ⟨0, Nat.one_pos⟩).val :=
  (mmD A K B wf).rhsIdx_val_of_single rfl j q

/-- The right factor's column is the result's column. -/
theorem mm_rhs1 (j : (⟨2, ![A, B]⟩ : Shape).Idx) (q : (mmD A K B wf).contr.Idx) :
    ((mmD A K B wf).rhsIdx j q 1).val = (j 1).val := by
  unfold DotDims.rhsIdx
  rw [dif_neg (show ¬(1 : Fin 2) ∈ (mmD A K B wf).rhsBatch from List.not_mem_nil),
    dif_pos (show (1 : Fin 2) ∈ (mmD A K B wf).rhsNonContracting from List.mem_singleton.mpr rfl)]
  rfl

/-- The contraction's sum, re-indexed by the one coordinate k: the sum over k of l[i, k] * r[k, j]. -/
theorem mm_sum {φ₁ φ₂ : FTy} (l : FVec Ideal ⟨2, ![A, K]⟩ φ₁) (r : FVec Ideal ⟨2, ![K, B]⟩ φ₂) (i : Fin A) (j : Fin B) :
    ∑ q : (mmD A K B wf).contr.Idx, l ((mmD A K B wf).lhsIdx (ix2 i j) q) * r ((mmD A K B wf).rhsIdx (ix2 i j) q)
      = ∑ k : Fin K, l (ix2 i k) * r (ix2 k j) := by
  rw [← Equiv.sum_comp (contrEquiv1 (mmD A K B wf) K rfl rfl).symm]
  refine Finset.sum_congr rfl fun k _ => ?_
  have hk := contrEquiv1_symm_val (mmD A K B wf) K rfl rfl k
  have el : (mmD A K B wf).lhsIdx (ix2 i j) ((contrEquiv1 (mmD A K B wf) K rfl rfl).symm k) = ix2 i k :=
    funext fun a => Fin.ext (by
      match a with
      | ⟨0, _⟩ => exact mm_lhs0 wf _ _
      | ⟨1, _⟩ => exact (mm_lhs1 wf _ _).trans hk)
  have er : (mmD A K B wf).rhsIdx (ix2 i j) ((contrEquiv1 (mmD A K B wf) K rfl rfl).symm k) = ix2 k j :=
    funext fun a => Fin.ext (by
      match a with
      | ⟨0, _⟩ => exact (mm_rhs0 wf _ _).trans hk
      | ⟨1, _⟩ => exact mm_rhs1 wf _ _)
  rw [el, er]

/-- The host's product at entry (i, j): the sum over k of l[i, k] * r[k, j]. -/
theorem dot_apply {φ₁ φ₂ : FTy} (prec : Option ContractPrecision) (l : FVec Ideal ⟨2, ![A, K]⟩ φ₁)
    (r : FVec Ideal ⟨2, ![K, B]⟩ φ₂) (i : Fin A) (j : Fin B) :
    Host.dotGeneral (F := Ideal) (mmD A K B wf) prec l r (ix2 i j) = ∑ k : Fin K, l (ix2 i k) * r (ix2 k j) := by
  simp only [Host.dotGeneral]
  rw [Ideal.dotGeneral_apply]
  exact mm_sum wf l r i j

/-- The matrix unit's product at entry (i, j): the accumulator there plus the sum over k of l[i, k] * r[k, j]. -/
theorem matmul_apply {φ₁ φ₂ : FTy} (prec : Option ContractPrecision) (l : FVec Ideal ⟨2, ![A, K]⟩ φ₁)
    (r : FVec Ideal ⟨2, ![K, B]⟩ φ₂) (acc : FVec Ideal ⟨2, ![A, B]⟩ .f32) (i : Fin A) (j : Fin B) :
    matmul (F := Ideal) (mmD A K B wf) prec l r acc (ix2 i j)
      = acc (ix2 i j) + ∑ k : Fin K, l (ix2 i k) * r (ix2 k j) := by
  simp only [matmul]
  rw [Ideal.matmul_apply]
  exact congrArg (acc (ix2 i j) + ·) (mm_sum wf l r i j)

end Plain

/-! ## Left factor [K, A] on its axis 0, right factor [K, B] on its axis 0 -/

section LeftTransposed

/-- The dimension numbers of the transpose of [K, A] times [K, B]: both factors contracted on axis 0, no batch
    axes. -/
abbrev mmTD (K A B : Nat) (wf : DotDims.WF ⟨2, ![K, A]⟩ ⟨2, ![K, B]⟩ ⟨2, ![A, B]⟩ [0] [0] [1] [1] [] []) :
    DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := wf

variable {K A B : Nat} (wf : DotDims.WF ⟨2, ![K, A]⟩ ⟨2, ![K, B]⟩ ⟨2, ![A, B]⟩ [0] [0] [1] [1] [] [])

/-- The left factor's row is the contraction position. -/
theorem mmT_lhs0 (j : (⟨2, ![A, B]⟩ : Shape).Idx) (q : (mmTD K A B wf).contr.Idx) :
    ((mmTD K A B wf).lhsIdx j q 0).val = (q ⟨0, Nat.one_pos⟩).val :=
  (mmTD K A B wf).lhsIdx_val_of_single rfl j q

/-- The left factor's column is the result's row. -/
theorem mmT_lhs1 (j : (⟨2, ![A, B]⟩ : Shape).Idx) (q : (mmTD K A B wf).contr.Idx) :
    ((mmTD K A B wf).lhsIdx j q 1).val = (j 0).val := by
  unfold DotDims.lhsIdx
  rw [dif_neg (show ¬(1 : Fin 2) ∈ (mmTD K A B wf).lhsBatch from List.not_mem_nil),
    dif_pos (show (1 : Fin 2) ∈ (mmTD K A B wf).lhsNonContracting from List.mem_singleton.mpr rfl)]
  rfl

/-- The right factor's row is the contraction position. -/
theorem mmT_rhs0 (j : (⟨2, ![A, B]⟩ : Shape).Idx) (q : (mmTD K A B wf).contr.Idx) :
    ((mmTD K A B wf).rhsIdx j q 0).val = (q ⟨0, Nat.one_pos⟩).val :=
  (mmTD K A B wf).rhsIdx_val_of_single rfl j q

/-- The right factor's column is the result's column. -/
theorem mmT_rhs1 (j : (⟨2, ![A, B]⟩ : Shape).Idx) (q : (mmTD K A B wf).contr.Idx) :
    ((mmTD K A B wf).rhsIdx j q 1).val = (j 1).val := by
  unfold DotDims.rhsIdx
  rw [dif_neg (show ¬(1 : Fin 2) ∈ (mmTD K A B wf).rhsBatch from List.not_mem_nil),
    dif_pos (show (1 : Fin 2) ∈ (mmTD K A B wf).rhsNonContracting from List.mem_singleton.mpr rfl)]
  rfl

/-- The contraction's sum, re-indexed by the one coordinate k: the sum over k of l[k, i] * r[k, j]. -/
theorem mmT_sum {φ₁ φ₂ : FTy} (l : FVec Ideal ⟨2, ![K, A]⟩ φ₁) (r : FVec Ideal ⟨2, ![K, B]⟩ φ₂) (i : Fin A) (j : Fin B) :
    ∑ q : (mmTD K A B wf).contr.Idx, l ((mmTD K A B wf).lhsIdx (ix2 i j) q) * r ((mmTD K A B wf).rhsIdx (ix2 i j) q)
      = ∑ k : Fin K, l (ix2 k i) * r (ix2 k j) := by
  rw [← Equiv.sum_comp (contrEquiv1 (mmTD K A B wf) K rfl rfl).symm]
  refine Finset.sum_congr rfl fun k _ => ?_
  have hk := contrEquiv1_symm_val (mmTD K A B wf) K rfl rfl k
  have el : (mmTD K A B wf).lhsIdx (ix2 i j) ((contrEquiv1 (mmTD K A B wf) K rfl rfl).symm k) = ix2 k i :=
    funext fun a => Fin.ext (by
      match a with
      | ⟨0, _⟩ => exact (mmT_lhs0 wf _ _).trans hk
      | ⟨1, _⟩ => exact mmT_lhs1 wf _ _)
  have er : (mmTD K A B wf).rhsIdx (ix2 i j) ((contrEquiv1 (mmTD K A B wf) K rfl rfl).symm k) = ix2 k j :=
    funext fun a => Fin.ext (by
      match a with
      | ⟨0, _⟩ => exact (mmT_rhs0 wf _ _).trans hk
      | ⟨1, _⟩ => exact mmT_rhs1 wf _ _)
  rw [el, er]

/-- The host's product at entry (i, j): the sum over k of l[k, i] * r[k, j]. -/
theorem dotT_apply {φ₁ φ₂ : FTy} (prec : Option ContractPrecision) (l : FVec Ideal ⟨2, ![K, A]⟩ φ₁)
    (r : FVec Ideal ⟨2, ![K, B]⟩ φ₂) (i : Fin A) (j : Fin B) :
    Host.dotGeneral (F := Ideal) (mmTD K A B wf) prec l r (ix2 i j) = ∑ k : Fin K, l (ix2 k i) * r (ix2 k j) := by
  simp only [Host.dotGeneral]
  rw [Ideal.dotGeneral_apply]
  exact mmT_sum wf l r i j

/-- The matrix unit's product at entry (i, j): the accumulator there plus the sum over k of l[k, i] * r[k, j]. -/
theorem matmulT_apply {φ₁ φ₂ : FTy} (prec : Option ContractPrecision) (l : FVec Ideal ⟨2, ![K, A]⟩ φ₁)
    (r : FVec Ideal ⟨2, ![K, B]⟩ φ₂) (acc : FVec Ideal ⟨2, ![A, B]⟩ .f32) (i : Fin A) (j : Fin B) :
    matmul (F := Ideal) (mmTD K A B wf) prec l r acc (ix2 i j)
      = acc (ix2 i j) + ∑ k : Fin K, l (ix2 k i) * r (ix2 k j) := by
  simp only [matmul]
  rw [Ideal.matmul_apply]
  exact congrArg (acc (ix2 i j) + ·) (mmT_sum wf l r i j)

end LeftTransposed

end Cert.Lib.MatMul

end
-- ==== Proof.LibRowMlp.lean ====
/-
  A two-layer perceptron read at one entry (general lemmas: nothing here depends on a program).

  On a matrix x of R rows, relu (x · w1 + b1) · w2 + b2 at entry (r, j) is
    (sum over h of max ((sum over k of x[r, k] * w1[k, h]) + b1[h], 0) * w2[h, j]) + b2[j]:
  it depends on row r of x only. A kernel and a host program spell each layer differently. The kernel multiplies on
  the matrix unit into an accumulator of zeros (after a change of float format, which is the identity on the
  extended reals), adds the bias as a one-row matrix broadcast down the rows, and clamps against a splat of the
  scalar zero. The host multiplies by a dot product, adds the bias as a vector broadcast to one row and then down
  the rows, and clamps against a broadcast of the constant zero. Both are the same sum at every entry; only
  0 + s = s is used of the arithmetic, which holds at the infinities too.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.LibMatmul

noncomputable section

namespace Cert.Lib.RowMlp

open Idealize.ShloMosaic Idealize.ShloMosaic.ValueIdx Cert.Lib.MatMul

/-- One layer at an entry: the row's product with column h of the weights, plus the bias at h. -/
def layerAt {K H : Nat} (x : Fin K → EReal) (w : Fin K → Fin H → EReal) (b : Fin H → EReal) (h : Fin H) : EReal :=
  (∑ k : Fin K, x k * w k h) + b h

/-- The perceptron at an entry, from one row of its input. -/
def mlpAt {K H B : Nat} (x : Fin K → EReal) (w1 : Fin K → Fin H → EReal) (b1 : Fin H → EReal)
    (w2 : Fin H → Fin B → EReal) (b2 : Fin B → EReal) (j : Fin B) : EReal :=
  layerAt (fun h => max (layerAt x w1 b1 h) 0) w2 b2 j

/-- The two index spellings of an entry of a matrix are one function. -/
theorem ij_eq_ix2 {n m : Nat} (p : Fin n) (q : Fin m) : StableHlo.Predicate.ij p q = ix2 p q := by
  funext a; match a with | ⟨0, _⟩ => rfl | ⟨1, _⟩ => rfl

section Kernel

variable {R K H : Nat} (wf : DotDims.WF ⟨2, ![R, K]⟩ ⟨2, ![K, H]⟩ ⟨2, ![R, H]⟩ [1] [0] [0] [1] [] [])

/-- A kernel's layer at an entry: the matrix unit's product into zeros, plus a one-row bias broadcast down the rows. -/
theorem kernLayer_apply {φ₁ φ₂ : FTy} (x : FVec Ideal ⟨2, ![R, K]⟩ φ₁) (w : FVec Ideal ⟨2, ![K, H]⟩ φ₂)
    (b : FVec Ideal ⟨2, ![1, H]⟩ .f32) (hsc : (⟨2, ![1, H]⟩ : Shape).ShapeCasts ⟨2, ![1, H]⟩)
    (hbt : (⟨2, ![1, H]⟩ : Shape).Broadcasts ⟨2, ![R, H]⟩) (p : Fin R) (h : Fin H) :
    addf (matmul (mmD R K H wf) none x w (constant ⟨2, ![R, H]⟩ .f32 0x00000000#32))
        (broadcastTo ⟨2, ![R, H]⟩ (shapeCast ⟨2, ![1, H]⟩ b hsc) hbt) (ix2 p h)
      = layerAt (fun k => x (ix2 p k)) (fun k h => w (ix2 k h)) (fun h => b (ix2 (0 : Fin 1) h)) h := by
  rw [addf_apply, matmul_apply wf none x w _ p h, constant_apply, Ideal.ofBits_zero_f32, zero_add, shapeCast_self,
    broadcastTo_1b_ab_apply]
  rfl

/-- A kernel's clamp at zero, at an entry. -/
theorem kernRelu_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

end Kernel

section Host

variable {R K H : Nat} (wf : DotDims.WF ⟨2, ![R, K]⟩ ⟨2, ![K, H]⟩ ⟨2, ![R, H]⟩ [1] [0] [0] [1] [] [])

/-- A host's layer at an entry: the dot product, plus a bias vector broadcast to one row and down the rows. -/
theorem hostLayer_apply {φ₁ φ₂ : FTy} (x : FVec Ideal ⟨2, ![R, K]⟩ φ₁) (w : FVec Ideal ⟨2, ![K, H]⟩ φ₂)
    (b : FVec Ideal ⟨1, ![H]⟩ .f32) (h₁ : (⟨1, ![H]⟩ : Shape).BroadcastsInDim ⟨2, ![1, H]⟩ ![1])
    (h₂ : (⟨2, ![1, H]⟩ : Shape).BroadcastsInDim ⟨2, ![R, H]⟩ ![0, 1]) (r : Fin R) (h : Fin H) :
    addf (Host.dotGeneral (mmD R K H wf) none x w)
        (broadcastInDim ⟨2, ![R, H]⟩ ![0, 1] h₂ (broadcastInDim ⟨2, ![1, H]⟩ ![1] h₁ b)) (ix2 r h)
      = layerAt (fun k => x (ix2 r k)) (fun k h => w (ix2 k h)) (fun h => b (ix1 h)) h := by
  rw [addf_apply, dot_apply wf none x w r h, ← ij_eq_ix2 r h, StableHlo.Predicate.bcast_cols h₁ h₂ b r h]
  have e : (Shape.Idx.ofFin h : (⟨1, ![H]⟩ : Shape).Idx) = ix1 h := by
    funext d; match d with | ⟨0, _⟩ => rfl
  rw [e]
  rfl

/-- A host's clamp at zero, at an entry. -/
theorem hostRelu_apply {s : Shape} (v : FVec Ideal s .f32) (h0 : (⟨0, ![]⟩ : Shape).BroadcastsInDim s ![]) (i : s.Idx) :
    maximumf v (broadcastInDim s ![] h0 (constant (F := Ideal) ⟨0, ![]⟩ .f32 0x00000000#32)) i = max (v i) 0 := by
  rw [maximumf_apply, broadcastInDim_scalar_apply, constant_apply]
  exact congrArg (max (v i)) Ideal.ofBits_zero_f32

end Host

end Cert.Lib.RowMlp

end
-- ==== Proof.LibConcatRows.lean ====
/-
  A concatenation of row blocks along the columns, read at one entry (general lemmas: nothing here depends on a
  program).

  Matrices of 64 columns and the same R rows laid side by side make a matrix of 128 or 192 columns; row r of the
  result is the rows r of the pieces, one after another. So entry (r, k) is the entry (r, k mod 64) of piece
  k / 64.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws

noncomputable section

namespace Cert.Lib.ConcatRows

open Idealize.ShloMosaic Idealize.ShloMosaic.ValueIdx

/-- Two rows of 64 entries, one after the other. -/
def cat2 (a b : Fin 64 → EReal) (k : Fin 128) : EReal :=
  if h : k.val < 64 then a ⟨k.val, h⟩ else b ⟨k.val - 64, by have := k.isLt; omega⟩

/-- Three rows of 64 entries, one after the other. -/
def cat3 (a b c : Fin 64 → EReal) (k : Fin 192) : EReal :=
  if h : k.val < 64 then a ⟨k.val, h⟩
  else if h2 : k.val < 128 then b ⟨k.val - 64, by omega⟩ else c ⟨k.val - 128, by have := k.isLt; omega⟩

/-- Two matrices of 64 columns side by side, at entry (r, k). -/
theorem concat2_apply {R : Nat} (a b : FVec Ideal ⟨2, ![R, 64]⟩ .f32)
    (h : Shape.Concatenates [⟨2, ![R, 64]⟩, ⟨2, ![R, 64]⟩] ⟨2, ![R, 128]⟩ 1) (r : Fin R) (k : Fin 128) :
    concatenate (⟨2, ![R, 128]⟩ : Shape) 1 [⟨⟨2, ![R, 64]⟩, a⟩, ⟨⟨2, ![R, 64]⟩, b⟩] h (ix2 r k)
      = cat2 (fun q => a (ix2 r q)) (fun q => b (ix2 r q)) k := by
  unfold cat2
  by_cases hk : k.val < 64
  · rw [dif_pos hk]
    refine concatenate_apply_piece (t := ⟨2, ![R, 128]⟩) 1 [⟨⟨2, ![R, 64]⟩, a⟩, ⟨⟨2, ![R, 64]⟩, b⟩] h (ix2 r k) 0 (by simp) ⟨2, ![R, 64]⟩ a rfl rfl 0 rfl
      (ix2 r ⟨k.val, hk⟩) (fun b hb => ?_) ?_
    · match b with
      | ⟨0, _⟩ => rfl
      | ⟨1, _⟩ => exact absurd rfl hb
    · show 0 + k.val = k.val
      omega
  · rw [dif_neg hk]
    refine concatenate_apply_piece (t := ⟨2, ![R, 128]⟩) 1 [⟨⟨2, ![R, 64]⟩, a⟩, ⟨⟨2, ![R, 64]⟩, b⟩] h (ix2 r k) 1 (by simp) ⟨2, ![R, 64]⟩ b rfl rfl 64 rfl
      (ix2 r ⟨k.val - 64, by have := k.isLt; omega⟩) (fun b hb => ?_) ?_
    · match b with
      | ⟨0, _⟩ => rfl
      | ⟨1, _⟩ => exact absurd rfl hb
    · show 64 + (k.val - 64) = k.val
      omega

/-- Three matrices of 64 columns side by side, at entry (r, k). -/
theorem concat3_apply {R : Nat} (a b c : FVec Ideal ⟨2, ![R, 64]⟩ .f32)
    (h : Shape.Concatenates [⟨2, ![R, 64]⟩, ⟨2, ![R, 64]⟩, ⟨2, ![R, 64]⟩] ⟨2, ![R, 192]⟩ 1) (r : Fin R) (k : Fin 192) :
    concatenate (⟨2, ![R, 192]⟩ : Shape) 1 [⟨⟨2, ![R, 64]⟩, a⟩, ⟨⟨2, ![R, 64]⟩, b⟩, ⟨⟨2, ![R, 64]⟩, c⟩] h (ix2 r k)
      = cat3 (fun q => a (ix2 r q)) (fun q => b (ix2 r q)) (fun q => c (ix2 r q)) k := by
  unfold cat3
  by_cases hk : k.val < 64
  · rw [dif_pos hk]
    refine concatenate_apply_piece (t := ⟨2, ![R, 192]⟩) 1 [⟨⟨2, ![R, 64]⟩, a⟩, ⟨⟨2, ![R, 64]⟩, b⟩, ⟨⟨2, ![R, 64]⟩, c⟩] h (ix2 r k) 0 (by simp) ⟨2, ![R, 64]⟩ a rfl rfl 0 rfl
      (ix2 r ⟨k.val, hk⟩) (fun b hb => ?_) ?_
    · match b with
      | ⟨0, _⟩ => rfl
      | ⟨1, _⟩ => exact absurd rfl hb
    · show 0 + k.val = k.val
      omega
  · rw [dif_neg hk]
    by_cases hk2 : k.val < 128
    · rw [dif_pos hk2]
      refine concatenate_apply_piece (t := ⟨2, ![R, 192]⟩) 1 [⟨⟨2, ![R, 64]⟩, a⟩, ⟨⟨2, ![R, 64]⟩, b⟩, ⟨⟨2, ![R, 64]⟩, c⟩] h (ix2 r k) 1 (by simp) ⟨2, ![R, 64]⟩ b rfl rfl 64 rfl
        (ix2 r ⟨k.val - 64, by omega⟩) (fun b hb => ?_) ?_
      · match b with
        | ⟨0, _⟩ => rfl
        | ⟨1, _⟩ => exact absurd rfl hb
      · show 64 + (k.val - 64) = k.val
        omega
    · rw [dif_neg hk2]
      refine concatenate_apply_piece (t := ⟨2, ![R, 192]⟩) 1 [⟨⟨2, ![R, 64]⟩, a⟩, ⟨⟨2, ![R, 64]⟩, b⟩, ⟨⟨2, ![R, 64]⟩, c⟩] h (ix2 r k) 2 (by simp) ⟨2, ![R, 64]⟩ c rfl rfl 128 rfl
        (ix2 r ⟨k.val - 128, by have := k.isLt; omega⟩) (fun b hb => ?_) ?_
      · match b with
        | ⟨0, _⟩ => rfl
        | ⟨1, _⟩ => exact absurd rfl hb
      · show 128 + (k.val - 128) = k.val
        omega

end Cert.Lib.ConcatRows

end
-- ==== Proof.SpecAt.lean ====
/-
  The reference's steps read at one entry: each is a perceptron of ONE row of its input (for the two updates, of
  the concatenated rows, plus the row itself), so it depends on that row only.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.Spec
import proofs.«417864_j35218731827626_1_alg».proof.Proof.LibMatmul
import proofs.«417864_j35218731827626_1_alg».proof.Proof.LibRowMlp
import proofs.«417864_j35218731827626_1_alg».proof.Proof.LibConcatRows

noncomputable section

namespace Cert.SpecAt

open Cert.ReferenceIdeal Cert.ReferenceIdeal.Gen Idealize.ShloMosaic Idealize.ShloMosaic.ValueIdx
open Cert.Lib.RowMlp Cert.Lib.ConcatRows

/-- The node encoder at entry (r, j). -/
theorem encodeNodes_apply (x : FVec Ideal S50000x8 .f32) (w1 : FVec Ideal S8x64 .f32) (b1 : FVec Ideal S64 .f32)
    (w2 : FVec Ideal S64x64 .f32) (b2 : FVec Ideal S64 .f32) (r : Fin 50000) (j : Fin 64) :
    Cert.Spec.encodeNodes x w1 b1 w2 b2 (ix2 r j)
      = mlpAt (fun k => x (ix2 r k)) (fun k h => w1 (ix2 k h)) (fun h => b1 (ix1 h)) (fun h j => w2 (ix2 h j))
          (fun j => b2 (ix1 j)) j := by
  unfold Cert.Spec.encodeNodes Cert.Spec.biasNodes Cert.Spec.zeroNodes
  refine (hostLayer_apply dot_S50000x64_S64x64_S50000x64_1_0_0_1_n_n_wf _ _ b2 _ _ r j).trans ?_
  unfold mlpAt
  refine congrArg (fun f => layerAt f _ _ j) (funext fun h => ?_)
  refine (hostRelu_apply _ _ (ix2 r h)).trans ?_
  refine congrArg (fun t => max t 0) ?_
  exact hostLayer_apply dot_S50000x8_S8x64_S50000x64_1_0_0_1_n_n_wf x w1 b1 _ _ r h

/-- The edge encoder at entry (r, j). -/
theorem encodeEdges_apply (x : FVec Ideal S800000x4 .f32) (w1 : FVec Ideal S4x64 .f32) (b1 : FVec Ideal S64 .f32)
    (w2 : FVec Ideal S64x64 .f32) (b2 : FVec Ideal S64 .f32) (r : Fin 800000) (j : Fin 64) :
    Cert.Spec.encodeEdges x w1 b1 w2 b2 (ix2 r j)
      = mlpAt (fun k => x (ix2 r k)) (fun k h => w1 (ix2 k h)) (fun h => b1 (ix1 h)) (fun h j => w2 (ix2 h j))
          (fun j => b2 (ix1 j)) j := by
  unfold Cert.Spec.encodeEdges Cert.Spec.biasEdges Cert.Spec.zeroEdges
  refine (hostLayer_apply dot_S800000x64_S64x64_S800000x64_1_0_0_1_n_n_wf _ _ b2 _ _ r j).trans ?_
  unfold mlpAt
  refine congrArg (fun f => layerAt f _ _ j) (funext fun h => ?_)
  refine (hostRelu_apply _ _ (ix2 r h)).trans ?_
  refine congrArg (fun t => max t 0) ?_
  exact hostLayer_apply dot_S800000x4_S4x64_S800000x64_1_0_0_1_n_n_wf x w1 b1 _ _ r h

/-- The edge update at entry (r, j): the edge's entry plus the perceptron of its three concatenated rows. -/
theorem edgeStep_apply (e xs xd : FVec Ideal S800000x64 .f32) (w1 : FVec Ideal S192x64 .f32) (b1 : FVec Ideal S64 .f32)
    (w2 : FVec Ideal S64x64 .f32) (b2 : FVec Ideal S64 .f32) (r : Fin 800000) (j : Fin 64) :
    Cert.Spec.edgeStep e xs xd w1 b1 w2 b2 (ix2 r j)
      = e (ix2 r j) + mlpAt (cat3 (fun q => e (ix2 r q)) (fun q => xs (ix2 r q)) (fun q => xd (ix2 r q)))
          (fun k h => w1 (ix2 k h)) (fun h => b1 (ix1 h)) (fun h j => w2 (ix2 h j)) (fun j => b2 (ix1 j)) j := by
  unfold Cert.Spec.edgeStep Cert.Spec.biasEdges Cert.Spec.zeroEdges
  refine (addf_apply _ _ _).trans ?_
  refine congrArg (e (ix2 r j) + ·) ?_
  refine (hostLayer_apply dot_S800000x64_S64x64_S800000x64_1_0_0_1_n_n_wf _ _ b2 _ _ r j).trans ?_
  unfold mlpAt
  refine congrArg (fun f => layerAt f _ _ j) (funext fun h => ?_)
  refine (hostRelu_apply _ _ (ix2 r h)).trans ?_
  refine congrArg (fun t => max t 0) ?_
  refine (hostLayer_apply dot_S800000x192_S192x64_S800000x64_1_0_0_1_n_n_wf _ w1 b1 _ _ r h).trans ?_
  refine congrArg (fun f => layerAt f _ _ h) (funext fun k => ?_)
  exact concat3_apply e xs xd _ r k

/-- The node update at entry (r, j): the node's entry plus the perceptron of its two concatenated rows. -/
theorem nodeStep_apply (x agg : FVec Ideal S50000x64 .f32) (w1 : FVec Ideal S128x64 .f32) (b1 : FVec Ideal S64 .f32)
    (w2 : FVec Ideal S64x64 .f32) (b2 : FVec Ideal S64 .f32) (r : Fin 50000) (j : Fin 64) :
    Cert.Spec.nodeStep x agg w1 b1 w2 b2 (ix2 r j)
      = x (ix2 r j) + mlpAt (cat2 (fun q => x (ix2 r q)) (fun q => agg (ix2 r q)))
          (fun k h => w1 (ix2 k h)) (fun h => b1 (ix1 h)) (fun h j => w2 (ix2 h j)) (fun j => b2 (ix1 j)) j := by
  unfold Cert.Spec.nodeStep Cert.Spec.biasNodes Cert.Spec.zeroNodes
  refine (addf_apply _ _ _).trans ?_
  refine congrArg (x (ix2 r j) + ·) ?_
  refine (hostLayer_apply dot_S50000x64_S64x64_S50000x64_1_0_0_1_n_n_wf _ _ b2 _ _ r j).trans ?_
  unfold mlpAt
  refine congrArg (fun f => layerAt f _ _ j) (funext fun h => ?_)
  refine (hostRelu_apply _ _ (ix2 r h)).trans ?_
  refine congrArg (fun t => max t 0) ?_
  refine (hostLayer_apply dot_S50000x128_S128x64_S50000x64_1_0_0_1_n_n_wf _ w1 b1 _ _ r h).trans ?_
  refine congrArg (fun f => layerAt f _ _ h) (funext fun k => ?_)
  exact concat2_apply x agg _ r k

/-- The decoder at entry (r, j). -/
theorem decode_apply (x : FVec Ideal S50000x64 .f32) (w1 : FVec Ideal S64x64 .f32) (b1 : FVec Ideal S64 .f32)
    (w2 : FVec Ideal S64x6 .f32) (b2 : FVec Ideal S6 .f32) (r : Fin 50000) (j : Fin 6) :
    Cert.Spec.decode x w1 b1 w2 b2 (ix2 r j)
      = mlpAt (fun k => x (ix2 r k)) (fun k h => w1 (ix2 k h)) (fun h => b1 (ix1 h)) (fun h j => w2 (ix2 h j))
          (fun j => b2 (ix1 j)) j := by
  unfold Cert.Spec.decode Cert.Spec.biasNodes Cert.Spec.biasOut Cert.Spec.zeroNodes
  refine (hostLayer_apply dot_S50000x64_S64x6_S50000x6_1_0_0_1_n_n_wf _ _ b2 _ _ r j).trans ?_
  unfold mlpAt
  refine congrArg (fun f => layerAt f _ _ j) (funext fun h => ?_)
  refine (hostRelu_apply _ _ (ix2 r h)).trans ?_
  refine congrArg (fun t => max t 0) ?_
  exact hostLayer_apply dot_S50000x64_S64x64_S50000x64_1_0_0_1_n_n_wf x w1 b1 _ _ r h

end Cert.SpecAt

end
-- ==== Proof.NodeEncoder.lean ====
/-
  Kernel region 0, the node encoder: ten tiles of 5000 node rows. Each tile computes the perceptron of its own rows
  (two products on the matrix unit, the biases as one-row matrices), so the array the region leaves is the
  reference's node encoder of the whole input, whatever the tiling: a perceptron's row depends on that row only.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.Gen.KernelIdeal.Frame
import proofs.«417864_j35218731827626_1_alg».proof.Proof.Spec
import proofs.«417864_j35218731827626_1_alg».proof.Proof.LibMatmul
import proofs.«417864_j35218731827626_1_alg».proof.Proof.LibRowMlp
import proofs.«417864_j35218731827626_1_alg».proof.Proof.LibConcatRows
import proofs.«417864_j35218731827626_1_alg».proof.Proof.SpecAt

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Lib.RowMlp Cert.Lib.ConcatRows
open Idealize.ShloMosaic.Pipeline (Dat Cfg Window)

-- the buffer contents the region is entered with
variable (V : (c : Dev nD) → (b : Ref sig .tc) → Buf (Elt Ideal) ((c : Thread nD τ).loc b))

/-- The tile body's result at entry (p, j): the perceptron of row p of the tile. -/
theorem k0_pay1_apply (x0 : Vec Ideal S5000x8 .f32) (x1 : Vec Ideal S8x64 .f32) (x2 : Vec Ideal S1x64 .f32)
    (x3 : Vec Ideal S64x64 .f32) (x4 : Vec Ideal S1x64 .f32) (p : Fin 5000) (j : Fin 64) :
    k0_pay1 (F := Ideal) x0 x1 x2 x3 x4 (ix2 p j)
      = mlpAt (fun k => x0 (ix2 p k)) (fun k h => x1 (ix2 k h)) (fun h => x2 (ix2 (0 : Fin 1) h))
          (fun h j => x3 (ix2 h j)) (fun j => x4 (ix2 (0 : Fin 1) j)) j := by
  unfold k0_pay1
  refine (kernLayer_apply dot_S5000x64_S64x64_S5000x64_1_0_0_1_n_n_wf _ _ _ _ _ p j).trans ?_
  unfold mlpAt
  refine congrArg (fun f => layerAt f (fun k h => x3 (ix2 k h)) (fun h => x4 (ix2 (0 : Fin 1) h)) j) (funext fun h => ?_)
  refine (kernRelu_apply _ (ix2 p h)).trans ?_
  refine congrArg (fun z => max z 0) ?_
  exact kernLayer_apply dot_S5000x8_S8x64_S5000x64_1_0_0_1_n_n_wf _ _ _ _ _ p h

private theorem zero_offsets : (![0, 0] : Fin 2 → Nat) = fun _ => 0 := funext fun a => by fin_cases a <;> rfl

/-- The windows' block indices at tile t: the tiled windows sit at row block t, the weights and biases at block 0. -/
theorem tile_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of tile t of the node features is row t * 5000 + p of the array. -/
theorem rows_block0 (c : Dev nD) (t : Fin cfg0.N) (p : Fin 5000) (k : Fin 8) (r : Fin 50000)
    (hr : r.val = t.val * 5000 + p.val) :
    (iblk0 V c 0 t : Vec Ideal S5000x8 .f32) (ix2 p k) = V c main_arg0 (ix2 r k) := by
  obtain ⟨e0, e1, -⟩ := tile_index0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 8 + 1 * k.val = k.val; rw [e1]; omega

/-- The first weights' window is the whole matrix at every tile. -/
theorem w1_block0 (c : Dev nD) (t : Fin cfg0.N) (k : Fin 8) (h : Fin 64) :
    (iblk0 V c 1 t : Vec Ideal S8x64 .f32) (ix2 k h) = V c main_arg3 (ix2 k h) := by
  obtain ⟨-, -, e0, e1, -⟩ := tile_index0 t
  show V c main_arg3 (((cfg0.win 1).blk t).view.emb (ix2 k h)) = V c main_arg3 (ix2 k h)
  refine congrArg (V c main_arg3) (funext fun a => Fin.ext ?_)
  match a with
  | ⟨0, _⟩ => show win0_1.index t (0 : Fin 2) * 8 + 1 * k.val = k.val; rw [e0]; omega
  | ⟨1, _⟩ => show win0_1.index t (1 : Fin 2) * 64 + 1 * h.val = h.val; rw [e1]; omega

/-- The second weights' window is the whole matrix at every tile. -/
theorem w2_block0 (c : Dev nD) (t : Fin cfg0.N) (h : Fin 64) (j : Fin 64) :
    (iblk0 V c 3 t : Vec Ideal S64x64 .f32) (ix2 h j) = V c main_arg5 (ix2 h j) := by
  obtain ⟨-, -, -, -, -, -, e0, e1, -⟩ := tile_index0 t
  show V c main_arg5 (((cfg0.win 3).blk t).view.emb (ix2 h j)) = V c main_arg5 (ix2 h j)
  refine congrArg (V c main_arg5) (funext fun a => Fin.ext ?_)
  match a with
  | ⟨0, _⟩ => show win0_3.index t (0 : Fin 2) * 64 + 1 * h.val = h.val; rw [e0]; omega
  | ⟨1, _⟩ => show win0_3.index t (1 : Fin 2) * 64 + 1 * j.val = j.val; rw [e1]; omega

/-- The first bias' window is the whole one-row matrix, which is the bias vector recast. -/
theorem b1_block0 (c : Dev nD) (b : FVec Ideal Cert.ReferenceIdeal.S64 .f32)
    (hb : V c main_v4 = shapeCast _ b shapeCasts_S64_S1x64) (t : Fin cfg0.N) (q : Fin 64) :
    (iblk0 V c 2 t : Vec Ideal S1x64 .f32) (ix2 (0 : Fin 1) q) = b (ix1 q) := by
  obtain ⟨-, -, -, -, e0, e1, -⟩ := tile_index0 t
  show V c main_v4 (((cfg0.win 2).blk t).view.emb (ix2 (0 : Fin 1) q)) = b (ix1 q)
  rw [hb]
  refine shapeCast_apply b shapeCasts_S64_S1x64 _ (ix1 q) ?_
  rw [Shape.rowMajor_val_two, Shape.rowMajor_val_one]
  show q.val = (win0_2.index t (0 : Fin 2) * 1 + 1 * 0) * 64 + (win0_2.index t (1 : Fin 2) * 64 + 1 * q.val)
  rw [e0, e1]; omega

/-- The second bias' window likewise. -/
theorem b2_block0 (c : Dev nD) (b : FVec Ideal Cert.ReferenceIdeal.S64 .f32)
    (hb : V c main_v5 = shapeCast _ b shapeCasts_S64_S1x64) (t : Fin cfg0.N) (q : Fin 64) :
    (iblk0 V c 4 t : Vec Ideal S1x64 .f32) (ix2 (0 : Fin 1) q) = b (ix1 q) := by
  obtain ⟨-, -, -, -, -, -, -, -, e0, e1, -⟩ := tile_index0 t
  show V c main_v5 (((cfg0.win 4).blk t).view.emb (ix2 (0 : Fin 1) q)) = b (ix1 q)
  rw [hb]
  refine shapeCast_apply b shapeCasts_S64_S1x64 _ (ix1 q) ?_
  rw [Shape.rowMajor_val_two, Shape.rowMajor_val_one]
  show q.val = (win0_4.index t (0 : Fin 2) * 1 + 1 * 0) * 64 + (win0_4.index t (1 : Fin 2) * 64 + 1 * q.val)
  rw [e0, e1]; omega

/-- What tile t writes back is block t of the reference's node encoder of the whole operands. -/
theorem tile_written0 (c : Dev nD) (b1 b2 : FVec Ideal Cert.ReferenceIdeal.S64 .f32)
    (h1 : V c main_v4 = shapeCast _ b1 shapeCasts_S64_S1x64) (h2 : V c main_v5 = shapeCast _ b2 shapeCasts_S64_S1x64)
    (t : Fin cfg0.N) :
    (dat0 (F := Ideal) V c).flushed 5 t
      = ((cfg0.win 5).blk t).view.read (Elt Ideal)
          (Cert.Spec.encodeNodes (V c main_arg0) (V c main_arg3) b1 (V c main_arg5) b2) := by
  show (cfg0.win 5).cut (grid0.coords t) ((dat0 V c).after 5 t) = _
  rw [after0_5]
  unfold out0_5
  rw [View.canon_unit_zero zero_offsets]
  simp only [View.ld_unit_zero (S := S5000x8) zero_offsets, View.ld_unit_zero (S := S8x64) zero_offsets,
    View.ld_unit_zero (S := S1x64) zero_offsets, View.ld_unit_zero (S := S64x64) zero_offsets]
  obtain ⟨-, -, -, -, -, -, -, -, -, -, e0, e1⟩ := tile_index0 t
  funext y
  obtain ⟨p, j, rfl⟩ : ∃ (p : Fin 5000) (j : Fin 64), y = ix2 p j := ⟨y 0, y 1, eq_ix2 y⟩
  have hr : t.val * 5000 + p.val < 50000 := by
    have ht : t.val < 10 := lt_of_lt_of_eq t.isLt N_0
    omega
  have hemb : ((cfg0.win 5).blk t).view.emb (ix2 p j) = ix2 (⟨t.val * 5000 + p.val, hr⟩ : Fin 50000) j := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 64 + 1 * j.val = j.val; rw [e1]; omega
  refine (k0_pay1_apply _ _ _ _ _ p j).trans ?_
  show _ = Cert.Spec.encodeNodes (V c main_arg0) (V c main_arg3) b1 (V c main_arg5) b2
    (((cfg0.win 5).blk t).view.emb (ix2 p j))
  rw [hemb, Cert.SpecAt.encodeNodes_apply]
  have a1 : (fun k => (iblk0 V c 0 t : Vec Ideal S5000x8 .f32) (ix2 p k))
      = fun k => V c main_arg0 (ix2 (⟨t.val * 5000 + p.val, hr⟩ : Fin 50000) k) :=
    funext fun k => rows_block0 V c t p k _ rfl
  have a2 : (fun k h => (iblk0 V c 1 t : Vec Ideal S8x64 .f32) (ix2 k h)) = fun k h => V c main_arg3 (ix2 k h) :=
    funext fun k => funext fun h => w1_block0 V c t k h
  have a3 : (fun h => (iblk0 V c 2 t : Vec Ideal S1x64 .f32) (ix2 (0 : Fin 1) h)) = fun h => b1 (ix1 h) :=
    funext fun h => b1_block0 V c b1 h1 t h
  have a4 : (fun h j => (iblk0 V c 3 t : Vec Ideal S64x64 .f32) (ix2 h j)) = fun h j => V c main_arg5 (ix2 h j) :=
    funext fun h => funext fun j => w2_block0 V c t h j
  have a5 : (fun j => (iblk0 V c 4 t : Vec Ideal S1x64 .f32) (ix2 (0 : Fin 1) j)) = fun j => b2 (ix1 j) :=
    funext fun j => b2_block0 V c b2 h2 t j
  exact congrFun (congr (congr (congr (congr (congrArg mlpAt a1) a2) a3) a4) a5) j

/-- An index of the array is in tile t's block iff each coordinate is in the block's range on its axis. -/
theorem mem_tile0 (t : Fin cfg0.N) (i : S50000x64.Idx) :
    i ∈ ((cfg0.win 5).blk t).view.set
      ↔ ∀ a : Fin 2, win0_5.index t a * S5000x64.size a ≤ (i a).val
          ∧ (i a).val < win0_5.index t a * S5000x64.size a + S5000x64.size a := by
  show i ∈ ((View.whole main_v6).slice (win0_5.rect t)).set ↔ _
  rw [View.set_slice_whole, Rect.mem_set_unit]
  exact Iff.rfl

/-- Every row of the array lies in a tile: row r in tile r / 5000. -/
theorem tiles_cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have ht : (i 0).val / 5000 < cfg0.N := by rw [show cfg0.N = 10 from N_0]; omega
  obtain ⟨-, -, -, -, -, -, -, -, -, -, e0, e1⟩ := tile_index0 ⟨(i 0).val / 5000, ht⟩
  refine ⟨⟨(i 0).val / 5000, ht⟩, flush0_5 _, ?_⟩
  rw [mem_tile0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e1]; omega

/-- After region 0 the encoded-node array is the reference's node encoder of the region's operands (the two biases
    enter the kernel recast as one-row matrices). -/
theorem nodes_encoded (c : Dev nD) (b1 b2 : FVec Ideal Cert.ReferenceIdeal.S64 .f32)
    (h1 : V c main_v4 = shapeCast _ b1 shapeCasts_S64_S1x64) (h2 : V c main_v5 = shapeCast _ b2 shapeCasts_S64_S1x64) :
    (dat0 (F := Ideal) V c).arrAt 5 cfg0.N
      = Cert.Spec.encodeNodes (V c main_arg0) (V c main_arg3) b1 (V c main_arg5) b2 := by
  exact (dat0 (F := Ideal) V c).arrAt_eq_of_cover 5 _ (fun t _ => tile_written0 V c b1 b2 h1 h2 t) tiles_cover0

end Cert.KernelValue

end
-- ==== Proof.EdgeEncoder.lean ====
/-
  Kernel region 1, the edge encoder: two hundred tiles of 4000 edge rows, each the perceptron of its own rows; the
  array the region leaves is the reference's edge encoder of the whole input.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.Gen.KernelIdeal.Frame
import proofs.«417864_j35218731827626_1_alg».proof.Proof.Spec
import proofs.«417864_j35218731827626_1_alg».proof.Proof.LibMatmul
import proofs.«417864_j35218731827626_1_alg».proof.Proof.LibRowMlp
import proofs.«417864_j35218731827626_1_alg».proof.Proof.LibConcatRows
import proofs.«417864_j35218731827626_1_alg».proof.Proof.SpecAt

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Lib.RowMlp Cert.Lib.ConcatRows
open Idealize.ShloMosaic.Pipeline (Dat Cfg Window)

-- the buffer contents the region is entered with
variable (V : (c : Dev nD) → (b : Ref sig .tc) → Buf (Elt Ideal) ((c : Thread nD τ).loc b))

/-- The tile body's result at entry (p, j): the perceptron of row p of the tile. -/
theorem k1_pay1_apply (x0 : Vec Ideal S4000x4 .f32) (x1 : Vec Ideal S4x64 .f32) (x2 : Vec Ideal S1x64 .f32)
    (x3 : Vec Ideal S64x64 .f32) (x4 : Vec Ideal S1x64 .f32) (p : Fin 4000) (j : Fin 64) :
    k1_pay1 (F := Ideal) x0 x1 x2 x3 x4 (ix2 p j)
      = mlpAt (fun k => x0 (ix2 p k)) (fun k h => x1 (ix2 k h)) (fun h => x2 (ix2 (0 : Fin 1) h))
          (fun h j => x3 (ix2 h j)) (fun j => x4 (ix2 (0 : Fin 1) j)) j := by
  unfold k1_pay1
  refine (kernLayer_apply dot_S4000x64_S64x64_S4000x64_1_0_0_1_n_n_wf _ _ _ _ _ p j).trans ?_
  unfold mlpAt
  refine congrArg (fun f => layerAt f (fun k h => x3 (ix2 k h)) (fun h => x4 (ix2 (0 : Fin 1) h)) j) (funext fun h => ?_)
  refine (kernRelu_apply _ (ix2 p h)).trans ?_
  refine congrArg (fun z => max z 0) ?_
  exact kernLayer_apply dot_S4000x4_S4x64_S4000x64_1_0_0_1_n_n_wf _ _ _ _ _ p h

private theorem zero_offsets : (![0, 0] : Fin 2 → Nat) = fun _ => 0 := funext fun a => by fin_cases a <;> rfl

/-- The windows' block indices at tile t: the tiled windows sit at row block t, the weights and biases at block 0. -/
theorem tile_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of tile t of the edge features is row t * 4000 + p of the array. -/
theorem rows_block1 (c : Dev nD) (t : Fin cfg1.N) (p : Fin 4000) (k : Fin 4) (r : Fin 800000)
    (hr : r.val = t.val * 4000 + p.val) :
    (iblk1 V c 0 t : Vec Ideal S4000x4 .f32) (ix2 p k) = V c main_arg1 (ix2 r k) := by
  obtain ⟨e0, e1, -⟩ := tile_index1 t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 4000 + 1 * p.val = r.val; rw [e0, hr]; omega
  | ⟨1, _⟩ => show win1_0.index t (1 : Fin 2) * 4 + 1 * k.val = k.val; rw [e1]; omega

/-- The first weights' window is the whole matrix at every tile. -/
theorem w1_block1 (c : Dev nD) (t : Fin cfg1.N) (k : Fin 4) (h : Fin 64) :
    (iblk1 V c 1 t : Vec Ideal S4x64 .f32) (ix2 k h) = V c main_arg7 (ix2 k h) := by
  obtain ⟨-, -, e0, e1, -⟩ := tile_index1 t
  show V c main_arg7 (((cfg1.win 1).blk t).view.emb (ix2 k h)) = V c main_arg7 (ix2 k h)
  refine congrArg (V c main_arg7) (funext fun a => Fin.ext ?_)
  match a with
  | ⟨0, _⟩ => show win1_1.index t (0 : Fin 2) * 4 + 1 * k.val = k.val; rw [e0]; omega
  | ⟨1, _⟩ => show win1_1.index t (1 : Fin 2) * 64 + 1 * h.val = h.val; rw [e1]; omega

/-- The second weights' window is the whole matrix at every tile. -/
theorem w2_block1 (c : Dev nD) (t : Fin cfg1.N) (h : Fin 64) (j : Fin 64) :
    (iblk1 V c 3 t : Vec Ideal S64x64 .f32) (ix2 h j) = V c main_arg9 (ix2 h j) := by
  obtain ⟨-, -, -, -, -, -, e0, e1, -⟩ := tile_index1 t
  show V c main_arg9 (((cfg1.win 3).blk t).view.emb (ix2 h j)) = V c main_arg9 (ix2 h j)
  refine congrArg (V c main_arg9) (funext fun a => Fin.ext ?_)
  match a with
  | ⟨0, _⟩ => show win1_3.index t (0 : Fin 2) * 64 + 1 * h.val = h.val; rw [e0]; omega
  | ⟨1, _⟩ => show win1_3.index t (1 : Fin 2) * 64 + 1 * j.val = j.val; rw [e1]; omega

/-- The first bias' window is the whole one-row matrix, which is the bias vector recast. -/
theorem b1_block1 (c : Dev nD) (b : FVec Ideal Cert.ReferenceIdeal.S64 .f32)
    (hb : V c main_v7 = shapeCast _ b shapeCasts_S64_S1x64) (t : Fin cfg1.N) (q : Fin 64) :
    (iblk1 V c 2 t : Vec Ideal S1x64 .f32) (ix2 (0 : Fin 1) q) = b (ix1 q) := by
  obtain ⟨-, -, -, -, e0, e1, -⟩ := tile_index1 t
  show V c main_v7 (((cfg1.win 2).blk t).view.emb (ix2 (0 : Fin 1) q)) = b (ix1 q)
  rw [hb]
  refine shapeCast_apply b shapeCasts_S64_S1x64 _ (ix1 q) ?_
  rw [Shape.rowMajor_val_two, Shape.rowMajor_val_one]
  show q.val = (win1_2.index t (0 : Fin 2) * 1 + 1 * 0) * 64 + (win1_2.index t (1 : Fin 2) * 64 + 1 * q.val)
  rw [e0, e1]; omega

/-- The second bias' window likewise. -/
theorem b2_block1 (c : Dev nD) (b : FVec Ideal Cert.ReferenceIdeal.S64 .f32)
    (hb : V c main_v8 = shapeCast _ b shapeCasts_S64_S1x64) (t : Fin cfg1.N) (q : Fin 64) :
    (iblk1 V c 4 t : Vec Ideal S1x64 .f32) (ix2 (0 : Fin 1) q) = b (ix1 q) := by
  obtain ⟨-, -, -, -, -, -, -, -, e0, e1, -⟩ := tile_index1 t
  show V c main_v8 (((cfg1.win 4).blk t).view.emb (ix2 (0 : Fin 1) q)) = b (ix1 q)
  rw [hb]
  refine shapeCast_apply b shapeCasts_S64_S1x64 _ (ix1 q) ?_
  rw [Shape.rowMajor_val_two, Shape.rowMajor_val_one]
  show q.val = (win1_4.index t (0 : Fin 2) * 1 + 1 * 0) * 64 + (win1_4.index t (1 : Fin 2) * 64 + 1 * q.val)
  rw [e0, e1]; omega

/-- What tile t writes back is block t of the reference's edge encoder of the whole operands. -/
theorem tile_written1 (c : Dev nD) (b1 b2 : FVec Ideal Cert.ReferenceIdeal.S64 .f32)
    (h1 : V c main_v7 = shapeCast _ b1 shapeCasts_S64_S1x64) (h2 : V c main_v8 = shapeCast _ b2 shapeCasts_S64_S1x64)
    (t : Fin cfg1.N) :
    (dat1 (F := Ideal) V c).flushed 5 t
      = ((cfg1.win 5).blk t).view.read (Elt Ideal)
          (Cert.Spec.encodeEdges (V c main_arg1) (V c main_arg7) b1 (V c main_arg9) b2) := by
  show (cfg1.win 5).cut (grid1.coords t) ((dat1 V c).after 5 t) = _
  rw [after1_5]
  unfold out1_5
  rw [View.canon_unit_zero zero_offsets]
  simp only [View.ld_unit_zero (S := S4000x4) zero_offsets, View.ld_unit_zero (S := S4x64) zero_offsets,
    View.ld_unit_zero (S := S1x64) zero_offsets, View.ld_unit_zero (S := S64x64) zero_offsets]
  obtain ⟨-, -, -, -, -, -, -, -, -, -, e0, e1⟩ := tile_index1 t
  funext y
  obtain ⟨p, j, rfl⟩ : ∃ (p : Fin 4000) (j : Fin 64), y = ix2 p j := ⟨y 0, y 1, eq_ix2 y⟩
  have hr : t.val * 4000 + p.val < 800000 := by
    have ht : t.val < 200 := lt_of_lt_of_eq t.isLt N_1
    omega
  have hemb : ((cfg1.win 5).blk t).view.emb (ix2 p j) = ix2 (⟨t.val * 4000 + p.val, hr⟩ : Fin 800000) j := by
    funext a; apply Fin.ext
    match a with
    | ⟨0, _⟩ => show win1_5.index t (0 : Fin 2) * 4000 + 1 * p.val = t.val * 4000 + p.val; rw [e0]; omega
    | ⟨1, _⟩ => show win1_5.index t (1 : Fin 2) * 64 + 1 * j.val = j.val; rw [e1]; omega
  refine (k1_pay1_apply _ _ _ _ _ p j).trans ?_
  show _ = Cert.Spec.encodeEdges (V c main_arg1) (V c main_arg7) b1 (V c main_arg9) b2
    (((cfg1.win 5).blk t).view.emb (ix2 p j))
  rw [hemb, Cert.SpecAt.encodeEdges_apply]
  have a1 : (fun k => (iblk1 V c 0 t : Vec Ideal S4000x4 .f32) (ix2 p k))
      = fun k => V c main_arg1 (ix2 (⟨t.val * 4000 + p.val, hr⟩ : Fin 800000) k) :=
    funext fun k => rows_block1 V c t p k _ rfl
  have a2 : (fun k h => (iblk1 V c 1 t : Vec Ideal S4x64 .f32) (ix2 k h)) = fun k h => V c main_arg7 (ix2 k h) :=
    funext fun k => funext fun h => w1_block1 V c t k h
  have a3 : (fun h => (iblk1 V c 2 t : Vec Ideal S1x64 .f32) (ix2 (0 : Fin 1) h)) = fun h => b1 (ix1 h) :=
    funext fun h => b1_block1 V c b1 h1 t h
  have a4 : (fun h j => (iblk1 V c 3 t : Vec Ideal S64x64 .f32) (ix2 h j)) = fun h j => V c main_arg9 (ix2 h j) :=
    funext fun h => funext fun j => w2_block1 V c t h j
  have a5 : (fun j => (iblk1 V c 4 t : Vec Ideal S1x64 .f32) (ix2 (0 : Fin 1) j)) = fun j => b2 (ix1 j) :=
    funext fun j => b2_block1 V c b2 h2 t j
  exact congrFun (congr (congr (congr (congr (congrArg mlpAt a1) a2) a3) a4) a5) j

/-- An index of the array is in tile t's block iff each coordinate is in the block's range on its axis. -/
theorem mem_tile1 (t : Fin cfg1.N) (i : S800000x64.Idx) :
    i ∈ ((cfg1.win 5).blk t).view.set
      ↔ ∀ a : Fin 2, win1_5.index t a * S4000x64.size a ≤ (i a).val
          ∧ (i a).val < win1_5.index t a * S4000x64.size a + S4000x64.size a := by
  show i ∈ ((View.whole main_v9).slice (win1_5.rect t)).set ↔ _
  rw [View.set_slice_whole, Rect.mem_set_unit]
  exact Iff.rfl

/-- Every row of the array lies in a tile: row r in tile r / 4000. -/
theorem tiles_cover1 (i : S800000x64.Idx) :
    ∃ t : Fin cfg1.N, (cfg1.win 5).flush t = true ∧ i ∈ ((cfg1.win 5).blk t).view.set := by
  have hi0 : (i 0).val < 800000 := (i 0).isLt
  have hi1 : (i 1).val < 64 := (i 1).isLt
  have ht : (i 0).val / 4000 < cfg1.N := by rw [show cfg1.N = 200 from N_1]; omega
  obtain ⟨-, -, -, -, -, -, -, -, -, -, e0, e1⟩ := tile_index1 ⟨(i 0).val / 4000, ht⟩
  refine ⟨⟨(i 0).val / 4000, ht⟩, flush1_5 _, ?_⟩
  rw [mem_tile1]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ (1 : Fin 2) * 64 ≤ (i 1).val
      ∧ (i 1).val < win1_5.index ⟨(i 0).val / 4000, ht⟩ (1 : Fin 2) * 64 + 64
    rw [e1]; omega

/-- After region 1 the encoded-edge array is the reference's edge encoder of the region's operands. -/
theorem edges_encoded (c : Dev nD) (b1 b2 : FVec Ideal Cert.ReferenceIdeal.S64 .f32)
    (h1 : V c main_v7 = shapeCast _ b1 shapeCasts_S64_S1x64) (h2 : V c main_v8 = shapeCast _ b2 shapeCasts_S64_S1x64) :
    (dat1 (F := Ideal) V c).arrAt 5 cfg1.N
      = Cert.Spec.encodeEdges (V c main_arg1) (V c main_arg7) b1 (V c main_arg9) b2 := by
  exact (dat1 (F := Ideal) V c).arrAt_eq_of_cover 5 _ (fun t _ => tile_written1 V c b1 b2 h1 h2 t) tiles_cover1

end Cert.KernelValue

end
-- ==== Proof.EdgeUpdate0.lean ====
/-
  Kernel region 2, the first edge update: two hundred tiles of 4000 edge rows. Each tile lays its rows of the edge
  array, of the gathered source rows and of the gathered target rows side by side, runs the perceptron on the 192
  columns and adds the result to its edge rows; row by row this is the reference's edge update.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.Gen.KernelIdeal.Frame
import proofs.«417864_j35218731827626_1_alg».proof.Proof.Spec
import proofs.«417864_j35218731827626_1_alg».proof.Proof.LibMatmul
import proofs.«417864_j35218731827626_1_alg».proof.Proof.LibRowMlp
import proofs.«417864_j35218731827626_1_alg».proof.Proof.LibConcatRows
import proofs.«417864_j35218731827626_1_alg».proof.Proof.SpecAt

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Lib.RowMlp Cert.Lib.ConcatRows
open Idealize.ShloMosaic.Pipeline (Dat Cfg Window)

-- the buffer contents the region is entered with
variable (V : (c : Dev nD) → (b : Ref sig .tc) → Buf (Elt Ideal) ((c : Thread nD τ).loc b))

/-- The tile's arithmetic at one entry: the edge row's entry plus the perceptron of the three rows laid side by side. -/
theorem edgeTile0_apply (x0 x1 x2 : Vec Ideal S4000x64 .f32) (x3 : Vec Ideal S192x64 .f32) (x4 : Vec Ideal S1x64 .f32)
    (x5 : Vec Ideal S64x64 .f32) (x6 : Vec Ideal S1x64 .f32) (p : Fin 4000) (j : Fin 64) :
    k2_pay1 (F := Ideal) x0 x1 x2 x3 x4 x5 x6 (ix2 p j)
      = x0 (ix2 p j) + mlpAt (cat3 (fun q => x0 (ix2 p q)) (fun q => x1 (ix2 p q)) (fun q => x2 (ix2 p q)))
          (fun k h => x3 (ix2 k h)) (fun h => x4 (ix2 (0 : Fin 1) h)) (fun h j => x5 (ix2 h j))
          (fun j => x6 (ix2 (0 : Fin 1) j)) j := by
  unfold k2_pay1
  refine (addf_apply _ _ _).trans ?_
  refine congrArg₂ (· + ·) (congrFun (shapeCast_self x0 _) _) ?_
  refine (kernLayer_apply dot_S4000x64_S64x64_S4000x64_1_0_0_1_n_n_wf _ _ _ _ _ p j).trans ?_
  unfold mlpAt
  refine congrArg₂ (fun a b => layerAt a b (fun h => x6 (ix2 (0 : Fin 1) h)) j) ?_ ?_
  · funext h
    refine (kernRelu_apply _ _).trans ?_
    refine congrArg (fun a => max a 0) ?_
    refine (kernLayer_apply dot_S4000x192_S192x64_S4000x64_1_0_0_1_n_n_wf _ _ _ _ _ p h).trans ?_
    refine congrArg₂ (fun a b => layerAt a b (fun h => x4 (ix2 (0 : Fin 1) h)) h) ?_ ?_
    · funext k
      show concatenate S4000x192 1 [⟨S4000x64, shapeCast S4000x64 x0 shapeCasts_S4000x64_S4000x64⟩,
        ⟨S4000x64, shapeCast S4000x64 x1 shapeCasts_S4000x64_S4000x64⟩,
        ⟨S4000x64, shapeCast S4000x64 x2 shapeCasts_S4000x64_S4000x64⟩]
        concatenates_S4000x64_S4000x64_S4000x64_S4000x192_d1 (ix2 p k) = _
      rw [shapeCast_self x0, shapeCast_self x1, shapeCast_self x2]
      exact concat3_apply x0 x1 x2 _ p k
    · funext k h'
      exact congrFun (shapeCast_self x3 _) (ix2 k h')
  · funext h j'
    exact congrFun (shapeCast_self x5 _) (ix2 h j')

/-- The zero offsets, spelt as a constant function. -/
theorem zeroOffsets0 : (![0, 0] : Fin 2 → Nat) = fun _ => 0 :=
  funext fun a => by match a with | ⟨0, _⟩ => rfl | ⟨1, _⟩ => rfl

/-- The windows' block indices at tile t: the three edge arrays and the result move with the tile along the rows,
    the weights and biases stay whole. -/
theorem tileIndices0 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row p of tile t of the edge array is row t * 4000 + p of the array. -/
theorem edgeRows0 (c : Dev nD) (t : Fin cfg2.N) (p : Fin 4000) (q : Fin 64) (r : Fin 800000)
    (hr : r.val = t.val * 4000 + p.val) :
    (iblk2 V c 0 t : Vec Ideal S4000x64 .f32) (ix2 p q) = (V c main_v9 : S800000x64.Idx → EReal) (ix2 r q) := by
  obtain ⟨e0, e1, -⟩ := tileIndices0 t
  unfold iblk2
  rw [View.read_apply]
  show V c main_v9 (((cfg2.win 0).blk t).view.emb (ix2 p q)) = V c main_v9 (ix2 r q)
  congr 1
  funext a
  apply Fin.ext
  match a with
  | ⟨0, _⟩ => show win2_0.index t (0 : Fin 2) * 4000 + 1 * p.val = r.val; rw [e0, hr]; omega
  | ⟨1, _⟩ => show win2_0.index t (1 : Fin 2) * 64 + 1 * q.val = q.val; rw [e1]; omega

/-- Row p of tile t of the gathered source rows is row t * 4000 + p of that array. -/
theorem sourceRows0 (c : Dev nD) (t : Fin cfg2.N) (p : Fin 4000) (q : Fin 64) (r : Fin 800000)
    (hr : r.val = t.val * 4000 + p.val) :
    (iblk2 V c 1 t : Vec Ideal S4000x64 .f32) (ix2 p q) = (V c main_v10 : S800000x64.Idx → EReal) (ix2 r q) := by
  obtain ⟨-, -, e0, e1, -⟩ := tileIndices0 t
  unfold iblk2
  rw [View.read_apply]
  show V c main_v10 (((cfg2.win 1).blk t).view.emb (ix2 p q)) = V c main_v10 (ix2 r q)
  congr 1
  funext a
  apply Fin.ext
  match a with
  | ⟨0, _⟩ => show win2_1.index t (0 : Fin 2) * 4000 + 1 * p.val = r.val; rw [e0, hr]; omega
  | ⟨1, _⟩ => show win2_1.index t (1 : Fin 2) * 64 + 1 * q.val = q.val; rw [e1]; omega

/-- Row p of tile t of the gathered target rows is row t * 4000 + p of that array. -/
theorem targetRows0 (c : Dev nD) (t : Fin cfg2.N) (p : Fin 4000) (q : Fin 64) (r : Fin 800000)
    (hr : r.val = t.val * 4000 + p.val) :
    (iblk2 V c 2 t : Vec Ideal S4000x64 .f32) (ix2 p q) = (V c main_v11 : S800000x64.Idx → EReal) (ix2 r q) := by
  obtain ⟨-, -, -, -, e0, e1, -⟩ := tileIndices0 t
  unfold iblk2
  rw [View.read_apply]
  show V c main_v11 (((cfg2.win 2).blk t).view.emb (ix2 p q)) = V c main_v11 (ix2 r q)
  congr 1
  funext a
  apply Fin.ext
  match a with
  | ⟨0, _⟩ => show win2_2.index t (0 : Fin 2) * 4000 + 1 * p.val = r.val; rw [e0, hr]; omega
  | ⟨1, _⟩ => show win2_2.index t (1 : Fin 2) * 64 + 1 * q.val = q.val; rw [e1]; omega

/-- Every tile sees the whole first weight matrix. -/
theorem firstWeights0 (c : Dev nD) (t : Fin cfg2.N) (k : Fin 192) (h : Fin 64) :
    (iblk2 V c 3 t : Vec Ideal S192x64 .f32) (ix2 k h) = (V c main_v13 : S192x64.Idx → EReal) (ix2 k h) := by
  obtain ⟨-, -, -, -, -, -, e0, e1, -⟩ := tileIndices0 t
  unfold iblk2
  rw [View.read_apply]
  show V c main_v13 (((cfg2.win 3).blk t).view.emb (ix2 k h)) = V c main_v13 (ix2 k h)
  congr 1
  funext a
  apply Fin.ext
  match a with
  | ⟨0, _⟩ => show win2_3.index t (0 : Fin 2) * 192 + 1 * k.val = k.val; rw [e0]; omega
  | ⟨1, _⟩ => show win2_3.index t (1 : Fin 2) * 64 + 1 * h.val = h.val; rw [e1]; omega

/-- Every tile sees the whole first bias row. -/
theorem firstBias0 (c : Dev nD) (t : Fin cfg2.N) (h : Fin 64) :
    (iblk2 V c 4 t : Vec Ideal S1x64 .f32) (ix2 (0 : Fin 1) h) = (V c main_v20 : S1x64.Idx → EReal) (ix2 (0 : Fin 1) h) := by
  obtain ⟨-, -, -, -, -, -, -, -, e0, e1, -⟩ := tileIndices0 t
  unfold iblk2
  rw [View.read_apply]
  show V c main_v20 (((cfg2.win 4).blk t).view.emb (ix2 (0 : Fin 1) h)) = V c main_v20 (ix2 (0 : Fin 1) h)
  congr 1
  funext a
  apply Fin.ext
  match a with
  | ⟨0, _⟩ => show win2_4.index t (0 : Fin 2) * 1 + 1 * 0 = 0; rw [e0]
  | ⟨1, _⟩ => show win2_4.index t (1 : Fin 2) * 64 + 1 * h.val = h.val; rw [e1]; omega

/-- Every tile sees the whole second weight matrix. -/
theorem secondWeights0 (c : Dev nD) (t : Fin cfg2.N) (h : Fin 64) (j : Fin 64) :
    (iblk2 V c 5 t : Vec Ideal S64x64 .f32) (ix2 h j) = (V c main_v17 : S64x64.Idx → EReal) (ix2 h j) := by
  obtain ⟨-, -, -, -, -, -, -, -, -, -, e0, e1, -⟩ := tileIndices0 t
  unfold iblk2
  rw [View.read_apply]
  show V c main_v17 (((cfg2.win 5).blk t).view.emb (ix2 h j)) = V c main_v17 (ix2 h j)
  congr 1
  funext a
  apply Fin.ext
  match a with
  | ⟨0, _⟩ => show win2_5.index t (0 : Fin 2) * 64 + 1 * h.val = h.val; rw [e0]; omega
  | ⟨1, _⟩ => show win2_5.index t (1 : Fin 2) * 64 + 1 * j.val = j.val; rw [e1]; omega

/-- Every tile sees the whole second bias row. -/
theorem secondBias0 (c : Dev nD) (t : Fin cfg2.N) (h : Fin 64) :
    (iblk2 V c 6 t : Vec Ideal S1x64 .f32) (ix2 (0 : Fin 1) h) = (V c main_v21 : S1x64.Idx → EReal) (ix2 (0 : Fin 1) h) := by
  obtain ⟨-, -, -, -, -, -, -, -, -, -, -, -, e0, e1, -⟩ := tileIndices0 t
  unfold iblk2
  rw [View.read_apply]
  show V c main_v21 (((cfg2.win 6).blk t).view.emb (ix2 (0 : Fin 1) h)) = V c main_v21 (ix2 (0 : Fin 1) h)
  congr 1
  funext a
  apply Fin.ext
  match a with
  | ⟨0, _⟩ => show win2_6.index t (0 : Fin 2) * 1 + 1 * 0 = 0; rw [e0]
  | ⟨1, _⟩ => show win2_6.index t (1 : Fin 2) * 64 + 1 * h.val = h.val; rw [e1]; omega

/-- A vector of 64 entries cast to one row reads its entry h at (0, h). -/
theorem oneRow0 (b : FVec Ideal Cert.ReferenceIdeal.S64 .f32) (h : Fin 64) :
    (shapeCast S1x64 b shapeCasts_S64_S1x64 : S1x64.Idx → EReal) (ix2 (0 : Fin 1) h) = b (ix1 h) :=
  shapeCast_apply b shapeCasts_S64_S1x64 (ix2 (0 : Fin 1) h) (ix1 h) (by
    rw [Shape.rowMajor_val_two, Shape.rowMajor_val_one]; show h.val = 0 * 64 + h.val; omega)

/-- What tile t writes back is tile t of the reference's edge update of the whole operands. -/
theorem edgeTile0_flushed (c : Dev nD) (b1 b2 : FVec Ideal Cert.ReferenceIdeal.S64 .f32)
    (h1 : V c main_v20 = shapeCast _ b1 shapeCasts_S64_S1x64) (h2 : V c main_v21 = shapeCast _ b2 shapeCasts_S64_S1x64)
    (t : Fin cfg2.N) :
    (dat2 (F := Ideal) V c).flushed 7 t = ((cfg2.win 7).blk t).view.read (Elt Ideal)
      (Cert.Spec.edgeStep (V c main_v9) (V c main_v10) (V c main_v11) (V c main_v13) b1 (V c main_v17) b2) := by
  show (cfg2.win 7).cut (grid2.coords t) ((dat2 V c).after 7 t) = _
  rw [after2_7]
  unfold out2_7
  rw [View.canon_unit_zero zeroOffsets0]
  simp only [View.ld_unit_zero (S := S4000x64) zeroOffsets0, View.ld_unit_zero (S := S192x64) zeroOffsets0,
    View.ld_unit_zero (S := S1x64) zeroOffsets0, View.ld_unit_zero (S := S64x64) zeroOffsets0]
  funext y
  obtain ⟨p, j, rfl⟩ : ∃ (p : Fin 4000) (j : Fin 64), y = ix2 p j := ⟨y 0, y 1, eq_ix2 y⟩
  have ht : t.val < 200 := lt_of_lt_of_eq t.isLt N_2
  obtain ⟨r, hr⟩ : ∃ r : Fin 800000, r.val = t.val * 4000 + p.val := ⟨⟨t.val * 4000 + p.val, by omega⟩, rfl⟩
  obtain ⟨-, -, -, -, -, -, -, -, -, -, -, -, -, -, e0, e1⟩ := tileIndices0 t
  have hemb : ((cfg2.win 7).blk t).view.emb (ix2 p j) = (ix2 r j : S800000x64.Idx) := by
    funext a
    apply Fin.ext
    match a with
    | ⟨0, _⟩ => show win2_7.index t (0 : Fin 2) * 4000 + 1 * p.val = r.val; rw [e0, hr]; omega
    | ⟨1, _⟩ => show win2_7.index t (1 : Fin 2) * 64 + 1 * j.val = j.val; rw [e1]; omega
  show k2_pay1 (F := Ideal) (iblk2 V c 0 t) (iblk2 V c 1 t) (iblk2 V c 2 t) (iblk2 V c 3 t) (iblk2 V c 4 t) (iblk2 V c 5 t)
      (iblk2 V c 6 t) (ix2 p j)
    = Cert.Spec.edgeStep (V c main_v9) (V c main_v10) (V c main_v11) (V c main_v13) b1 (V c main_v17) b2
        (((cfg2.win 7).blk t).view.emb (ix2 p j))
  refine (edgeTile0_apply (iblk2 V c 0 t) (iblk2 V c 1 t) (iblk2 V c 2 t) (iblk2 V c 3 t) (iblk2 V c 4 t) (iblk2 V c 5 t)
    (iblk2 V c 6 t) p j).trans ?_
  refine Eq.trans ?_ (congrArg (Cert.Spec.edgeStep (V c main_v9) (V c main_v10) (V c main_v11) (V c main_v13) b1
    (V c main_v17) b2) hemb).symm
  refine Eq.trans ?_ (Cert.SpecAt.edgeStep_apply (V c main_v9) (V c main_v10) (V c main_v11) (V c main_v13) b1
    (V c main_v17) b2 r j).symm
  have hb1 : (fun h : Fin 64 => (iblk2 V c 4 t : Vec Ideal S1x64 .f32) (ix2 (0 : Fin 1) h)) = fun h => b1 (ix1 h) := by
    funext h
    rw [firstBias0 V c t h, h1]
    exact oneRow0 b1 h
  have hb2 : (fun h : Fin 64 => (iblk2 V c 6 t : Vec Ideal S1x64 .f32) (ix2 (0 : Fin 1) h)) = fun h => b2 (ix1 h) := by
    funext h
    rw [secondBias0 V c t h, h2]
    exact oneRow0 b2 h
  have hx0 : (fun q : Fin 64 => (iblk2 V c 0 t : Vec Ideal S4000x64 .f32) (ix2 p q))
      = fun q => (V c main_v9 : S800000x64.Idx → EReal) (ix2 r q) := funext fun q => edgeRows0 V c t p q r hr
  have hx1 : (fun q : Fin 64 => (iblk2 V c 1 t : Vec Ideal S4000x64 .f32) (ix2 p q))
      = fun q => (V c main_v10 : S800000x64.Idx → EReal) (ix2 r q) := funext fun q => sourceRows0 V c t p q r hr
  have hx2 : (fun q : Fin 64 => (iblk2 V c 2 t : Vec Ideal S4000x64 .f32) (ix2 p q))
      = fun q => (V c main_v11 : S800000x64.Idx → EReal) (ix2 r q) := funext fun q => targetRows0 V c t p q r hr
  have hw1 : (fun (k : Fin 192) (h : Fin 64) => (iblk2 V c 3 t : Vec Ideal S192x64 .f32) (ix2 k h))
      = fun k h => (V c main_v13 : S192x64.Idx → EReal) (ix2 k h) := funext fun k => funext fun h => firstWeights0 V c t k h
  have hw2 : (fun (h : Fin 64) (j : Fin 64) => (iblk2 V c 5 t : Vec Ideal S64x64 .f32) (ix2 h j))
      = fun h j => (V c main_v17 : S64x64.Idx → EReal) (ix2 h j) := funext fun h => funext fun j => secondWeights0 V c t h j
  rw [hx0, hx1, hx2, hw1, hw2, hb1, hb2, edgeRows0 V c t p j r hr]

/-- An index of the edge array is in tile t iff each coordinate is in the tile's range on its axis. -/
theorem mem_edgeTile0 (t : Fin cfg2.N) (i : S800000x64.Idx) :
    i ∈ ((cfg2.win 7).blk t).view.set ↔ ∀ a : Fin 2, win2_7.index t a * S4000x64.size a ≤ (i a).val
      ∧ (i a).val < win2_7.index t a * S4000x64.size a + S4000x64.size a := by
  show i ∈ ((View.whole main_v22).slice (win2_7.rect t)).set ↔ _
  rw [View.set_slice_whole, Rect.mem_set_unit]
  exact Iff.rfl

/-- Every row of the edge array lies in a tile: row r in tile r / 4000. -/
theorem edgeTiles0_cover (i : S800000x64.Idx) :
    ∃ t : Fin cfg2.N, (cfg2.win 7).flush t = true ∧ i ∈ ((cfg2.win 7).blk t).view.set := by
  have hi0 : (i 0).val < 800000 := (i 0).isLt
  have hi1 : (i 1).val < 64 := (i 1).isLt
  obtain ⟨t, ht⟩ : ∃ t : Fin cfg2.N, t.val = (i 0).val / 4000 :=
    ⟨⟨(i 0).val / 4000, lt_of_lt_of_eq (show (i 0).val / 4000 < 200 by omega) N_2.symm⟩, rfl⟩
  obtain ⟨-, -, -, -, -, -, -, -, -, -, -, -, -, -, e0, e1⟩ := tileIndices0 t
  refine ⟨t, flush2_7 t, ?_⟩
  rw [mem_edgeTile0]
  intro a
  match a with
  | ⟨0, _⟩ =>
    show win2_7.index t (0 : Fin 2) * 4000 ≤ (i 0).val ∧ (i 0).val < win2_7.index t (0 : Fin 2) * 4000 + 4000
    rw [e0, ht]; omega
  | ⟨1, _⟩ =>
    show win2_7.index t (1 : Fin 2) * 64 ≤ (i 1).val ∧ (i 1).val < win2_7.index t (1 : Fin 2) * 64 + 64
    rw [e1]; omega

/-- After region 2 the edge array is the reference's edge update of the region's operands. -/
theorem edges_updated0 (c : Dev nD) (b1 b2 : FVec Ideal Cert.ReferenceIdeal.S64 .f32)
    (h1 : V c main_v20 = shapeCast _ b1 shapeCasts_S64_S1x64) (h2 : V c main_v21 = shapeCast _ b2 shapeCasts_S64_S1x64) :
    (dat2 (F := Ideal) V c).arrAt 7 cfg2.N
      = Cert.Spec.edgeStep (V c main_v9) (V c main_v10) (V c main_v11) (V c main_v13) b1 (V c main_v17) b2 :=
  (dat2 V c).arrAt_eq_of_cover 7 _ (fun t _ => edgeTile0_flushed V c b1 b2 h1 h2 t) edgeTiles0_cover

end Cert.KernelValue

end
-- ==== Proof.NodeUpdate0.lean ====
/-
  Kernel region 3, the first node update: ten tiles of 5000 node rows. Each tile lays its rows of the node array and
  of the summed incoming edge rows side by side, runs the perceptron on the 128 columns and adds the result to its
  node rows; row by row this is the reference's node update.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.Gen.KernelIdeal.Frame
import proofs.«417864_j35218731827626_1_alg».proof.Proof.Spec
import proofs.«417864_j35218731827626_1_alg».proof.Proof.LibMatmul
import proofs.«417864_j35218731827626_1_alg».proof.Proof.LibRowMlp
import proofs.«417864_j35218731827626_1_alg».proof.Proof.LibConcatRows
import proofs.«417864_j35218731827626_1_alg».proof.Proof.SpecAt

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Lib.RowMlp Cert.Lib.ConcatRows
open Idealize.ShloMosaic.Pipeline (Dat Cfg Window)

-- the buffer contents the region is entered with
variable (V : (c : Dev nD) → (b : Ref sig .tc) → Buf (Elt Ideal) ((c : Thread nD τ).loc b))

namespace NodeUpdate0

/-- Two layers at an entry agree when their rows, weights and biases agree. -/
theorem layerAt_congr {K H : Nat} {x x' : Fin K → EReal} {w w' : Fin K → Fin H → EReal} {b b' : Fin H → EReal}
    (hx : x = x') (hw : w = w') (hb : b = b') (h : Fin H) : layerAt x w b h = layerAt x' w' b' h := by
  subst hx hw hb; rfl

/-- The tile's arithmetic at entry (p, j): the node's entry plus the perceptron of row p of the node tile followed by
    row p of the tile of summed edge rows. Only row p of the two tiles is read. -/
theorem tile_entry (x a : Vec Ideal S5000x64 .f32) (w1 : Vec Ideal S128x64 .f32) (b1 : Vec Ideal S1x64 .f32)
    (w2 : Vec Ideal S64x64 .f32) (b2 : Vec Ideal S1x64 .f32) (p : Fin 5000) (j : Fin 64) :
    k3_pay1 (F := Ideal) x a w1 b1 w2 b2 (ix2 p j)
      = x (ix2 p j) + mlpAt (cat2 (fun q => x (ix2 p q)) (fun q => a (ix2 p q)))
          (fun k h => w1 (ix2 k h)) (fun h => b1 (ix2 (0 : Fin 1) h)) (fun h j => w2 (ix2 h j))
          (fun j => b2 (ix2 (0 : Fin 1) j)) j := by
  unfold k3_pay1
  refine congrArg₂ (· + ·) (congrFun (shapeCast_self x _) _) ?_
  refine (kernLayer_apply dot_S5000x64_S64x64_S5000x64_1_0_0_1_n_n_wf _ _ _ _ _ p j).trans ?_
  unfold mlpAt
  refine layerAt_congr (funext fun h => ?_) (funext fun h => funext fun j' => ?_) rfl j
  · refine (kernRelu_apply _ _).trans ?_
    refine congrArg (fun z => max z 0) ?_
    refine (kernLayer_apply dot_S5000x128_S128x64_S5000x64_1_0_0_1_n_n_wf _ _ _ _ _ p h).trans ?_
    refine layerAt_congr (funext fun k => ?_) (funext fun k => funext fun h' => ?_) rfl h
    · show concatenate S5000x128 1 [⟨S5000x64, shapeCast S5000x64 x shapeCasts_S5000x64_S5000x64⟩,
          ⟨S5000x64, shapeCast S5000x64 a shapeCasts_S5000x64_S5000x64⟩] concatenates_S5000x64_S5000x64_S5000x128_d1 (ix2 p k) = _
      rw [shapeCast_self x, shapeCast_self a]
      exact concat2_apply x a concatenates_S5000x64_S5000x64_S5000x128_d1 p k
    · exact congrFun (shapeCast_self w1 _) _
  · exact congrFun (shapeCast_self w2 _) _

/-- The zero offsets of a whole-buffer access, as a constant function. -/
theorem zero_offsets : (![0, 0] : Fin 2 → Nat) = fun _ => 0 :=
  funext fun a => by match a with | ⟨0, _⟩ => rfl | ⟨1, _⟩ => rfl

/-- Where each window's block sits at tile t: the two node tiles and the output tile are tile t of their arrays
    (block index t along the rows, 0 along the columns); the weights and biases are their whole arrays. -/
theorem tile_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of tile t of the node array is row t * 5000 + p of the array. -/
theorem node_tile_entry (c : Dev nD) (t : Fin cfg3.N) (p : Fin 5000) (q : Fin 64) (r : Fin 50000)
    (hr : r.val = t.val * 5000 + p.val) :
    (iblk3 (F := Ideal) V c 0 t : Vec Ideal S5000x64 .f32) (ix2 p q)
      = (V c main_v6 : Vec Ideal S50000x64 .f32) (ix2 r q) := by
  obtain ⟨e0, e1, -⟩ := tile_index t
  unfold iblk3
  rw [View.read_apply]
  show V c main_v6 (((cfg3.win 0).blk t).view.emb (ix2 p q)) = V c main_v6 (ix2 r q)
  refine congrArg (V c main_v6) ?_
  funext a; apply Fin.ext
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- Row p of tile t of the summed edge rows is row t * 5000 + p of that array. -/
theorem sum_tile_entry (c : Dev nD) (t : Fin cfg3.N) (p : Fin 5000) (q : Fin 64) (r : Fin 50000)
    (hr : r.val = t.val * 5000 + p.val) :
    (iblk3 (F := Ideal) V c 1 t : Vec Ideal S5000x64 .f32) (ix2 p q)
      = (V c main_v25 : Vec Ideal S50000x64 .f32) (ix2 r q) := by
  obtain ⟨-, -, e0, e1, -⟩ := tile_index t
  unfold iblk3
  rw [View.read_apply]
  show V c main_v25 (((cfg3.win 1).blk t).view.emb (ix2 p q)) = V c main_v25 (ix2 r q)
  refine congrArg (V c main_v25) ?_
  funext a; apply Fin.ext
  match a with
  | ⟨0, _⟩ => show win3_1.index t (0 : Fin 2) * 5000 + 1 * p.val = r.val; rw [e0, hr]; omega
  | ⟨1, _⟩ => show win3_1.index t (1 : Fin 2) * 64 + 1 * q.val = q.val; rw [e1]; omega

/-- The first layer's weights are read whole at every tile. -/
theorem weights1_entry (c : Dev nD) (t : Fin cfg3.N) (k : Fin 128) (h : Fin 64) :
    (iblk3 (F := Ideal) V c 2 t : Vec Ideal S128x64 .f32) (ix2 k h) = (V c main_v27 : Vec Ideal S128x64 .f32) (ix2 k h) := by
  obtain ⟨-, -, -, -, e0, e1, -⟩ := tile_index t
  unfold iblk3
  rw [View.read_apply]
  show V c main_v27 (((cfg3.win 2).blk t).view.emb (ix2 k h)) = V c main_v27 (ix2 k h)
  refine congrArg (V c main_v27) ?_
  funext a; apply Fin.ext
  match a with
  | ⟨0, _⟩ => show win3_2.index t (0 : Fin 2) * 128 + 1 * k.val = k.val; rw [e0]; omega
  | ⟨1, _⟩ => show win3_2.index t (1 : Fin 2) * 64 + 1 * h.val = h.val; rw [e1]; omega

/-- The second layer's weights are read whole at every tile. -/
theorem weights2_entry (c : Dev nD) (t : Fin cfg3.N) (h : Fin 64) (j : Fin 64) :
    (iblk3 (F := Ideal) V c 4 t : Vec Ideal S64x64 .f32) (ix2 h j) = (V c main_v31 : Vec Ideal S64x64 .f32) (ix2 h j) := by
  obtain ⟨-, -, -, -, -, -, -, -, e0, e1, -⟩ := tile_index t
  unfold iblk3
  rw [View.read_apply]
  show V c main_v31 (((cfg3.win 4).blk t).view.emb (ix2 h j)) = V c main_v31 (ix2 h j)
  refine congrArg (V c main_v31) ?_
  funext a; apply Fin.ext
  match a with
  | ⟨0, _⟩ => show win3_4.index t (0 : Fin 2) * 64 + 1 * h.val = h.val; rw [e0]; omega
  | ⟨1, _⟩ => show win3_4.index t (1 : Fin 2) * 64 + 1 * j.val = j.val; rw [e1]; omega

/-- A vector of 64 entries cast to one row reads the vector's entry h at (0, h). -/
theorem one_row_entry (b : FVec Ideal Cert.ReferenceIdeal.S64 .f32) (h : Fin 64) :
    shapeCast S1x64 b shapeCasts_S64_S1x64 (ix2 (0 : Fin 1) h) = b (ix1 h) :=
  shapeCast_apply b shapeCasts_S64_S1x64 (ix2 (0 : Fin 1) h) (ix1 h) (by
    rw [Shape.rowMajor_val_two, Shape.rowMajor_val_one]; show h.val = 0 * 64 + h.val; omega)

/-- The first layer's bias row is read whole at every tile; it is the one-row cast of the bias vector. -/
theorem bias1_entry (c : Dev nD) (b1 : FVec Ideal Cert.ReferenceIdeal.S64 .f32)
    (h1 : V c main_v34 = shapeCast _ b1 shapeCasts_S64_S1x64) (t : Fin cfg3.N) (h : Fin 64) :
    (iblk3 (F := Ideal) V c 3 t : Vec Ideal S1x64 .f32) (ix2 (0 : Fin 1) h) = b1 (ix1 h) := by
  obtain ⟨-, -, -, -, -, -, e0, e1, -⟩ := tile_index t
  unfold iblk3
  rw [View.read_apply]
  show V c main_v34 (((cfg3.win 3).blk t).view.emb (ix2 (0 : Fin 1) h)) = b1 (ix1 h)
  have hemb : ((cfg3.win 3).blk t).view.emb (ix2 (0 : Fin 1) h) = ix2 (0 : Fin 1) h := by
    funext a; apply Fin.ext
    match a with
    | ⟨0, _⟩ => show win3_3.index t (0 : Fin 2) * 1 + 1 * 0 = 0; rw [e0]
    | ⟨1, _⟩ => show win3_3.index t (1 : Fin 2) * 64 + 1 * h.val = h.val; rw [e1]; omega
  rw [hemb, h1]
  exact one_row_entry b1 h

/-- The second layer's bias row, likewise. -/
theorem bias2_entry (c : Dev nD) (b2 : FVec Ideal Cert.ReferenceIdeal.S64 .f32)
    (h2 : V c main_v35 = shapeCast _ b2 shapeCasts_S64_S1x64) (t : Fin cfg3.N) (j : Fin 64) :
    (iblk3 (F := Ideal) V c 5 t : Vec Ideal S1x64 .f32) (ix2 (0 : Fin 1) j) = b2 (ix1 j) := by
  obtain ⟨-, -, -, -, -, -, -, -, -, -, e0, e1, -⟩ := tile_index t
  unfold iblk3
  rw [View.read_apply]
  show V c main_v35 (((cfg3.win 5).blk t).view.emb (ix2 (0 : Fin 1) j)) = b2 (ix1 j)
  have hemb : ((cfg3.win 5).blk t).view.emb (ix2 (0 : Fin 1) j) = ix2 (0 : Fin 1) j := by
    funext a; apply Fin.ext
    match a with
    | ⟨0, _⟩ => show win3_5.index t (0 : Fin 2) * 1 + 1 * 0 = 0; rw [e0]
    | ⟨1, _⟩ => show win3_5.index t (1 : Fin 2) * 64 + 1 * j.val = j.val; rw [e1]; omega
  rw [hemb, h2]
  exact one_row_entry b2 j

/-- What tile t writes back is tile t of the reference's node update of the whole operands: entry (p, j) of the tile is
    the update's entry (t * 5000 + p, j), because the update's row depends on that row of the operands only. -/
theorem tile_written (c : Dev nD) (b1 b2 : FVec Ideal Cert.ReferenceIdeal.S64 .f32)
    (h1 : V c main_v34 = shapeCast _ b1 shapeCasts_S64_S1x64) (h2 : V c main_v35 = shapeCast _ b2 shapeCasts_S64_S1x64)
    (t : Fin cfg3.N) :
    (dat3 (F := Ideal) V c).flushed 6 t
      = ((cfg3.win 6).blk t).view.read (Elt Ideal)
          (Cert.Spec.nodeStep (V c main_v6) (V c main_v25) (V c main_v27) b1 (V c main_v31) b2) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S128x64) zero_offsets,
    View.ld_unit_zero (S := S1x64) zero_offsets, View.ld_unit_zero (S := S64x64) zero_offsets]
  funext y
  obtain ⟨p, j, rfl⟩ : ∃ (p : Fin 5000) (j : Fin 64), y = ix2 p j := ⟨y 0, y 1, eq_ix2 y⟩
  have hN : cfg3.N = 10 := N_3
  have hr : t.val * 5000 + p.val < 50000 := by have := t.isLt; have := p.isLt; omega
  obtain ⟨-, -, -, -, -, -, -, -, -, -, -, -, e0, e1⟩ := tile_index t
  have hemb : ((cfg3.win 6).blk t).view.emb (ix2 p j) = ix2 (⟨t.val * 5000 + p.val, hr⟩ : Fin 50000) j := by
    funext a; apply Fin.ext
    match a with
    | ⟨0, _⟩ => show win3_6.index t (0 : Fin 2) * 5000 + 1 * p.val = t.val * 5000 + p.val; rw [e0]; omega
    | ⟨1, _⟩ => show win3_6.index t (1 : Fin 2) * 64 + 1 * j.val = j.val; rw [e1]; omega
  show k3_pay1 (F := Ideal) (iblk3 V c 0 t) (iblk3 V c 1 t) (iblk3 V c 2 t) (iblk3 V c 3 t) (iblk3 V c 4 t) (iblk3 V c 5 t) (ix2 p j)
    = Cert.Spec.nodeStep (V c main_v6) (V c main_v25) (V c main_v27) b1 (V c main_v31) b2
        (((cfg3.win 6).blk t).view.emb (ix2 p j))
  rw [hemb]
  refine (tile_entry _ _ _ _ _ _ p j).trans ?_
  refine Eq.trans ?_ (Cert.SpecAt.nodeStep_apply _ _ _ _ _ _ ⟨t.val * 5000 + p.val, hr⟩ j).symm
  refine congrArg₂ (· + ·) (node_tile_entry V c t p j _ rfl) ?_
  unfold mlpAt
  refine layerAt_congr (funext fun h => congrArg (fun z => max z 0) ?_) (funext fun h => funext fun j' => weights2_entry V c t h j')
    (funext fun j' => bias2_entry V c b2 h2 t j') j
  refine layerAt_congr (congrArg₂ cat2 (funext fun q => node_tile_entry V c t p q _ rfl) (funext fun q => sum_tile_entry V c t p q _ rfl))
    (funext fun k => funext fun h' => weights1_entry V c t k h') (funext fun h' => bias1_entry V c b1 h1 t h') h

/-- An index of the node array lies in tile t iff each coordinate lies in the tile's range on its axis. -/
theorem mem_tile (t : Fin cfg3.N) (i : S50000x64.Idx) :
    i ∈ ((cfg3.win 6).blk t).view.set
      ↔ ∀ a : Fin 2, win3_6.index t a * S5000x64.size a ≤ (i a).val ∧ (i a).val < win3_6.index t a * S5000x64.size a + S5000x64.size a := by
  show i ∈ ((View.whole main_v36).slice (win3_6.rect t)).set ↔ _
  rw [View.set_slice_whole, Rect.mem_set_unit]
  exact Iff.rfl

/-- The ten tiles cover the node array: row r lies in tile r / 5000, and every tile is written back. -/
theorem tiles_cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 10 := N_3
  have ht : (i 0).val / 5000 < cfg3.N := by rw [hN]; omega
  obtain ⟨-, -, -, -, -, -, -, -, -, -, -, -, e0, e1⟩ := tile_index ⟨(i 0).val / 5000, ht⟩
  refine ⟨⟨(i 0).val / 5000, ht⟩, flush3_6 _, ?_⟩
  rw [mem_tile]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ (1 : Fin 2) * 64 ≤ (i 1).val
      ∧ (i 1).val < win3_6.index ⟨(i 0).val / 5000, ht⟩ (1 : Fin 2) * 64 + 64
    rw [e1]; omega

end NodeUpdate0

/-- After region 3 the node array is the reference's node update of the region's operands. -/
theorem nodes_updated0 (c : Dev nD) (b1 b2 : FVec Ideal Cert.ReferenceIdeal.S64 .f32)
    (h1 : V c main_v34 = shapeCast _ b1 shapeCasts_S64_S1x64) (h2 : V c main_v35 = shapeCast _ b2 shapeCasts_S64_S1x64) :
    (dat3 (F := Ideal) V c).arrAt 6 cfg3.N
      = Cert.Spec.nodeStep (V c main_v6) (V c main_v25) (V c main_v27) b1 (V c main_v31) b2 := by
  exact (dat3 V c).arrAt_eq_of_cover 6 _ (fun t _ => NodeUpdate0.tile_written V c b1 b2 h1 h2 t) NodeUpdate0.tiles_cover

end Cert.KernelValue

end
-- ==== Proof.EdgeUpdate1.lean ====
/-
  Kernel region 4, the second edge update: as the first, on the updated arrays and the second layer's weights.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.Gen.KernelIdeal.Frame
import proofs.«417864_j35218731827626_1_alg».proof.Proof.Spec
import proofs.«417864_j35218731827626_1_alg».proof.Proof.LibMatmul
import proofs.«417864_j35218731827626_1_alg».proof.Proof.LibRowMlp
import proofs.«417864_j35218731827626_1_alg».proof.Proof.LibConcatRows
import proofs.«417864_j35218731827626_1_alg».proof.Proof.SpecAt

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Lib.RowMlp Cert.Lib.ConcatRows
open Idealize.ShloMosaic.Pipeline (Dat Cfg Window)

-- the buffer contents the region is entered with
variable (V : (c : Dev nD) → (b : Ref sig .tc) → Buf (Elt Ideal) ((c : Thread nD τ).loc b))

/-- The tile's arithmetic at one entry: the edge row's entry plus the perceptron of the three rows laid side by side. -/
theorem edgeTile1_apply (x0 x1 x2 : Vec Ideal S4000x64 .f32) (x3 : Vec Ideal S192x64 .f32) (x4 : Vec Ideal S1x64 .f32)
    (x5 : Vec Ideal S64x64 .f32) (x6 : Vec Ideal S1x64 .f32) (p : Fin 4000) (j : Fin 64) :
    k4_pay1 (F := Ideal) x0 x1 x2 x3 x4 x5 x6 (ix2 p j)
      = x0 (ix2 p j) + mlpAt (cat3 (fun q => x0 (ix2 p q)) (fun q => x1 (ix2 p q)) (fun q => x2 (ix2 p q)))
          (fun k h => x3 (ix2 k h)) (fun h => x4 (ix2 (0 : Fin 1) h)) (fun h j => x5 (ix2 h j))
          (fun j => x6 (ix2 (0 : Fin 1) j)) j := by
  unfold k4_pay1
  refine (addf_apply _ _ _).trans ?_
  refine congrArg₂ (· + ·) (congrFun (shapeCast_self x0 _) _) ?_
  refine (kernLayer_apply dot_S4000x64_S64x64_S4000x64_1_0_0_1_n_n_wf _ _ _ _ _ p j).trans ?_
  unfold mlpAt
  refine congrArg₂ (fun a b => layerAt a b (fun h => x6 (ix2 (0 : Fin 1) h)) j) ?_ ?_
  · funext h
    refine (kernRelu_apply _ _).trans ?_
    refine congrArg (fun a => max a 0) ?_
    refine (kernLayer_apply dot_S4000x192_S192x64_S4000x64_1_0_0_1_n_n_wf _ _ _ _ _ p h).trans ?_
    refine congrArg₂ (fun a b => layerAt a b (fun h => x4 (ix2 (0 : Fin 1) h)) h) ?_ ?_
    · funext k
      show concatenate S4000x192 1 [⟨S4000x64, shapeCast S4000x64 x0 shapeCasts_S4000x64_S4000x64⟩,
        ⟨S4000x64, shapeCast S4000x64 x1 shapeCasts_S4000x64_S4000x64⟩,
        ⟨S4000x64, shapeCast S4000x64 x2 shapeCasts_S4000x64_S4000x64⟩]
        concatenates_S4000x64_S4000x64_S4000x64_S4000x192_d1 (ix2 p k) = _
      rw [shapeCast_self x0, shapeCast_self x1, shapeCast_self x2]
      exact concat3_apply x0 x1 x2 _ p k
    · funext k h'
      exact congrFun (shapeCast_self x3 _) (ix2 k h')
  · funext h j'
    exact congrFun (shapeCast_self x5 _) (ix2 h j')

/-- The zero offsets, spelt as a constant function. -/
theorem zeroOffsets1 : (![0, 0] : Fin 2 → Nat) = fun _ => 0 :=
  funext fun a => by match a with | ⟨0, _⟩ => rfl | ⟨1, _⟩ => rfl

/-- The windows' block indices at tile t: the three edge arrays and the result move with the tile along the rows,
    the weights and biases stay whole. -/
theorem tileIndices1 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row p of tile t of the edge array is row t * 4000 + p of the array. -/
theorem edgeRows1 (c : Dev nD) (t : Fin cfg4.N) (p : Fin 4000) (q : Fin 64) (r : Fin 800000)
    (hr : r.val = t.val * 4000 + p.val) :
    (iblk4 V c 0 t : Vec Ideal S4000x64 .f32) (ix2 p q) = (V c main_v22 : S800000x64.Idx → EReal) (ix2 r q) := by
  obtain ⟨e0, e1, -⟩ := tileIndices1 t
  unfold iblk4
  rw [View.read_apply]
  show V c main_v22 (((cfg4.win 0).blk t).view.emb (ix2 p q)) = V c main_v22 (ix2 r q)
  congr 1
  funext a
  apply Fin.ext
  match a with
  | ⟨0, _⟩ => show win4_0.index t (0 : Fin 2) * 4000 + 1 * p.val = r.val; rw [e0, hr]; omega
  | ⟨1, _⟩ => show win4_0.index t (1 : Fin 2) * 64 + 1 * q.val = q.val; rw [e1]; omega

/-- Row p of tile t of the gathered source rows is row t * 4000 + p of that array. -/
theorem sourceRows1 (c : Dev nD) (t : Fin cfg4.N) (p : Fin 4000) (q : Fin 64) (r : Fin 800000)
    (hr : r.val = t.val * 4000 + p.val) :
    (iblk4 V c 1 t : Vec Ideal S4000x64 .f32) (ix2 p q) = (V c main_v37 : S800000x64.Idx → EReal) (ix2 r q) := by
  obtain ⟨-, -, e0, e1, -⟩ := tileIndices1 t
  unfold iblk4
  rw [View.read_apply]
  show V c main_v37 (((cfg4.win 1).blk t).view.emb (ix2 p q)) = V c main_v37 (ix2 r q)
  congr 1
  funext a
  apply Fin.ext
  match a with
  | ⟨0, _⟩ => show win4_1.index t (0 : Fin 2) * 4000 + 1 * p.val = r.val; rw [e0, hr]; omega
  | ⟨1, _⟩ => show win4_1.index t (1 : Fin 2) * 64 + 1 * q.val = q.val; rw [e1]; omega

/-- Row p of tile t of the gathered target rows is row t * 4000 + p of that array. -/
theorem targetRows1 (c : Dev nD) (t : Fin cfg4.N) (p : Fin 4000) (q : Fin 64) (r : Fin 800000)
    (hr : r.val = t.val * 4000 + p.val) :
    (iblk4 V c 2 t : Vec Ideal S4000x64 .f32) (ix2 p q) = (V c main_v38 : S800000x64.Idx → EReal) (ix2 r q) := by
  obtain ⟨-, -, -, -, e0, e1, -⟩ := tileIndices1 t
  unfold iblk4
  rw [View.read_apply]
  show V c main_v38 (((cfg4.win 2).blk t).view.emb (ix2 p q)) = V c main_v38 (ix2 r q)
  congr 1
  funext a
  apply Fin.ext
  match a with
  | ⟨0, _⟩ => show win4_2.index t (0 : Fin 2) * 4000 + 1 * p.val = r.val; rw [e0, hr]; omega
  | ⟨1, _⟩ => show win4_2.index t (1 : Fin 2) * 64 + 1 * q.val = q.val; rw [e1]; omega

/-- Every tile sees the whole first weight matrix. -/
theorem firstWeights1 (c : Dev nD) (t : Fin cfg4.N) (k : Fin 192) (h : Fin 64) :
    (iblk4 V c 3 t : Vec Ideal S192x64 .f32) (ix2 k h) = (V c main_v40 : S192x64.Idx → EReal) (ix2 k h) := by
  obtain ⟨-, -, -, -, -, -, e0, e1, -⟩ := tileIndices1 t
  unfold iblk4
  rw [View.read_apply]
  show V c main_v40 (((cfg4.win 3).blk t).view.emb (ix2 k h)) = V c main_v40 (ix2 k h)
  congr 1
  funext a
  apply Fin.ext
  match a with
  | ⟨0, _⟩ => show win4_3.index t (0 : Fin 2) * 192 + 1 * k.val = k.val; rw [e0]; omega
  | ⟨1, _⟩ => show win4_3.index t (1 : Fin 2) * 64 + 1 * h.val = h.val; rw [e1]; omega

/-- Every tile sees the whole first bias row. -/
theorem firstBias1 (c : Dev nD) (t : Fin cfg4.N) (h : Fin 64) :
    (iblk4 V c 4 t : Vec Ideal S1x64 .f32) (ix2 (0 : Fin 1) h) = (V c main_v47 : S1x64.Idx → EReal) (ix2 (0 : Fin 1) h) := by
  obtain ⟨-, -, -, -, -, -, -, -, e0, e1, -⟩ := tileIndices1 t
  unfold iblk4
  rw [View.read_apply]
  show V c main_v47 (((cfg4.win 4).blk t).view.emb (ix2 (0 : Fin 1) h)) = V c main_v47 (ix2 (0 : Fin 1) h)
  congr 1
  funext a
  apply Fin.ext
  match a with
  | ⟨0, _⟩ => show win4_4.index t (0 : Fin 2) * 1 + 1 * 0 = 0; rw [e0]
  | ⟨1, _⟩ => show win4_4.index t (1 : Fin 2) * 64 + 1 * h.val = h.val; rw [e1]; omega

/-- Every tile sees the whole second weight matrix. -/
theorem secondWeights1 (c : Dev nD) (t : Fin cfg4.N) (h : Fin 64) (j : Fin 64) :
    (iblk4 V c 5 t : Vec Ideal S64x64 .f32) (ix2 h j) = (V c main_v44 : S64x64.Idx → EReal) (ix2 h j) := by
  obtain ⟨-, -, -, -, -, -, -, -, -, -, e0, e1, -⟩ := tileIndices1 t
  unfold iblk4
  rw [View.read_apply]
  show V c main_v44 (((cfg4.win 5).blk t).view.emb (ix2 h j)) = V c main_v44 (ix2 h j)
  congr 1
  funext a
  apply Fin.ext
  match a with
  | ⟨0, _⟩ => show win4_5.index t (0 : Fin 2) * 64 + 1 * h.val = h.val; rw [e0]; omega
  | ⟨1, _⟩ => show win4_5.index t (1 : Fin 2) * 64 + 1 * j.val = j.val; rw [e1]; omega

/-- Every tile sees the whole second bias row. -/
theorem secondBias1 (c : Dev nD) (t : Fin cfg4.N) (h : Fin 64) :
    (iblk4 V c 6 t : Vec Ideal S1x64 .f32) (ix2 (0 : Fin 1) h) = (V c main_v48 : S1x64.Idx → EReal) (ix2 (0 : Fin 1) h) := by
  obtain ⟨-, -, -, -, -, -, -, -, -, -, -, -, e0, e1, -⟩ := tileIndices1 t
  unfold iblk4
  rw [View.read_apply]
  show V c main_v48 (((cfg4.win 6).blk t).view.emb (ix2 (0 : Fin 1) h)) = V c main_v48 (ix2 (0 : Fin 1) h)
  congr 1
  funext a
  apply Fin.ext
  match a with
  | ⟨0, _⟩ => show win4_6.index t (0 : Fin 2) * 1 + 1 * 0 = 0; rw [e0]
  | ⟨1, _⟩ => show win4_6.index t (1 : Fin 2) * 64 + 1 * h.val = h.val; rw [e1]; omega

/-- A vector of 64 entries cast to one row reads its entry h at (0, h). -/
theorem oneRow1 (b : FVec Ideal Cert.ReferenceIdeal.S64 .f32) (h : Fin 64) :
    (shapeCast S1x64 b shapeCasts_S64_S1x64 : S1x64.Idx → EReal) (ix2 (0 : Fin 1) h) = b (ix1 h) :=
  shapeCast_apply b shapeCasts_S64_S1x64 (ix2 (0 : Fin 1) h) (ix1 h) (by
    rw [Shape.rowMajor_val_two, Shape.rowMajor_val_one]; show h.val = 0 * 64 + h.val; omega)

/-- What tile t writes back is tile t of the reference's edge update of the whole operands. -/
theorem edgeTile1_flushed (c : Dev nD) (b1 b2 : FVec Ideal Cert.ReferenceIdeal.S64 .f32)
    (h1 : V c main_v47 = shapeCast _ b1 shapeCasts_S64_S1x64) (h2 : V c main_v48 = shapeCast _ b2 shapeCasts_S64_S1x64)
    (t : Fin cfg4.N) :
    (dat4 (F := Ideal) V c).flushed 7 t = ((cfg4.win 7).blk t).view.read (Elt Ideal)
      (Cert.Spec.edgeStep (V c main_v22) (V c main_v37) (V c main_v38) (V c main_v40) b1 (V c main_v44) b2) := by
  show (cfg4.win 7).cut (grid4.coords t) ((dat4 V c).after 7 t) = _
  rw [after4_7]
  unfold out4_7
  rw [View.canon_unit_zero zeroOffsets1]
  simp only [View.ld_unit_zero (S := S4000x64) zeroOffsets1, View.ld_unit_zero (S := S192x64) zeroOffsets1,
    View.ld_unit_zero (S := S1x64) zeroOffsets1, View.ld_unit_zero (S := S64x64) zeroOffsets1]
  funext y
  obtain ⟨p, j, rfl⟩ : ∃ (p : Fin 4000) (j : Fin 64), y = ix2 p j := ⟨y 0, y 1, eq_ix2 y⟩
  have ht : t.val < 200 := lt_of_lt_of_eq t.isLt N_4
  obtain ⟨r, hr⟩ : ∃ r : Fin 800000, r.val = t.val * 4000 + p.val := ⟨⟨t.val * 4000 + p.val, by omega⟩, rfl⟩
  obtain ⟨-, -, -, -, -, -, -, -, -, -, -, -, -, -, e0, e1⟩ := tileIndices1 t
  have hemb : ((cfg4.win 7).blk t).view.emb (ix2 p j) = (ix2 r j : S800000x64.Idx) := by
    funext a
    apply Fin.ext
    match a with
    | ⟨0, _⟩ => show win4_7.index t (0 : Fin 2) * 4000 + 1 * p.val = r.val; rw [e0, hr]; omega
    | ⟨1, _⟩ => show win4_7.index t (1 : Fin 2) * 64 + 1 * j.val = j.val; rw [e1]; omega
  show k4_pay1 (F := Ideal) (iblk4 V c 0 t) (iblk4 V c 1 t) (iblk4 V c 2 t) (iblk4 V c 3 t) (iblk4 V c 4 t) (iblk4 V c 5 t)
      (iblk4 V c 6 t) (ix2 p j)
    = Cert.Spec.edgeStep (V c main_v22) (V c main_v37) (V c main_v38) (V c main_v40) b1 (V c main_v44) b2
        (((cfg4.win 7).blk t).view.emb (ix2 p j))
  refine (edgeTile1_apply (iblk4 V c 0 t) (iblk4 V c 1 t) (iblk4 V c 2 t) (iblk4 V c 3 t) (iblk4 V c 4 t) (iblk4 V c 5 t)
    (iblk4 V c 6 t) p j).trans ?_
  refine Eq.trans ?_ (congrArg (Cert.Spec.edgeStep (V c main_v22) (V c main_v37) (V c main_v38) (V c main_v40) b1
    (V c main_v44) b2) hemb).symm
  refine Eq.trans ?_ (Cert.SpecAt.edgeStep_apply (V c main_v22) (V c main_v37) (V c main_v38) (V c main_v40) b1
    (V c main_v44) b2 r j).symm
  have hb1 : (fun h : Fin 64 => (iblk4 V c 4 t : Vec Ideal S1x64 .f32) (ix2 (0 : Fin 1) h)) = fun h => b1 (ix1 h) := by
    funext h
    rw [firstBias1 V c t h, h1]
    exact oneRow1 b1 h
  have hb2 : (fun h : Fin 64 => (iblk4 V c 6 t : Vec Ideal S1x64 .f32) (ix2 (0 : Fin 1) h)) = fun h => b2 (ix1 h) := by
    funext h
    rw [secondBias1 V c t h, h2]
    exact oneRow1 b2 h
  have hx0 : (fun q : Fin 64 => (iblk4 V c 0 t : Vec Ideal S4000x64 .f32) (ix2 p q))
      = fun q => (V c main_v22 : S800000x64.Idx → EReal) (ix2 r q) := funext fun q => edgeRows1 V c t p q r hr
  have hx1 : (fun q : Fin 64 => (iblk4 V c 1 t : Vec Ideal S4000x64 .f32) (ix2 p q))
      = fun q => (V c main_v37 : S800000x64.Idx → EReal) (ix2 r q) := funext fun q => sourceRows1 V c t p q r hr
  have hx2 : (fun q : Fin 64 => (iblk4 V c 2 t : Vec Ideal S4000x64 .f32) (ix2 p q))
      = fun q => (V c main_v38 : S800000x64.Idx → EReal) (ix2 r q) := funext fun q => targetRows1 V c t p q r hr
  have hw1 : (fun (k : Fin 192) (h : Fin 64) => (iblk4 V c 3 t : Vec Ideal S192x64 .f32) (ix2 k h))
      = fun k h => (V c main_v40 : S192x64.Idx → EReal) (ix2 k h) := funext fun k => funext fun h => firstWeights1 V c t k h
  have hw2 : (fun (h : Fin 64) (j : Fin 64) => (iblk4 V c 5 t : Vec Ideal S64x64 .f32) (ix2 h j))
      = fun h j => (V c main_v44 : S64x64.Idx → EReal) (ix2 h j) := funext fun h => funext fun j => secondWeights1 V c t h j
  rw [hx0, hx1, hx2, hw1, hw2, hb1, hb2, edgeRows1 V c t p j r hr]

/-- An index of the edge array is in tile t iff each coordinate is in the tile's range on its axis. -/
theorem mem_edgeTile1 (t : Fin cfg4.N) (i : S800000x64.Idx) :
    i ∈ ((cfg4.win 7).blk t).view.set ↔ ∀ a : Fin 2, win4_7.index t a * S4000x64.size a ≤ (i a).val
      ∧ (i a).val < win4_7.index t a * S4000x64.size a + S4000x64.size a := by
  show i ∈ ((View.whole main_v49).slice (win4_7.rect t)).set ↔ _
  rw [View.set_slice_whole, Rect.mem_set_unit]
  exact Iff.rfl

/-- Every row of the edge array lies in a tile: row r in tile r / 4000. -/
theorem edgeTiles1_cover (i : S800000x64.Idx) :
    ∃ t : Fin cfg4.N, (cfg4.win 7).flush t = true ∧ i ∈ ((cfg4.win 7).blk t).view.set := by
  have hi0 : (i 0).val < 800000 := (i 0).isLt
  have hi1 : (i 1).val < 64 := (i 1).isLt
  obtain ⟨t, ht⟩ : ∃ t : Fin cfg4.N, t.val = (i 0).val / 4000 :=
    ⟨⟨(i 0).val / 4000, lt_of_lt_of_eq (show (i 0).val / 4000 < 200 by omega) N_4.symm⟩, rfl⟩
  obtain ⟨-, -, -, -, -, -, -, -, -, -, -, -, -, -, e0, e1⟩ := tileIndices1 t
  refine ⟨t, flush4_7 t, ?_⟩
  rw [mem_edgeTile1]
  intro a
  match a with
  | ⟨0, _⟩ =>
    show win4_7.index t (0 : Fin 2) * 4000 ≤ (i 0).val ∧ (i 0).val < win4_7.index t (0 : Fin 2) * 4000 + 4000
    rw [e0, ht]; omega
  | ⟨1, _⟩ =>
    show win4_7.index t (1 : Fin 2) * 64 ≤ (i 1).val ∧ (i 1).val < win4_7.index t (1 : Fin 2) * 64 + 64
    rw [e1]; omega

/-- After region 4 the edge array is the reference's edge update of the region's operands. -/
theorem edges_updated1 (c : Dev nD) (b1 b2 : FVec Ideal Cert.ReferenceIdeal.S64 .f32)
    (h1 : V c main_v47 = shapeCast _ b1 shapeCasts_S64_S1x64) (h2 : V c main_v48 = shapeCast _ b2 shapeCasts_S64_S1x64) :
    (dat4 (F := Ideal) V c).arrAt 7 cfg4.N
      = Cert.Spec.edgeStep (V c main_v22) (V c main_v37) (V c main_v38) (V c main_v40) b1 (V c main_v44) b2 :=
  (dat4 V c).arrAt_eq_of_cover 7 _ (fun t _ => edgeTile1_flushed V c b1 b2 h1 h2 t) edgeTiles1_cover

end Cert.KernelValue

end
-- ==== Proof.NodeUpdate1.lean ====
/-
  Kernel region 5, the second node update: as the first, on the updated arrays and the second layer's weights.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.Gen.KernelIdeal.Frame
import proofs.«417864_j35218731827626_1_alg».proof.Proof.Spec
import proofs.«417864_j35218731827626_1_alg».proof.Proof.LibMatmul
import proofs.«417864_j35218731827626_1_alg».proof.Proof.LibRowMlp
import proofs.«417864_j35218731827626_1_alg».proof.Proof.LibConcatRows
import proofs.«417864_j35218731827626_1_alg».proof.Proof.SpecAt

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Lib.RowMlp Cert.Lib.ConcatRows
open Idealize.ShloMosaic.Pipeline (Dat Cfg Window)

-- the buffer contents the region is entered with
variable (V : (c : Dev nD) → (b : Ref sig .tc) → Buf (Elt Ideal) ((c : Thread nD τ).loc b))

namespace NodeUpdate1

/-- Two layers at an entry agree when their rows, weights and biases agree. -/
theorem layerAt_congr {K H : Nat} {x x' : Fin K → EReal} {w w' : Fin K → Fin H → EReal} {b b' : Fin H → EReal}
    (hx : x = x') (hw : w = w') (hb : b = b') (h : Fin H) : layerAt x w b h = layerAt x' w' b' h := by
  subst hx hw hb; rfl

/-- The tile's arithmetic at entry (p, j): the node's entry plus the perceptron of row p of the node tile followed by
    row p of the tile of summed edge rows. Only row p of the two tiles is read. -/
theorem tile_entry (x a : Vec Ideal S5000x64 .f32) (w1 : Vec Ideal S128x64 .f32) (b1 : Vec Ideal S1x64 .f32)
    (w2 : Vec Ideal S64x64 .f32) (b2 : Vec Ideal S1x64 .f32) (p : Fin 5000) (j : Fin 64) :
    k5_pay1 (F := Ideal) x a w1 b1 w2 b2 (ix2 p j)
      = x (ix2 p j) + mlpAt (cat2 (fun q => x (ix2 p q)) (fun q => a (ix2 p q)))
          (fun k h => w1 (ix2 k h)) (fun h => b1 (ix2 (0 : Fin 1) h)) (fun h j => w2 (ix2 h j))
          (fun j => b2 (ix2 (0 : Fin 1) j)) j := by
  unfold k5_pay1
  refine congrArg₂ (· + ·) (congrFun (shapeCast_self x _) _) ?_
  refine (kernLayer_apply dot_S5000x64_S64x64_S5000x64_1_0_0_1_n_n_wf _ _ _ _ _ p j).trans ?_
  unfold mlpAt
  refine layerAt_congr (funext fun h => ?_) (funext fun h => funext fun j' => ?_) rfl j
  · refine (kernRelu_apply _ _).trans ?_
    refine congrArg (fun z => max z 0) ?_
    refine (kernLayer_apply dot_S5000x128_S128x64_S5000x64_1_0_0_1_n_n_wf _ _ _ _ _ p h).trans ?_
    refine layerAt_congr (funext fun k => ?_) (funext fun k => funext fun h' => ?_) rfl h
    · show concatenate S5000x128 1 [⟨S5000x64, shapeCast S5000x64 x shapeCasts_S5000x64_S5000x64⟩,
          ⟨S5000x64, shapeCast S5000x64 a shapeCasts_S5000x64_S5000x64⟩] concatenates_S5000x64_S5000x64_S5000x128_d1 (ix2 p k) = _
      rw [shapeCast_self x, shapeCast_self a]
      exact concat2_apply x a concatenates_S5000x64_S5000x64_S5000x128_d1 p k
    · exact congrFun (shapeCast_self w1 _) _
  · exact congrFun (shapeCast_self w2 _) _

/-- The zero offsets of a whole-buffer access, as a constant function. -/
theorem zero_offsets : (![0, 0] : Fin 2 → Nat) = fun _ => 0 :=
  funext fun a => by match a with | ⟨0, _⟩ => rfl | ⟨1, _⟩ => rfl

/-- Where each window's block sits at tile t: the two node tiles and the output tile are tile t of their arrays
    (block index t along the rows, 0 along the columns); the weights and biases are their whole arrays. -/
theorem tile_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row p of tile t of the node array is row t * 5000 + p of the array. -/
theorem node_tile_entry (c : Dev nD) (t : Fin cfg5.N) (p : Fin 5000) (q : Fin 64) (r : Fin 50000)
    (hr : r.val = t.val * 5000 + p.val) :
    (iblk5 (F := Ideal) V c 0 t : Vec Ideal S5000x64 .f32) (ix2 p q)
      = (V c main_v36 : Vec Ideal S50000x64 .f32) (ix2 r q) := by
  obtain ⟨e0, e1, -⟩ := tile_index t
  unfold iblk5
  rw [View.read_apply]
  show V c main_v36 (((cfg5.win 0).blk t).view.emb (ix2 p q)) = V c main_v36 (ix2 r q)
  refine congrArg (V c main_v36) ?_
  funext a; apply Fin.ext
  match a with
  | ⟨0, _⟩ => show win5_0.index t (0 : Fin 2) * 5000 + 1 * p.val = r.val; rw [e0, hr]; omega
  | ⟨1, _⟩ => show win5_0.index t (1 : Fin 2) * 64 + 1 * q.val = q.val; rw [e1]; omega

/-- Row p of tile t of the summed edge rows is row t * 5000 + p of that array. -/
theorem sum_tile_entry (c : Dev nD) (t : Fin cfg5.N) (p : Fin 5000) (q : Fin 64) (r : Fin 50000)
    (hr : r.val = t.val * 5000 + p.val) :
    (iblk5 (F := Ideal) V c 1 t : Vec Ideal S5000x64 .f32) (ix2 p q)
      = (V c main_v52 : Vec Ideal S50000x64 .f32) (ix2 r q) := by
  obtain ⟨-, -, e0, e1, -⟩ := tile_index t
  unfold iblk5
  rw [View.read_apply]
  show V c main_v52 (((cfg5.win 1).blk t).view.emb (ix2 p q)) = V c main_v52 (ix2 r q)
  refine congrArg (V c main_v52) ?_
  funext a; apply Fin.ext
  match a with
  | ⟨0, _⟩ => show win5_1.index t (0 : Fin 2) * 5000 + 1 * p.val = r.val; rw [e0, hr]; omega
  | ⟨1, _⟩ => show win5_1.index t (1 : Fin 2) * 64 + 1 * q.val = q.val; rw [e1]; omega

/-- The first layer's weights are read whole at every tile. -/
theorem weights1_entry (c : Dev nD) (t : Fin cfg5.N) (k : Fin 128) (h : Fin 64) :
    (iblk5 (F := Ideal) V c 2 t : Vec Ideal S128x64 .f32) (ix2 k h) = (V c main_v54 : Vec Ideal S128x64 .f32) (ix2 k h) := by
  obtain ⟨-, -, -, -, e0, e1, -⟩ := tile_index t
  unfold iblk5
  rw [View.read_apply]
  show V c main_v54 (((cfg5.win 2).blk t).view.emb (ix2 k h)) = V c main_v54 (ix2 k h)
  refine congrArg (V c main_v54) ?_
  funext a; apply Fin.ext
  match a with
  | ⟨0, _⟩ => show win5_2.index t (0 : Fin 2) * 128 + 1 * k.val = k.val; rw [e0]; omega
  | ⟨1, _⟩ => show win5_2.index t (1 : Fin 2) * 64 + 1 * h.val = h.val; rw [e1]; omega

/-- The second layer's weights are read whole at every tile. -/
theorem weights2_entry (c : Dev nD) (t : Fin cfg5.N) (h : Fin 64) (j : Fin 64) :
    (iblk5 (F := Ideal) V c 4 t : Vec Ideal S64x64 .f32) (ix2 h j) = (V c main_v58 : Vec Ideal S64x64 .f32) (ix2 h j) := by
  obtain ⟨-, -, -, -, -, -, -, -, e0, e1, -⟩ := tile_index t
  unfold iblk5
  rw [View.read_apply]
  show V c main_v58 (((cfg5.win 4).blk t).view.emb (ix2 h j)) = V c main_v58 (ix2 h j)
  refine congrArg (V c main_v58) ?_
  funext a; apply Fin.ext
  match a with
  | ⟨0, _⟩ => show win5_4.index t (0 : Fin 2) * 64 + 1 * h.val = h.val; rw [e0]; omega
  | ⟨1, _⟩ => show win5_4.index t (1 : Fin 2) * 64 + 1 * j.val = j.val; rw [e1]; omega

/-- A vector of 64 entries cast to one row reads the vector's entry h at (0, h). -/
theorem one_row_entry (b : FVec Ideal Cert.ReferenceIdeal.S64 .f32) (h : Fin 64) :
    shapeCast S1x64 b shapeCasts_S64_S1x64 (ix2 (0 : Fin 1) h) = b (ix1 h) :=
  shapeCast_apply b shapeCasts_S64_S1x64 (ix2 (0 : Fin 1) h) (ix1 h) (by
    rw [Shape.rowMajor_val_two, Shape.rowMajor_val_one]; show h.val = 0 * 64 + h.val; omega)

/-- The first layer's bias row is read whole at every tile; it is the one-row cast of the bias vector. -/
theorem bias1_entry (c : Dev nD) (b1 : FVec Ideal Cert.ReferenceIdeal.S64 .f32)
    (h1 : V c main_v61 = shapeCast _ b1 shapeCasts_S64_S1x64) (t : Fin cfg5.N) (h : Fin 64) :
    (iblk5 (F := Ideal) V c 3 t : Vec Ideal S1x64 .f32) (ix2 (0 : Fin 1) h) = b1 (ix1 h) := by
  obtain ⟨-, -, -, -, -, -, e0, e1, -⟩ := tile_index t
  unfold iblk5
  rw [View.read_apply]
  show V c main_v61 (((cfg5.win 3).blk t).view.emb (ix2 (0 : Fin 1) h)) = b1 (ix1 h)
  have hemb : ((cfg5.win 3).blk t).view.emb (ix2 (0 : Fin 1) h) = ix2 (0 : Fin 1) h := by
    funext a; apply Fin.ext
    match a with
    | ⟨0, _⟩ => show win5_3.index t (0 : Fin 2) * 1 + 1 * 0 = 0; rw [e0]
    | ⟨1, _⟩ => show win5_3.index t (1 : Fin 2) * 64 + 1 * h.val = h.val; rw [e1]; omega
  rw [hemb, h1]
  exact one_row_entry b1 h

/-- The second layer's bias row, likewise. -/
theorem bias2_entry (c : Dev nD) (b2 : FVec Ideal Cert.ReferenceIdeal.S64 .f32)
    (h2 : V c main_v62 = shapeCast _ b2 shapeCasts_S64_S1x64) (t : Fin cfg5.N) (j : Fin 64) :
    (iblk5 (F := Ideal) V c 5 t : Vec Ideal S1x64 .f32) (ix2 (0 : Fin 1) j) = b2 (ix1 j) := by
  obtain ⟨-, -, -, -, -, -, -, -, -, -, e0, e1, -⟩ := tile_index t
  unfold iblk5
  rw [View.read_apply]
  show V c main_v62 (((cfg5.win 5).blk t).view.emb (ix2 (0 : Fin 1) j)) = b2 (ix1 j)
  have hemb : ((cfg5.win 5).blk t).view.emb (ix2 (0 : Fin 1) j) = ix2 (0 : Fin 1) j := by
    funext a; apply Fin.ext
    match a with
    | ⟨0, _⟩ => show win5_5.index t (0 : Fin 2) * 1 + 1 * 0 = 0; rw [e0]
    | ⟨1, _⟩ => show win5_5.index t (1 : Fin 2) * 64 + 1 * j.val = j.val; rw [e1]; omega
  rw [hemb, h2]
  exact one_row_entry b2 j

/-- What tile t writes back is tile t of the reference's node update of the whole operands: entry (p, j) of the tile is
    the update's entry (t * 5000 + p, j), because the update's row depends on that row of the operands only. -/
theorem tile_written (c : Dev nD) (b1 b2 : FVec Ideal Cert.ReferenceIdeal.S64 .f32)
    (h1 : V c main_v61 = shapeCast _ b1 shapeCasts_S64_S1x64) (h2 : V c main_v62 = shapeCast _ b2 shapeCasts_S64_S1x64)
    (t : Fin cfg5.N) :
    (dat5 (F := Ideal) V c).flushed 6 t
      = ((cfg5.win 6).blk t).view.read (Elt Ideal)
          (Cert.Spec.nodeStep (V c main_v36) (V c main_v52) (V c main_v54) b1 (V c main_v58) b2) := by
  show (cfg5.win 6).cut (grid5.coords t) ((dat5 V c).after 6 t) = _
  rw [after5_6]
  unfold out5_6
  rw [View.canon_unit_zero zero_offsets]
  simp only [View.ld_unit_zero (S := S5000x64) zero_offsets, View.ld_unit_zero (S := S128x64) zero_offsets,
    View.ld_unit_zero (S := S1x64) zero_offsets, View.ld_unit_zero (S := S64x64) zero_offsets]
  funext y
  obtain ⟨p, j, rfl⟩ : ∃ (p : Fin 5000) (j : Fin 64), y = ix2 p j := ⟨y 0, y 1, eq_ix2 y⟩
  have hN : cfg5.N = 10 := N_5
  have hr : t.val * 5000 + p.val < 50000 := by have := t.isLt; have := p.isLt; omega
  obtain ⟨-, -, -, -, -, -, -, -, -, -, -, -, e0, e1⟩ := tile_index t
  have hemb : ((cfg5.win 6).blk t).view.emb (ix2 p j) = ix2 (⟨t.val * 5000 + p.val, hr⟩ : Fin 50000) j := by
    funext a; apply Fin.ext
    match a with
    | ⟨0, _⟩ => show win5_6.index t (0 : Fin 2) * 5000 + 1 * p.val = t.val * 5000 + p.val; rw [e0]; omega
    | ⟨1, _⟩ => show win5_6.index t (1 : Fin 2) * 64 + 1 * j.val = j.val; rw [e1]; omega
  show k5_pay1 (F := Ideal) (iblk5 V c 0 t) (iblk5 V c 1 t) (iblk5 V c 2 t) (iblk5 V c 3 t) (iblk5 V c 4 t) (iblk5 V c 5 t) (ix2 p j)
    = Cert.Spec.nodeStep (V c main_v36) (V c main_v52) (V c main_v54) b1 (V c main_v58) b2
        (((cfg5.win 6).blk t).view.emb (ix2 p j))
  rw [hemb]
  refine (tile_entry _ _ _ _ _ _ p j).trans ?_
  refine Eq.trans ?_ (Cert.SpecAt.nodeStep_apply _ _ _ _ _ _ ⟨t.val * 5000 + p.val, hr⟩ j).symm
  refine congrArg₂ (· + ·) (node_tile_entry V c t p j _ rfl) ?_
  unfold mlpAt
  refine layerAt_congr (funext fun h => congrArg (fun z => max z 0) ?_) (funext fun h => funext fun j' => weights2_entry V c t h j')
    (funext fun j' => bias2_entry V c b2 h2 t j') j
  refine layerAt_congr (congrArg₂ cat2 (funext fun q => node_tile_entry V c t p q _ rfl) (funext fun q => sum_tile_entry V c t p q _ rfl))
    (funext fun k => funext fun h' => weights1_entry V c t k h') (funext fun h' => bias1_entry V c b1 h1 t h') h

/-- An index of the node array lies in tile t iff each coordinate lies in the tile's range on its axis. -/
theorem mem_tile (t : Fin cfg5.N) (i : S50000x64.Idx) :
    i ∈ ((cfg5.win 6).blk t).view.set
      ↔ ∀ a : Fin 2, win5_6.index t a * S5000x64.size a ≤ (i a).val ∧ (i a).val < win5_6.index t a * S5000x64.size a + S5000x64.size a := by
  show i ∈ ((View.whole main_v63).slice (win5_6.rect t)).set ↔ _
  rw [View.set_slice_whole, Rect.mem_set_unit]
  exact Iff.rfl

/-- The ten tiles cover the node array: row r lies in tile r / 5000, and every tile is written back. -/
theorem tiles_cover (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨-, -, -, -, -, -, -, -, -, -, -, -, e0, e1⟩ := tile_index ⟨(i 0).val / 5000, ht⟩
  refine ⟨⟨(i 0).val / 5000, ht⟩, flush5_6 _, ?_⟩
  rw [mem_tile]
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_6.index ⟨(i 0).val / 5000, ht⟩ (1 : Fin 2) * 64 ≤ (i 1).val
      ∧ (i 1).val < win5_6.index ⟨(i 0).val / 5000, ht⟩ (1 : Fin 2) * 64 + 64
    rw [e1]; omega

end NodeUpdate1

/-- After region 5 the node array is the reference's node update of the region's operands. -/
theorem nodes_updated1 (c : Dev nD) (b1 b2 : FVec Ideal Cert.ReferenceIdeal.S64 .f32)
    (h1 : V c main_v61 = shapeCast _ b1 shapeCasts_S64_S1x64) (h2 : V c main_v62 = shapeCast _ b2 shapeCasts_S64_S1x64) :
    (dat5 (F := Ideal) V c).arrAt 6 cfg5.N
      = Cert.Spec.nodeStep (V c main_v36) (V c main_v52) (V c main_v54) b1 (V c main_v58) b2 := by
  exact (dat5 V c).arrAt_eq_of_cover 6 _ (fun t _ => NodeUpdate1.tile_written V c b1 b2 h1 h2 t) NodeUpdate1.tiles_cover

end Cert.KernelValue

end
-- ==== Proof.Decoder.lean ====
/-
  Kernel region 6, the decoder: ten tiles of 5000 node rows, each the perceptron of its own rows, to 6 columns; the
  array the region leaves is the reference's decoder of the whole node array.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«417864_j35218731827626_1_alg».proof.Proof.Gen.KernelIdeal.Frame
import proofs.«417864_j35218731827626_1_alg».proof.Proof.Spec
import proofs.«417864_j35218731827626_1_alg».proof.Proof.LibMatmul
import proofs.«417864_j35218731827626_1_alg».proof.Proof.LibRowMlp
import proofs.«417864_j35218731827626_1_alg».proof.Proof.LibConcatRows
import proofs.«417864_j35218731827626_1_alg».proof.Proof.SpecAt

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Lib.RowMlp Cert.Lib.ConcatRows
open Idealize.ShloMosaic.Pipeline (Dat Cfg Window)

-- the buffer contents the region is entered with
variable (V : (c : Dev nD) → (b : Ref sig .tc) → Buf (Elt Ideal) ((c : Thread nD τ).loc b))

/-- The tile body's result at entry (p, j): the perceptron of row p of the tile. -/
theorem k6_pay1_apply (x0 : Vec Ideal S5000x64 .f32) (x1 : Vec Ideal S64x64 .f32) (x2 : Vec Ideal S1x64 .f32)
    (x3 : Vec Ideal S64x6 .f32) (x4 : Vec Ideal S1x6 .f32) (p : Fin 5000) (j : Fin 6) :
    k6_pay1 (F := Ideal) x0 x1 x2 x3 x4 (ix2 p j)
      = mlpAt (fun k => x0 (ix2 p k)) (fun k h => x1 (ix2 k h)) (fun h => x2 (ix2 (0 : Fin 1) h))
          (fun h j => x3 (ix2 h j)) (fun j => x4 (ix2 (0 : Fin 1) j)) j := by
  unfold k6_pay1
  refine (kernLayer_apply dot_S5000x64_S64x6_S5000x6_1_0_0_1_n_n_wf _ _ _ _ _ p j).trans ?_
  unfold mlpAt
  refine congrArg (fun f => layerAt f (fun k h => x3 (ix2 k h)) (fun h => x4 (ix2 (0 : Fin 1) h)) j) (funext fun h => ?_)
  refine (kernRelu_apply _ (ix2 p h)).trans ?_
  refine congrArg (fun z => max z 0) ?_
  refine (kernLayer_apply dot_S5000x64_S64x64_S5000x64_1_0_0_1_n_n_wf _ _ _ _ _ p h).trans ?_
  rw [shapeCast_self]
  rfl

private theorem zero_offsets : (![0, 0] : Fin 2 → Nat) = fun _ => 0 := funext fun a => by fin_cases a <;> rfl

/-- The windows' block indices at tile t: the tiled windows sit at row block t, the weights and biases at block 0. -/
theorem tile_index6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row p of tile t of the node array is row t * 5000 + p of the array. -/
theorem rows_block6 (c : Dev nD) (t : Fin cfg6.N) (p : Fin 5000) (k : Fin 64) (r : Fin 50000)
    (hr : r.val = t.val * 5000 + p.val) :
    (iblk6 V c 0 t : Vec Ideal S5000x64 .f32) (ix2 p k) = V c main_v63 (ix2 r k) := by
  obtain ⟨e0, e1, -⟩ := tile_index6 t
  show V c main_v63 (((cfg6.win 0).blk t).view.emb (ix2 p k)) = V c main_v63 (ix2 r k)
  refine congrArg (V c main_v63) (funext fun a => Fin.ext ?_)
  match a with
  | ⟨0, _⟩ => show win6_0.index t (0 : Fin 2) * 5000 + 1 * p.val = r.val; rw [e0, hr]; omega
  | ⟨1, _⟩ => show win6_0.index t (1 : Fin 2) * 64 + 1 * k.val = k.val; rw [e1]; omega

/-- The first weights' window is the whole matrix at every tile. -/
theorem w1_block6 (c : Dev nD) (t : Fin cfg6.N) (k : Fin 64) (h : Fin 64) :
    (iblk6 V c 1 t : Vec Ideal S64x64 .f32) (ix2 k h) = V c main_arg19 (ix2 k h) := by
  obtain ⟨-, -, e0, e1, -⟩ := tile_index6 t
  show V c main_arg19 (((cfg6.win 1).blk t).view.emb (ix2 k h)) = V c main_arg19 (ix2 k h)
  refine congrArg (V c main_arg19) (funext fun a => Fin.ext ?_)
  match a with
  | ⟨0, _⟩ => show win6_1.index t (0 : Fin 2) * 64 + 1 * k.val = k.val; rw [e0]; omega
  | ⟨1, _⟩ => show win6_1.index t (1 : Fin 2) * 64 + 1 * h.val = h.val; rw [e1]; omega

/-- The second weights' window is the whole matrix at every tile. -/
theorem w2_block6 (c : Dev nD) (t : Fin cfg6.N) (h : Fin 64) (j : Fin 6) :
    (iblk6 V c 3 t : Vec Ideal S64x6 .f32) (ix2 h j) = V c main_arg21 (ix2 h j) := by
  obtain ⟨-, -, -, -, -, -, e0, e1, -⟩ := tile_index6 t
  show V c main_arg21 (((cfg6.win 3).blk t).view.emb (ix2 h j)) = V c main_arg21 (ix2 h j)
  refine congrArg (V c main_arg21) (funext fun a => Fin.ext ?_)
  match a with
  | ⟨0, _⟩ => show win6_3.index t (0 : Fin 2) * 64 + 1 * h.val = h.val; rw [e0]; omega
  | ⟨1, _⟩ => show win6_3.index t (1 : Fin 2) * 6 + 1 * j.val = j.val; rw [e1]; omega

/-- The first bias' window is the whole one-row matrix, which is the bias vector recast. -/
theorem b1_block6 (c : Dev nD) (b : FVec Ideal Cert.ReferenceIdeal.S64 .f32)
    (hb : V c main_v64 = shapeCast _ b shapeCasts_S64_S1x64) (t : Fin cfg6.N) (q : Fin 64) :
    (iblk6 V c 2 t : Vec Ideal S1x64 .f32) (ix2 (0 : Fin 1) q) = b (ix1 q) := by
  obtain ⟨-, -, -, -, e0, e1, -⟩ := tile_index6 t
  show V c main_v64 (((cfg6.win 2).blk t).view.emb (ix2 (0 : Fin 1) q)) = b (ix1 q)
  rw [hb]
  refine shapeCast_apply b shapeCasts_S64_S1x64 _ (ix1 q) ?_
  rw [Shape.rowMajor_val_two, Shape.rowMajor_val_one]
  show q.val = (win6_2.index t (0 : Fin 2) * 1 + 1 * 0) * 64 + (win6_2.index t (1 : Fin 2) * 64 + 1 * q.val)
  rw [e0, e1]; omega

/-- The second bias' window is the whole one-row matrix of 6 entries, which is the bias vector recast. -/
theorem b2_block6 (c : Dev nD) (b : FVec Ideal Cert.ReferenceIdeal.S6 .f32)
    (hb : V c main_v65 = shapeCast _ b shapeCasts_S6_S1x6) (t : Fin cfg6.N) (q : Fin 6) :
    (iblk6 V c 4 t : Vec Ideal S1x6 .f32) (ix2 (0 : Fin 1) q) = b (ix1 q) := by
  obtain ⟨-, -, -, -, -, -, -, -, e0, e1, -⟩ := tile_index6 t
  show V c main_v65 (((cfg6.win 4).blk t).view.emb (ix2 (0 : Fin 1) q)) = b (ix1 q)
  rw [hb]
  refine shapeCast_apply b shapeCasts_S6_S1x6 _ (ix1 q) ?_
  rw [Shape.rowMajor_val_two, Shape.rowMajor_val_one]
  show q.val = (win6_4.index t (0 : Fin 2) * 1 + 1 * 0) * 6 + (win6_4.index t (1 : Fin 2) * 6 + 1 * q.val)
  rw [e0, e1]; omega

/-- What tile t writes back is block t of the reference's decoder of the whole operands. -/
theorem tile_written6 (c : Dev nD) (b1 : FVec Ideal Cert.ReferenceIdeal.S64 .f32) (b2 : FVec Ideal Cert.ReferenceIdeal.S6 .f32)
    (h1 : V c main_v64 = shapeCast _ b1 shapeCasts_S64_S1x64) (h2 : V c main_v65 = shapeCast _ b2 shapeCasts_S6_S1x6)
    (t : Fin cfg6.N) :
    (dat6 (F := Ideal) V c).flushed 5 t
      = ((cfg6.win 5).blk t).view.read (Elt Ideal)
          (Cert.Spec.decode (V c main_v63) (V c main_arg19) b1 (V c main_arg21) b2) := by
  show (cfg6.win 5).cut (grid6.coords t) ((dat6 V c).after 5 t) = _
  rw [after6_5]
  unfold out6_5
  rw [View.canon_unit_zero zero_offsets]
  simp only [View.ld_unit_zero (S := S5000x64) zero_offsets, View.ld_unit_zero (S := S64x64) zero_offsets,
    View.ld_unit_zero (S := S1x64) zero_offsets, View.ld_unit_zero (S := S64x6) zero_offsets,
    View.ld_unit_zero (S := S1x6) zero_offsets]
  obtain ⟨-, -, -, -, -, -, -, -, -, -, e0, e1⟩ := tile_index6 t
  funext y
  obtain ⟨p, j, rfl⟩ : ∃ (p : Fin 5000) (j : Fin 6), y = ix2 p j := ⟨y 0, y 1, eq_ix2 y⟩
  have hr : t.val * 5000 + p.val < 50000 := by
    have ht : t.val < 10 := lt_of_lt_of_eq t.isLt N_6
    omega
  have hemb : ((cfg6.win 5).blk t).view.emb (ix2 p j) = ix2 (⟨t.val * 5000 + p.val, hr⟩ : Fin 50000) j := by
    funext a; apply Fin.ext
    match a with
    | ⟨0, _⟩ => show win6_5.index t (0 : Fin 2) * 5000 + 1 * p.val = t.val * 5000 + p.val; rw [e0]; omega
    | ⟨1, _⟩ => show win6_5.index t (1 : Fin 2) * 6 + 1 * j.val = j.val; rw [e1]; omega
  refine (k6_pay1_apply _ _ _ _ _ p j).trans ?_
  show _ = Cert.Spec.decode (V c main_v63) (V c main_arg19) b1 (V c main_arg21) b2
    (((cfg6.win 5).blk t).view.emb (ix2 p j))
  rw [hemb, Cert.SpecAt.decode_apply]
  have a1 : (fun k => (iblk6 V c 0 t : Vec Ideal S5000x64 .f32) (ix2 p k))
      = fun k => V c main_v63 (ix2 (⟨t.val * 5000 + p.val, hr⟩ : Fin 50000) k) :=
    funext fun k => rows_block6 V c t p k _ rfl
  have a2 : (fun k h => (iblk6 V c 1 t : Vec Ideal S64x64 .f32) (ix2 k h)) = fun k h => V c main_arg19 (ix2 k h) :=
    funext fun k => funext fun h => w1_block6 V c t k h
  have a3 : (fun h => (iblk6 V c 2 t : Vec Ideal S1x64 .f32) (ix2 (0 : Fin 1) h)) = fun h => b1 (ix1 h) :=
    funext fun h => b1_block6 V c b1 h1 t h
  have a4 : (fun h j => (iblk6 V c 3 t : Vec Ideal S64x6 .f32) (ix2 h j)) = fun h j => V c main_arg21 (ix2 h j) :=
    funext fun h => funext fun j => w2_block6 V c t h j
  have a5 : (fun j => (iblk6 V c 4 t : Vec Ideal S1x6 .f32) (ix2 (0 : Fin 1) j)) = fun j => b2 (ix1 j) :=
    funext fun j => b2_block6 V c b2 h2 t j
  exact congrFun (congr (congr (congr (congr (congrArg mlpAt a1) a2) a3) a4) a5) j

/-- An index of the array is in tile t's block iff each coordinate is in the block's range on its axis. -/
theorem mem_tile6 (t : Fin cfg6.N) (i : S50000x6.Idx) :
    i ∈ ((cfg6.win 5).blk t).view.set
      ↔ ∀ a : Fin 2, win6_5.index t a * S5000x6.size a ≤ (i a).val
          ∧ (i a).val < win6_5.index t a * S5000x6.size a + S5000x6.size a := by
  show i ∈ ((View.whole main_v66).slice (win6_5.rect t)).set ↔ _
  rw [View.set_slice_whole, Rect.mem_set_unit]
  exact Iff.rfl

/-- Every row of the array lies in a tile: row r in tile r / 5000. -/
theorem tiles_cover6 (i : S50000x6.Idx) :
    ∃ t : Fin cfg6.N, (cfg6.win 5).flush t = true ∧ i ∈ ((cfg6.win 5).blk t).view.set := by
  have hi0 : (i 0).val < 50000 := (i 0).isLt
  have hi1 : (i 1).val < 6 := (i 1).isLt
  have ht : (i 0).val / 5000 < cfg6.N := by rw [show cfg6.N = 10 from N_6]; omega
  obtain ⟨-, -, -, -, -, -, -, -, -, -, e0, e1⟩ := tile_index6 ⟨(i 0).val / 5000, ht⟩
  refine ⟨⟨(i 0).val / 5000, ht⟩, flush6_5 _, ?_⟩
  rw [mem_tile6]
  intro a
  match a with
  | ⟨0, _⟩ =>
    show win6_5.index ⟨(i 0).val / 5000, ht⟩ (0 : Fin 2) * 5000 ≤ (i 0).val
      ∧ (i 0).val < win6_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_5.index ⟨(i 0).val / 5000, ht⟩ (1 : Fin 2) * 6 ≤ (i 1).val
      ∧ (i 1).val < win6_5.index ⟨(i 0).val / 5000, ht⟩ (1 : Fin 2) * 6 + 6
    rw [e1]; omega

/-- After region 6 the result array is the reference's decoder of the region's operands. -/
theorem nodes_decoded (c : Dev nD) (b1 : FVec Ideal Cert.ReferenceIdeal.S64 .f32) (b2 : FVec Ideal Cert.ReferenceIdeal.S6 .f32)
    (h1 : V c main_v64 = shapeCast _ b1 shapeCasts_S64_S1x64) (h2 : V c main_v65 = shapeCast _ b2 shapeCasts_S6_S1x6) :
    (dat6 (F := Ideal) V c).arrAt 5 cfg6.N
      = Cert.Spec.decode (V c main_v63) (V c main_arg19) b1 (V c main_arg21) b2 := by
  exact (dat6 (F := Ideal) V c).arrAt_eq_of_cover 5 _ (fun t _ => tile_written6 V c b1 b2 h1 h2 t) tiles_cover6

end Cert.KernelValue

end
-- ==== Proof.KernelChain.lean ====
/- The kernel program's buffers, boundary by boundary, as stages of the network. The host stretches slice the
   stacked weights into layers, recast each bias as a one-row matrix, gather node rows along the edges and sum edge
   rows into nodes; each kernel region leaves the reference's step of its operands (the region modules); a buffer
   used later than it was written is read back through the segments that do not write it (FoldKeeps). Chained, the
   result buffer at the last boundary holds the network of the launch contents of the 23 arguments. The gathers are
   the reference's only when every edge index lies in [-50000, 50000): the one place the precondition is used. -/
import proofs.«417864_j35218731827626_1_alg».proof.Proof.Gen.KernelIdeal.Frame
import proofs.«417864_j35218731827626_1_alg».proof.Proof.FoldKeeps
import proofs.«417864_j35218731827626_1_alg».proof.Proof.Spec
import proofs.«417864_j35218731827626_1_alg».proof.Proof.Network
import proofs.«417864_j35218731827626_1_alg».proof.Proof.TakeRows
import proofs.«417864_j35218731827626_1_alg».proof.Proof.TakeStretches
import proofs.«417864_j35218731827626_1_alg».proof.Proof.NodeEncoder
import proofs.«417864_j35218731827626_1_alg».proof.Proof.EdgeEncoder
import proofs.«417864_j35218731827626_1_alg».proof.Proof.EdgeUpdate0
import proofs.«417864_j35218731827626_1_alg».proof.Proof.NodeUpdate0
import proofs.«417864_j35218731827626_1_alg».proof.Proof.EdgeUpdate1
import proofs.«417864_j35218731827626_1_alg».proof.Proof.NodeUpdate1
import proofs.«417864_j35218731827626_1_alg».proof.Proof.Decoder
import Idealize.ShloMosaic.Lib.StableHlo.Run

set_option maxRecDepth 16384

noncomputable section

namespace Cert.KernelValue

open Cert.KernelIdeal Cert.KernelIdeal.Gen Cert.KernelFold Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The network's inputs as core `c` holds them at launch. -/
def inputs (c : Dev nD) : Cert.Spec.Inputs Ideal where
  x := m ((c : Thread nD τ).loc main_arg0)
  ea := m ((c : Thread nD τ).loc main_arg1)
  ei := m ((c : Thread nD τ).loc main_arg2)
  nw1 := m ((c : Thread nD τ).loc main_arg3)
  nb1 := m ((c : Thread nD τ).loc main_arg4)
  nw2 := m ((c : Thread nD τ).loc main_arg5)
  nb2 := m ((c : Thread nD τ).loc main_arg6)
  ew1 := m ((c : Thread nD τ).loc main_arg7)
  eb1 := m ((c : Thread nD τ).loc main_arg8)
  ew2 := m ((c : Thread nD τ).loc main_arg9)
  eb2 := m ((c : Thread nD τ).loc main_arg10)
  pew1 := m ((c : Thread nD τ).loc main_arg11)
  peb1 := m ((c : Thread nD τ).loc main_arg12)
  pew2 := m ((c : Thread nD τ).loc main_arg13)
  peb2 := m ((c : Thread nD τ).loc main_arg14)
  pnw1 := m ((c : Thread nD τ).loc main_arg15)
  pnb1 := m ((c : Thread nD τ).loc main_arg16)
  pnw2 := m ((c : Thread nD τ).loc main_arg17)
  pnb2 := m ((c : Thread nD τ).loc main_arg18)
  dw1 := m ((c : Thread nD τ).loc main_arg19)
  db1 := m ((c : Thread nD τ).loc main_arg20)
  dw2 := m ((c : Thread nD τ).loc main_arg21)
  db2 := m ((c : Thread nD τ).loc main_arg22)

/-! ## What the host stretches leave: the weights' layers, the biases recast as one-row matrices, the edge list's rows -/

set_option maxHeartbeats 2000000 in
/-- The node encoder's first bias, recast as one row. -/
theorem v4_at (c : Dev nD) : W1 m ρ c (Proc.devRef .tc main_v4) = shapeCast S1x64 (m ((c : Thread nD τ).loc main_arg4)) shapeCasts_S64_S1x64 := by
  show StableHlo.after hostOps0 (W0 m ρ c) (Proc.devRef .tc main_v4) = _
  after_results
  rfl
set_option maxHeartbeats 2000000 in
/-- The node encoder's second bias, recast as one row. -/
theorem v5_at (c : Dev nD) : W1 m ρ c (Proc.devRef .tc main_v5) = shapeCast S1x64 (m ((c : Thread nD τ).loc main_arg6)) shapeCasts_S64_S1x64 := by
  show StableHlo.after hostOps0 (W0 m ρ c) (Proc.devRef .tc main_v5) = _
  after_results
  rfl
set_option maxHeartbeats 2000000 in
/-- Row 0 of the edge list: the sources. -/
theorem sources_at (c : Dev nD) : W1 m ρ c (Proc.devRef .tc main_v1) = Cert.Spec.sources (inputs m c).ei := by
  show StableHlo.after hostOps0 (W0 m ρ c) (Proc.devRef .tc main_v1) = _
  after_results
  rfl
set_option maxHeartbeats 2000000 in
/-- Row 1 of the edge list: the targets. -/
theorem targets_at (c : Dev nD) : W1 m ρ c (Proc.devRef .tc main_v3) = Cert.Spec.targets (inputs m c).ei := by
  show StableHlo.after hostOps0 (W0 m ρ c) (Proc.devRef .tc main_v3) = _
  after_results
  rfl

set_option maxHeartbeats 2000000 in
/-- The edge encoder's first bias, recast as one row. -/
theorem v7_at (c : Dev nD) : W3 m ρ c (Proc.devRef .tc main_v7) = shapeCast S1x64 (m ((c : Thread nD τ).loc main_arg8)) shapeCasts_S64_S1x64 := by
  have e : W2 m ρ c (Proc.devRef .tc main_arg8) = m ((c : Thread nD τ).loc main_arg8) := by walk_back
  rw [← e]
  show StableHlo.after hostOps1 (W2 m ρ c) (Proc.devRef .tc main_v7) = _
  after_results
  rfl

set_option maxHeartbeats 2000000 in
/-- The edge encoder's second bias, recast as one row. -/
theorem v8_at (c : Dev nD) : W3 m ρ c (Proc.devRef .tc main_v8) = shapeCast S1x64 (m ((c : Thread nD τ).loc main_arg10)) shapeCasts_S64_S1x64 := by
  have e : W2 m ρ c (Proc.devRef .tc main_arg10) = m ((c : Thread nD τ).loc main_arg10) := by walk_back
  rw [← e]
  show StableHlo.after hostOps1 (W2 m ρ c) (Proc.devRef .tc main_v8) = _
  after_results
  rfl

set_option maxHeartbeats 2000000 in
/-- The first round's edge weights, first layer. -/
theorem v13_at (c : Dev nD) : W7 m ρ c (Proc.devRef .tc main_v13) = Cert.Spec.layer0_192 (F := Ideal) (m ((c : Thread nD τ).loc main_arg11)) := by
  have e : W6 m ρ c (Proc.devRef .tc main_arg11) = m ((c : Thread nD τ).loc main_arg11) := by walk_back
  rw [← e]
  show StableHlo.after hostOps2_2 (W6 m ρ c) (Proc.devRef .tc main_v13) = _
  after_results
  rfl

set_option maxHeartbeats 2000000 in
/-- The first round's edge weights, second layer. -/
theorem v17_at (c : Dev nD) : W7 m ρ c (Proc.devRef .tc main_v17) = Cert.Spec.layer0_64 (F := Ideal) (m ((c : Thread nD τ).loc main_arg13)) := by
  have e : W6 m ρ c (Proc.devRef .tc main_arg13) = m ((c : Thread nD τ).loc main_arg13) := by walk_back
  rw [← e]
  show StableHlo.after hostOps2_2 (W6 m ρ c) (Proc.devRef .tc main_v17) = _
  after_results
  rfl

set_option maxHeartbeats 2000000 in
/-- The first round's first edge bias, recast as one row. -/
theorem v20_at (c : Dev nD) : W7 m ρ c (Proc.devRef .tc main_v20) = shapeCast S1x64 (Cert.Spec.layer0_b (F := Ideal) (m ((c : Thread nD τ).loc main_arg12))) shapeCasts_S64_S1x64 := by
  have e : W6 m ρ c (Proc.devRef .tc main_arg12) = m ((c : Thread nD τ).loc main_arg12) := by walk_back
  rw [← e]
  show StableHlo.after hostOps2_2 (W6 m ρ c) (Proc.devRef .tc main_v20) = _
  after_results
  rfl

set_option maxHeartbeats 2000000 in
/-- The first round's second edge bias, recast as one row. -/
theorem v21_at (c : Dev nD) : W7 m ρ c (Proc.devRef .tc main_v21) = shapeCast S1x64 (Cert.Spec.layer0_b (F := Ideal) (m ((c : Thread nD τ).loc main_arg14))) shapeCasts_S64_S1x64 := by
  have e : W6 m ρ c (Proc.devRef .tc main_arg14) = m ((c : Thread nD τ).loc main_arg14) := by walk_back
  rw [← e]
  show StableHlo.after hostOps2_2 (W6 m ρ c) (Proc.devRef .tc main_v21) = _
  after_results
  rfl

set_option maxHeartbeats 2000000 in
/-- The first round's node weights, first layer. -/
theorem v27_at (c : Dev nD) : W9 m ρ c (Proc.devRef .tc main_v27) = Cert.Spec.layer0_128 (F := Ideal) (m ((c : Thread nD τ).loc main_arg15)) := by
  have e : W8 m ρ c (Proc.devRef .tc main_arg15) = m ((c : Thread nD τ).loc main_arg15) := by walk_back
  rw [← e]
  show StableHlo.after hostOps3 (W8 m ρ c) (Proc.devRef .tc main_v27) = _
  after_results
  rfl

set_option maxHeartbeats 2000000 in
/-- The first round's node weights, second layer. -/
theorem v31_at (c : Dev nD) : W9 m ρ c (Proc.devRef .tc main_v31) = Cert.Spec.layer0_64 (F := Ideal) (m ((c : Thread nD τ).loc main_arg17)) := by
  have e : W8 m ρ c (Proc.devRef .tc main_arg17) = m ((c : Thread nD τ).loc main_arg17) := by walk_back
  rw [← e]
  show StableHlo.after hostOps3 (W8 m ρ c) (Proc.devRef .tc main_v31) = _
  after_results
  rfl

set_option maxHeartbeats 2000000 in
/-- The first round's first node bias, recast as one row. -/
theorem v34_at (c : Dev nD) : W9 m ρ c (Proc.devRef .tc main_v34) = shapeCast S1x64 (Cert.Spec.layer0_b (F := Ideal) (m ((c : Thread nD τ).loc main_arg16))) shapeCasts_S64_S1x64 := by
  have e : W8 m ρ c (Proc.devRef .tc main_arg16) = m ((c : Thread nD τ).loc main_arg16) := by walk_back
  rw [← e]
  show StableHlo.after hostOps3 (W8 m ρ c) (Proc.devRef .tc main_v34) = _
  after_results
  rfl

set_option maxHeartbeats 2000000 in
/-- The first round's second node bias, recast as one row. -/
theorem v35_at (c : Dev nD) : W9 m ρ c (Proc.devRef .tc main_v35) = shapeCast S1x64 (Cert.Spec.layer0_b (F := Ideal) (m ((c : Thread nD τ).loc main_arg18))) shapeCasts_S64_S1x64 := by
  have e : W8 m ρ c (Proc.devRef .tc main_arg18) = m ((c : Thread nD τ).loc main_arg18) := by walk_back
  rw [← e]
  show StableHlo.after hostOps3 (W8 m ρ c) (Proc.devRef .tc main_v35) = _
  after_results
  rfl

set_option maxHeartbeats 2000000 in
/-- The second round's edge weights, first layer. -/
theorem v40_at (c : Dev nD) : W13 m ρ c (Proc.devRef .tc main_v40) = Cert.Spec.layer1_192 (F := Ideal) (m ((c : Thread nD τ).loc main_arg11)) := by
  have e : W12 m ρ c (Proc.devRef .tc main_arg11) = m ((c : Thread nD τ).loc main_arg11) := by walk_back
  rw [← e]
  show StableHlo.after hostOps4_2 (W12 m ρ c) (Proc.devRef .tc main_v40) = _
  after_results
  rfl

set_option maxHeartbeats 2000000 in
/-- The second round's edge weights, second layer. -/
theorem v44_at (c : Dev nD) : W13 m ρ c (Proc.devRef .tc main_v44) = Cert.Spec.layer1_64 (F := Ideal) (m ((c : Thread nD τ).loc main_arg13)) := by
  have e : W12 m ρ c (Proc.devRef .tc main_arg13) = m ((c : Thread nD τ).loc main_arg13) := by walk_back
  rw [← e]
  show StableHlo.after hostOps4_2 (W12 m ρ c) (Proc.devRef .tc main_v44) = _
  after_results
  rfl

set_option maxHeartbeats 2000000 in
/-- The second round's first edge bias, recast as one row. -/
theorem v47_at (c : Dev nD) : W13 m ρ c (Proc.devRef .tc main_v47) = shapeCast S1x64 (Cert.Spec.layer1_b (F := Ideal) (m ((c : Thread nD τ).loc main_arg12))) shapeCasts_S64_S1x64 := by
  have e : W12 m ρ c (Proc.devRef .tc main_arg12) = m ((c : Thread nD τ).loc main_arg12) := by walk_back
  rw [← e]
  show StableHlo.after hostOps4_2 (W12 m ρ c) (Proc.devRef .tc main_v47) = _
  after_results
  rfl

set_option maxHeartbeats 2000000 in
/-- The second round's second edge bias, recast as one row. -/
theorem v48_at (c : Dev nD) : W13 m ρ c (Proc.devRef .tc main_v48) = shapeCast S1x64 (Cert.Spec.layer1_b (F := Ideal) (m ((c : Thread nD τ).loc main_arg14))) shapeCasts_S64_S1x64 := by
  have e : W12 m ρ c (Proc.devRef .tc main_arg14) = m ((c : Thread nD τ).loc main_arg14) := by walk_back
  rw [← e]
  show StableHlo.after hostOps4_2 (W12 m ρ c) (Proc.devRef .tc main_v48) = _
  after_results
  rfl

set_option maxHeartbeats 2000000 in
/-- The second round's node weights, first layer. -/
theorem v54_at (c : Dev nD) : W15 m ρ c (Proc.devRef .tc main_v54) = Cert.Spec.layer1_128 (F := Ideal) (m ((c : Thread nD τ).loc main_arg15)) := by
  have e : W14 m ρ c (Proc.devRef .tc main_arg15) = m ((c : Thread nD τ).loc main_arg15) := by walk_back
  rw [← e]
  show StableHlo.after hostOps5 (W14 m ρ c) (Proc.devRef .tc main_v54) = _
  after_results
  rfl

set_option maxHeartbeats 2000000 in
/-- The second round's node weights, second layer. -/
theorem v58_at (c : Dev nD) : W15 m ρ c (Proc.devRef .tc main_v58) = Cert.Spec.layer1_64 (F := Ideal) (m ((c : Thread nD τ).loc main_arg17)) := by
  have e : W14 m ρ c (Proc.devRef .tc main_arg17) = m ((c : Thread nD τ).loc main_arg17) := by walk_back
  rw [← e]
  show StableHlo.after hostOps5 (W14 m ρ c) (Proc.devRef .tc main_v58) = _
  after_results
  rfl

set_option maxHeartbeats 2000000 in
/-- The second round's first node bias, recast as one row. -/
theorem v61_at (c : Dev nD) : W15 m ρ c (Proc.devRef .tc main_v61) = shapeCast S1x64 (Cert.Spec.layer1_b (F := Ideal) (m ((c : Thread nD τ).loc main_arg16))) shapeCasts_S64_S1x64 := by
  have e : W14 m ρ c (Proc.devRef .tc main_arg16) = m ((c : Thread nD τ).loc main_arg16) := by walk_back
  rw [← e]
  show StableHlo.after hostOps5 (W14 m ρ c) (Proc.devRef .tc main_v61) = _
  after_results
  rfl

set_option maxHeartbeats 2000000 in
/-- The second round's second node bias, recast as one row. -/
theorem v62_at (c : Dev nD) : W15 m ρ c (Proc.devRef .tc main_v62) = shapeCast S1x64 (Cert.Spec.layer1_b (F := Ideal) (m ((c : Thread nD τ).loc main_arg18))) shapeCasts_S64_S1x64 := by
  have e : W14 m ρ c (Proc.devRef .tc main_arg18) = m ((c : Thread nD τ).loc main_arg18) := by walk_back
  rw [← e]
  show StableHlo.after hostOps5 (W14 m ρ c) (Proc.devRef .tc main_v62) = _
  after_results
  rfl

set_option maxHeartbeats 2000000 in
/-- The decoder's first bias, recast as one row. -/
theorem v64_at (c : Dev nD) : W17 m ρ c (Proc.devRef .tc main_v64) = shapeCast S1x64 (m ((c : Thread nD τ).loc main_arg20)) shapeCasts_S64_S1x64 := by
  have e : W16 m ρ c (Proc.devRef .tc main_arg20) = m ((c : Thread nD τ).loc main_arg20) := by walk_back
  rw [← e]
  show StableHlo.after hostOps6 (W16 m ρ c) (Proc.devRef .tc main_v64) = _
  after_results
  rfl

set_option maxHeartbeats 2000000 in
/-- The decoder's second bias (6 entries), recast as one row. -/
theorem v65_at (c : Dev nD) : W17 m ρ c (Proc.devRef .tc main_v65) = shapeCast S1x6 (m ((c : Thread nD τ).loc main_arg22)) shapeCasts_S6_S1x6 := by
  have e : W16 m ρ c (Proc.devRef .tc main_arg22) = m ((c : Thread nD τ).loc main_arg22) := by walk_back
  rw [← e]
  show StableHlo.after hostOps6 (W16 m ρ c) (Proc.devRef .tc main_v65) = _
  after_results
  rfl

/-- The index-range hypothesis on the edge list. -/
abbrev InRange (c : Dev nD) : Prop :=
  ∀ i, (-50000 : Int) ≤ ((inputs m c).ei i).toInt ∧ ((inputs m c).ei i).toInt < 50000

/-! ## The arrays at the boundaries, one kernel region or gather at a time -/

set_option maxHeartbeats 2000000 in
/-- At region 0's exit the node array holds the encoded nodes. -/
theorem nodes0_at (c : Dev nD) : W2 m ρ c (Proc.devRef .tc main_v6) = Cert.Spec.nodes0 (inputs m c) := by
  refine (W2_arr m ρ c 5).trans ?_
  refine (nodes_encoded (V1 m ρ) c (m ((c : Thread nD τ).loc main_arg4)) (m ((c : Thread nD τ).loc main_arg6)) (v4_at m ρ c) (v5_at m ρ c)).trans ?_
  have e0 : V1 m ρ c main_arg0 = m ((c : Thread nD τ).loc main_arg0) := by
    show W1 m ρ c (Proc.devRef .tc main_arg0) = _
    walk_back
  have e3 : V1 m ρ c main_arg3 = m ((c : Thread nD τ).loc main_arg3) := by
    show W1 m ρ c (Proc.devRef .tc main_arg3) = _
    walk_back
  have e5 : V1 m ρ c main_arg5 = m ((c : Thread nD τ).loc main_arg5) := by
    show W1 m ρ c (Proc.devRef .tc main_arg5) = _
    walk_back
  rw [e0, e3, e5]
  rfl

set_option maxHeartbeats 2000000 in
/-- At region 1's exit the edge array holds the encoded edges. -/
theorem edges0_at (c : Dev nD) : W4 m ρ c (Proc.devRef .tc main_v9) = Cert.Spec.edges0 (inputs m c) := by
  refine (W4_arr m ρ c 5).trans ?_
  refine (edges_encoded (V3 m ρ) c (m ((c : Thread nD τ).loc main_arg8)) (m ((c : Thread nD τ).loc main_arg10)) (v7_at m ρ c) (v8_at m ρ c)).trans ?_
  have e1 : V3 m ρ c main_arg1 = m ((c : Thread nD τ).loc main_arg1) := by
    show W3 m ρ c (Proc.devRef .tc main_arg1) = _
    walk_back
  have e7 : V3 m ρ c main_arg7 = m ((c : Thread nD τ).loc main_arg7) := by
    show W3 m ρ c (Proc.devRef .tc main_arg7) = _
    walk_back
  have e9 : V3 m ρ c main_arg9 = m ((c : Thread nD τ).loc main_arg9) := by
    show W3 m ρ c (Proc.devRef .tc main_arg9) = _
    walk_back
  rw [e1, e7, e9]
  rfl

/-- The first round's gathered source rows. -/
theorem srcRows0_at (c : Dev nD) (hr : InRange m c) :
    W5 m ρ c (Proc.devRef .tc main_v10) = Cert.Spec.gatherRows (Cert.Spec.nodes0 (inputs m c)) (Cert.Spec.sources (inputs m c).ei) := by
  have ex : W4 m ρ c (Proc.devRef .tc main_v6) = Cert.Spec.nodes0 (inputs m c) := by
    walk_back
    exact nodes0_at m ρ c
  have ei : W4 m ρ c (Proc.devRef .tc main_v1) = Cert.Spec.sources (inputs m c).ei := by
    walk_back
    exact sources_at m ρ c
  rw [← Cert.TakeRows.takeRows_eq_gatherRows _ _ (Cert.TakeRows.sources_in_range _ hr), ← ex, ← ei]
  exact take0_after (W4 m ρ c)

/-- The first round's gathered target rows. -/
theorem dstRows0_at (c : Dev nD) (hr : InRange m c) :
    W6 m ρ c (Proc.devRef .tc main_v11) = Cert.Spec.gatherRows (Cert.Spec.nodes0 (inputs m c)) (Cert.Spec.targets (inputs m c).ei) := by
  have ex : W5 m ρ c (Proc.devRef .tc main_v6) = Cert.Spec.nodes0 (inputs m c) := by
    walk_back
    exact nodes0_at m ρ c
  have ei : W5 m ρ c (Proc.devRef .tc main_v3) = Cert.Spec.targets (inputs m c).ei := by
    walk_back
    exact targets_at m ρ c
  rw [← Cert.TakeRows.takeRows_eq_gatherRows _ _ (Cert.TakeRows.targets_in_range _ hr), ← ex, ← ei]
  exact take1_after (W5 m ρ c)

set_option maxHeartbeats 2000000 in
/-- At region 2's exit the edge array holds the edges after the first round. -/
theorem edges1_at (c : Dev nD) (hr : InRange m c) : W8 m ρ c (Proc.devRef .tc main_v22) = Cert.Spec.edges1 (inputs m c) := by
  refine (W8_arr m ρ c 7).trans ?_
  refine (edges_updated0 (V7 m ρ) c (Cert.Spec.layer0_b (F := Ideal) (m ((c : Thread nD τ).loc main_arg12))) (Cert.Spec.layer0_b (F := Ideal) (m ((c : Thread nD τ).loc main_arg14))) (v20_at m ρ c) (v21_at m ρ c)).trans ?_
  have e9 : V7 m ρ c main_v9 = Cert.Spec.edges0 (inputs m c) := by
    show W7 m ρ c (Proc.devRef .tc main_v9) = _
    walk_back
    exact edges0_at m ρ c
  have e10 : V7 m ρ c main_v10 = Cert.Spec.gatherRows (Cert.Spec.nodes0 (inputs m c)) (Cert.Spec.sources (inputs m c).ei) := by
    show W7 m ρ c (Proc.devRef .tc main_v10) = _
    walk_back
    exact srcRows0_at m ρ c hr
  have e11 : V7 m ρ c main_v11 = Cert.Spec.gatherRows (Cert.Spec.nodes0 (inputs m c)) (Cert.Spec.targets (inputs m c).ei) := by
    show W7 m ρ c (Proc.devRef .tc main_v11) = _
    walk_back
    exact dstRows0_at m ρ c hr
  have e13 : V7 m ρ c main_v13 = Cert.Spec.layer0_192 (F := Ideal) (m ((c : Thread nD τ).loc main_arg11)) := v13_at m ρ c
  have e17 : V7 m ρ c main_v17 = Cert.Spec.layer0_64 (F := Ideal) (m ((c : Thread nD τ).loc main_arg13)) := v17_at m ρ c
  rw [e9, e10, e11, e13, e17]
  rfl

set_option maxHeartbeats 2000000 in
/-- Behind region 2, the summed incoming edge rows of the first round. -/
theorem agg0_at (c : Dev nD) (hr : InRange m c) :
    W9 m ρ c (Proc.devRef .tc main_v25) = Cert.Spec.segmentSum (Cert.Spec.edges1 (inputs m c)) (Cert.Spec.targets (inputs m c).ei) := by
  have ee : W8 m ρ c (Proc.devRef .tc main_v22) = Cert.Spec.edges1 (inputs m c) := edges1_at m ρ c hr
  have ei : W8 m ρ c (Proc.devRef .tc main_v3) = Cert.Spec.targets (inputs m c).ei := by
    walk_back
    exact targets_at m ρ c
  rw [← ee, ← ei]
  show StableHlo.after hostOps3 (W8 m ρ c) (Proc.devRef .tc main_v25) = _
  after_results
  rfl

set_option maxHeartbeats 2000000 in
/-- At region 3's exit the node array holds the nodes after the first round. -/
theorem nodes1_at (c : Dev nD) (hr : InRange m c) : W10 m ρ c (Proc.devRef .tc main_v36) = Cert.Spec.nodes1 (inputs m c) := by
  refine (W10_arr m ρ c 6).trans ?_
  refine (nodes_updated0 (V9 m ρ) c (Cert.Spec.layer0_b (F := Ideal) (m ((c : Thread nD τ).loc main_arg16))) (Cert.Spec.layer0_b (F := Ideal) (m ((c : Thread nD τ).loc main_arg18))) (v34_at m ρ c) (v35_at m ρ c)).trans ?_
  have e6 : V9 m ρ c main_v6 = Cert.Spec.nodes0 (inputs m c) := by
    show W9 m ρ c (Proc.devRef .tc main_v6) = _
    walk_back
    exact nodes0_at m ρ c
  have e25 : V9 m ρ c main_v25 = Cert.Spec.segmentSum (Cert.Spec.edges1 (inputs m c)) (Cert.Spec.targets (inputs m c).ei) := agg0_at m ρ c hr
  have e27 : V9 m ρ c main_v27 = Cert.Spec.layer0_128 (F := Ideal) (m ((c : Thread nD τ).loc main_arg15)) := v27_at m ρ c
  have e31 : V9 m ρ c main_v31 = Cert.Spec.layer0_64 (F := Ideal) (m ((c : Thread nD τ).loc main_arg17)) := v31_at m ρ c
  rw [e6, e25, e27, e31]
  rfl

/-- The second round's gathered source rows. -/
theorem srcRows1_at (c : Dev nD) (hr : InRange m c) :
    W11 m ρ c (Proc.devRef .tc main_v37) = Cert.Spec.gatherRows (Cert.Spec.nodes1 (inputs m c)) (Cert.Spec.sources (inputs m c).ei) := by
  have ex : W10 m ρ c (Proc.devRef .tc main_v36) = Cert.Spec.nodes1 (inputs m c) := nodes1_at m ρ c hr
  have ei : W10 m ρ c (Proc.devRef .tc main_v1) = Cert.Spec.sources (inputs m c).ei := by
    walk_back
    exact sources_at m ρ c
  rw [← Cert.TakeRows.takeRows_eq_gatherRows _ _ (Cert.TakeRows.sources_in_range _ hr), ← ex, ← ei]
  exact take2_after (W10 m ρ c)

/-- The second round's gathered target rows. -/
theorem dstRows1_at (c : Dev nD) (hr : InRange m c) :
    W12 m ρ c (Proc.devRef .tc main_v38) = Cert.Spec.gatherRows (Cert.Spec.nodes1 (inputs m c)) (Cert.Spec.targets (inputs m c).ei) := by
  have ex : W11 m ρ c (Proc.devRef .tc main_v36) = Cert.Spec.nodes1 (inputs m c) := by
    walk_back
    exact nodes1_at m ρ c hr
  have ei : W11 m ρ c (Proc.devRef .tc main_v3) = Cert.Spec.targets (inputs m c).ei := by
    walk_back
    exact targets_at m ρ c
  rw [← Cert.TakeRows.takeRows_eq_gatherRows _ _ (Cert.TakeRows.targets_in_range _ hr), ← ex, ← ei]
  exact take3_after (W11 m ρ c)

set_option maxHeartbeats 2000000 in
/-- At region 4's exit the edge array holds the edges after the second round. -/
theorem edges2_at (c : Dev nD) (hr : InRange m c) : W14 m ρ c (Proc.devRef .tc main_v49) = Cert.Spec.edges2 (inputs m c) := by
  refine (W14_arr m ρ c 7).trans ?_
  refine (edges_updated1 (V13 m ρ) c (Cert.Spec.layer1_b (F := Ideal) (m ((c : Thread nD τ).loc main_arg12))) (Cert.Spec.layer1_b (F := Ideal) (m ((c : Thread nD τ).loc main_arg14))) (v47_at m ρ c) (v48_at m ρ c)).trans ?_
  have e22 : V13 m ρ c main_v22 = Cert.Spec.edges1 (inputs m c) := by
    show W13 m ρ c (Proc.devRef .tc main_v22) = _
    walk_back
    exact edges1_at m ρ c hr
  have e37 : V13 m ρ c main_v37 = Cert.Spec.gatherRows (Cert.Spec.nodes1 (inputs m c)) (Cert.Spec.sources (inputs m c).ei) := by
    show W13 m ρ c (Proc.devRef .tc main_v37) = _
    walk_back
    exact srcRows1_at m ρ c hr
  have e38 : V13 m ρ c main_v38 = Cert.Spec.gatherRows (Cert.Spec.nodes1 (inputs m c)) (Cert.Spec.targets (inputs m c).ei) := by
    show W13 m ρ c (Proc.devRef .tc main_v38) = _
    walk_back
    exact dstRows1_at m ρ c hr
  have e40 : V13 m ρ c main_v40 = Cert.Spec.layer1_192 (F := Ideal) (m ((c : Thread nD τ).loc main_arg11)) := v40_at m ρ c
  have e44 : V13 m ρ c main_v44 = Cert.Spec.layer1_64 (F := Ideal) (m ((c : Thread nD τ).loc main_arg13)) := v44_at m ρ c
  rw [e22, e37, e38, e40, e44]
  rfl

set_option maxHeartbeats 2000000 in
/-- Behind region 4, the summed incoming edge rows of the second round. -/
theorem agg1_at (c : Dev nD) (hr : InRange m c) :
    W15 m ρ c (Proc.devRef .tc main_v52) = Cert.Spec.segmentSum (Cert.Spec.edges2 (inputs m c)) (Cert.Spec.targets (inputs m c).ei) := by
  have ee : W14 m ρ c (Proc.devRef .tc main_v49) = Cert.Spec.edges2 (inputs m c) := edges2_at m ρ c hr
  have ei : W14 m ρ c (Proc.devRef .tc main_v3) = Cert.Spec.targets (inputs m c).ei := by
    walk_back
    exact targets_at m ρ c
  rw [← ee, ← ei]
  show StableHlo.after hostOps5 (W14 m ρ c) (Proc.devRef .tc main_v52) = _
  after_results
  rfl

set_option maxHeartbeats 2000000 in
/-- At region 5's exit the node array holds the nodes after the second round. -/
theorem nodes2_at (c : Dev nD) (hr : InRange m c) : W16 m ρ c (Proc.devRef .tc main_v63) = Cert.Spec.nodes2 (inputs m c) := by
  refine (W16_arr m ρ c 6).trans ?_
  refine (nodes_updated1 (V15 m ρ) c (Cert.Spec.layer1_b (F := Ideal) (m ((c : Thread nD τ).loc main_arg16))) (Cert.Spec.layer1_b (F := Ideal) (m ((c : Thread nD τ).loc main_arg18))) (v61_at m ρ c) (v62_at m ρ c)).trans ?_
  have e36 : V15 m ρ c main_v36 = Cert.Spec.nodes1 (inputs m c) := by
    show W15 m ρ c (Proc.devRef .tc main_v36) = _
    walk_back
    exact nodes1_at m ρ c hr
  have e52 : V15 m ρ c main_v52 = Cert.Spec.segmentSum (Cert.Spec.edges2 (inputs m c)) (Cert.Spec.targets (inputs m c).ei) := agg1_at m ρ c hr
  have e54 : V15 m ρ c main_v54 = Cert.Spec.layer1_128 (F := Ideal) (m ((c : Thread nD τ).loc main_arg15)) := v54_at m ρ c
  have e58 : V15 m ρ c main_v58 = Cert.Spec.layer1_64 (F := Ideal) (m ((c : Thread nD τ).loc main_arg17)) := v58_at m ρ c
  rw [e36, e52, e54, e58]
  rfl

set_option maxHeartbeats 2000000 in
/-- At the last boundary the result buffer holds the network's result. -/
theorem result_at (c : Dev nD) (hr : InRange m c) : W18 m ρ c (Proc.devRef .tc main_v66) = Cert.Spec.network (inputs m c) := by
  refine (W18_arr m ρ c 5).trans ?_
  refine (nodes_decoded (V17 m ρ) c (m ((c : Thread nD τ).loc main_arg20)) (m ((c : Thread nD τ).loc main_arg22)) (v64_at m ρ c) (v65_at m ρ c)).trans ?_
  have e63 : V17 m ρ c main_v63 = Cert.Spec.nodes2 (inputs m c) := by
    show W17 m ρ c (Proc.devRef .tc main_v63) = _
    walk_back
    exact nodes2_at m ρ c hr
  have e19 : V17 m ρ c main_arg19 = m ((c : Thread nD τ).loc main_arg19) := by
    show W17 m ρ c (Proc.devRef .tc main_arg19) = _
    walk_back
  have e21 : V17 m ρ c main_arg21 = m ((c : Thread nD τ).loc main_arg21) := by
    show W17 m ρ c (Proc.devRef .tc main_arg21) = _
    walk_back
  rw [e63, e19, e21]
  rfl

end Cert.KernelValue

end
-- ==== Proof.RefRunByStages.lean ====
/-
  The reference program's run, read back stage by stage.

  The reference is a straight line of 165 array operations, written in three parts. Its contents after the line are
  the fold of the operations' results over the launch contents. The line is cut into ten stretches, with a cut
  before every concatenation and at the end of each part. Of each stretch we say which buffers it writes (every
  other buffer keeps its contents through it) and what the buffers a later stretch reads hold after it, as the
  steps of Spec.lean applied to the contents before it. Chaining the stretches, the live buffers after each of the
  network's eight stages are the stages of Network.lean of the 23 argument arrays, the last of them the network's
  result; no operation writes an argument.
-/
import proofs.«417864_j35218731827626_1_alg».proof.Proof.Gen.ReferenceIdeal
import proofs.«417864_j35218731827626_1_alg».proof.Proof.Spec
import proofs.«417864_j35218731827626_1_alg».proof.Proof.Network
import Idealize.ShloMosaic.Lib.StableHlo.Run
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, cut into ten stretches -/

/-- The reference's operations 1 to 26 of 165. -/
abbrev ops1 : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x8_S8x64_S50000x64_1_0_0_1_n_n none l r) : (⟨S50000x8, .f32⟩ : BufTy).Contents (Elt F) → (⟨S8x64, .f32⟩ : BufTy).Contents (Elt F) → (⟨S50000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    nullary main_cst (constant S_ .f32 0x00000000#32),
    unary main_cst main_v8 (broadcastInDim S50000x64 ![] bcast_S_S50000x64 : (⟨S_, .f32⟩ : BufTy).Contents (Elt F) → (⟨S50000x64, .f32⟩ : BufTy).Contents (Elt F)),
    binary main_v7 main_v8 main_v9 (maximumf : (⟨S50000x64, .f32⟩ : BufTy).Contents (Elt F) → (⟨S50000x64, .f32⟩ : BufTy).Contents (Elt F) → (⟨S50000x64, .f32⟩ : BufTy).Contents (Elt F)),
    binary main_v9 main_arg5 main_v10 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v11 (broadcastInDim S1x64 ![1] bcast_S64_S1x64_1 : (⟨S64, .f32⟩ : BufTy).Contents (Elt F) → (⟨S1x64, .f32⟩ : BufTy).Contents (Elt F)),
    unary main_v11 main_v12 (broadcastInDim S50000x64 ![0, 1] bcast_S1x64_S50000x64_0_1 : (⟨S1x64, .f32⟩ : BufTy).Contents (Elt F) → (⟨S50000x64, .f32⟩ : BufTy).Contents (Elt F)),
    binary main_v10 main_v12 main_v13 (addf : (⟨S50000x64, .f32⟩ : BufTy).Contents (Elt F) → (⟨S50000x64, .f32⟩ : BufTy).Contents (Elt F) → (⟨S50000x64, .f32⟩ : BufTy).Contents (Elt F)),
    binary main_arg1 main_arg7 main_v14 ((fun l r => Host.dotGeneral dot_S800000x4_S4x64_S800000x64_1_0_0_1_n_n none l r) : (⟨S800000x4, .f32⟩ : BufTy).Contents (Elt F) → (⟨S4x64, .f32⟩ : BufTy).Contents (Elt F) → (⟨S800000x64, .f32⟩ : BufTy).Contents (Elt F)),
    unary main_arg8 main_v15 (broadcastInDim S1x64 ![1] bcast_S64_S1x64_1 : (⟨S64, .f32⟩ : BufTy).Contents (Elt F) → (⟨S1x64, .f32⟩ : BufTy).Contents (Elt F)),
    unary main_v15 main_v16 (broadcastInDim S800000x64 ![0, 1] bcast_S1x64_S800000x64_0_1 : (⟨S1x64, .f32⟩ : BufTy).Contents (Elt F) → (⟨S800000x64, .f32⟩ : BufTy).Contents (Elt F)),
    binary main_v14 main_v16 main_v17 (addf : (⟨S800000x64, .f32⟩ : BufTy).Contents (Elt F) → (⟨S800000x64, .f32⟩ : BufTy).Contents (Elt F) → (⟨S800000x64, .f32⟩ : BufTy).Contents (Elt F)),
    nullary main_cst_0 (constant S_ .f32 0x00000000#32),
    unary main_cst_0 main_v18 (broadcastInDim S800000x64 ![] bcast_S_S800000x64 : (⟨S_, .f32⟩ : BufTy).Contents (Elt F) → (⟨S800000x64, .f32⟩ : BufTy).Contents (Elt F)),
    binary main_v17 main_v18 main_v19 (maximumf : (⟨S800000x64, .f32⟩ : BufTy).Contents (Elt F) → (⟨S800000x64, .f32⟩ : BufTy).Contents (Elt F) → (⟨S800000x64, .f32⟩ : BufTy).Contents (Elt F)),
    binary main_v19 main_arg9 main_v20 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v21 (broadcastInDim S1x64 ![1] bcast_S64_S1x64_1 : (⟨S64, .f32⟩ : BufTy).Contents (Elt F) → (⟨S1x64, .f32⟩ : BufTy).Contents (Elt F)),
    unary main_v21 main_v22 (broadcastInDim S800000x64 ![0, 1] bcast_S1x64_S800000x64_0_1 : (⟨S1x64, .f32⟩ : BufTy).Contents (Elt F) → (⟨S800000x64, .f32⟩ : BufTy).Contents (Elt F)),
    binary main_v20 main_v22 main_v23 (addf : (⟨S800000x64, .f32⟩ : BufTy).Contents (Elt F) → (⟨S800000x64, .f32⟩ : BufTy).Contents (Elt F) → (⟨S800000x64, .f32⟩ : BufTy).Contents (Elt F)) ]

theorem ops1_sub : (ops1 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops1_fresh : ∀ op ∈ (ops1 : List (HloOp τ sig (Elt F))), op.fresh = ∅ := by
  intro _ h; (repeat (cases h with | head => rfl | tail _ h => ?_)); exact nomatch h

/-- The buffers these operations write. -/
abbrev ops1_W : List (Ref sig .tc) := [main_v0, main_v1, main_v2, main_v3, main_v4, main_v5, main_v6, main_v7, main_cst, main_v8, main_v9, main_v10, main_v11, main_v12, main_v13, main_v14, main_v15, main_v16, main_v17, main_cst_0, main_v18, main_v19, main_v20, main_v21, main_v22, main_v23]

theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops1_keep (V : Valuation τ sig (Elt F)) (r : Ref sig .tc) (h : r ∉ ops1_W) :
    after ops1 V (Proc.devRef .tc r) = V (Proc.devRef .tc r) :=
  after_of_writes_sub ops1 V ops1_writes h

/-- The reference's operations 27 to 44 of 165. -/
abbrev ops2 : List (HloOp τ sig (Elt F)) :=
  [ nullary main_c (constantI S_ 32 0#32),
    unary main_c main_v24 (broadcastInDim S800000 ![] bcast_S_S800000 : (⟨S_, .i32⟩ : BufTy).Contents (Elt F) → (⟨S800000, .i32⟩ : BufTy).Contents (Elt F)),
    binary main_v1 main_v24 main_v25 (cmpi .slt : (⟨S800000, .i32⟩ : BufTy).Contents (Elt F) → (⟨S800000, .i32⟩ : BufTy).Contents (Elt F) → (⟨S800000, .i1⟩ : BufTy).Contents (Elt F)),
    nullary main_c_1 (constantI S_ 32 50000#32),
    unary main_c_1 main_v26 (broadcastInDim S800000 ![] bcast_S_S800000 : (⟨S_, .i32⟩ : BufTy).Contents (Elt F) → (⟨S800000, .i32⟩ : BufTy).Contents (Elt F)),
    binary main_v1 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v13 main_v29 main_v30 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_2 (constantI S_ 32 0#32),
    unary main_c_2 main_v31 (broadcastInDim S800000 ![] bcast_S_S800000 : (⟨S_, .i32⟩ : BufTy).Contents (Elt F) → (⟨S800000, .i32⟩ : BufTy).Contents (Elt F)),
    binary main_v3 main_v31 main_v32 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v33 (broadcastInDim S800000 ![] bcast_S_S800000 : (⟨S_, .i32⟩ : BufTy).Contents (Elt F) → (⟨S800000, .i32⟩ : BufTy).Contents (Elt F)),
    binary main_v3 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v3 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v13 main_v36 main_v37 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops2_fresh : ∀ op ∈ (ops2 : List (HloOp τ sig (Elt F))), op.fresh = ∅ := by
  intro _ h; (repeat (cases h with | head => rfl | tail _ h => ?_)); exact nomatch h

/-- The buffers these operations write. -/
abbrev ops2_W : List (Ref sig .tc) := [main_c, main_v24, main_v25, main_c_1, main_v26, main_v27, main_v28, main_v29, main_v30, main_c_2, main_v31, main_v32, main_c_3, main_v33, main_v34, main_v35, main_v36, main_v37]

theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops2_keep (V : Valuation τ sig (Elt F)) (r : Ref sig .tc) (h : r ∉ ops2_W) :
    after ops2 V (Proc.devRef .tc r) = V (Proc.devRef .tc r) :=
  after_of_writes_sub ops2 V ops2_writes h

/-- The reference's operations 45 to 60 of 165. -/
abbrev ops3 : List (HloOp τ sig (Elt F)) :=
  [ nary ![main_v23, main_v30, main_v37] main_v38 (fun u => concatenate S800000x192 1 [⟨S800000x64, u 0⟩, ⟨S800000x64, u 1⟩, ⟨S800000x64, u 2⟩] concatenates_S800000x64_S800000x64_S800000x64_S800000x192_d1),
    unary main_arg11 main_v39 ((extractStridedSlice S1x192x64 ![0, 0, 0] · slices_S2x192x64_S1x192x64_0_0_0) : (⟨S2x192x64, .f32⟩ : BufTy).Contents (Elt F) → (⟨S1x192x64, .f32⟩ : BufTy).Contents (Elt F)),
    reshape main_v39 main_v40 rfl shapeCasts_S1x192x64_S192x64,
    unary main_arg12 main_v41 ((extractStridedSlice S1x64 ![0, 0] · slices_S2x64_S1x64_0_0) : (⟨S2x64, .f32⟩ : BufTy).Contents (Elt F) → (⟨S1x64, .f32⟩ : BufTy).Contents (Elt F)),
    reshape main_v41 main_v42 rfl shapeCasts_S1x64_S64,
    unary main_arg13 main_v43 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v43 main_v44 rfl shapeCasts_S1x64x64_S64x64,
    unary main_arg14 main_v45 ((extractStridedSlice S1x64 ![0, 0] · slices_S2x64_S1x64_0_0) : (⟨S2x64, .f32⟩ : BufTy).Contents (Elt F) → (⟨S1x64, .f32⟩ : BufTy).Contents (Elt F)),
    reshape main_v45 main_v46 rfl shapeCasts_S1x64_S64,
    binary main_v38 main_v40 main_v47 ((fun l r => Host.dotGeneral dot_S800000x192_S192x64_S800000x64_1_0_0_1_n_n none l r) : (⟨S800000x192, .f32⟩ : BufTy).Contents (Elt F) → (⟨S192x64, .f32⟩ : BufTy).Contents (Elt F) → (⟨S800000x64, .f32⟩ : BufTy).Contents (Elt F)),
    unary main_v42 main_v48 (broadcastInDim S1x64 ![1] bcast_S64_S1x64_1 : (⟨S64, .f32⟩ : BufTy).Contents (Elt F) → (⟨S1x64, .f32⟩ : BufTy).Contents (Elt F)),
    unary main_v48 main_v49 (broadcastInDim S800000x64 ![0, 1] bcast_S1x64_S800000x64_0_1 : (⟨S1x64, .f32⟩ : BufTy).Contents (Elt F) → (⟨S800000x64, .f32⟩ : BufTy).Contents (Elt F)),
    binary main_v47 main_v49 main_v50 (addf : (⟨S800000x64, .f32⟩ : BufTy).Contents (Elt F) → (⟨S800000x64, .f32⟩ : BufTy).Contents (Elt F) → (⟨S800000x64, .f32⟩ : BufTy).Contents (Elt F)),
    nullary main_cst_4 (constant S_ .f32 0x00000000#32),
    unary main_cst_4 main_v51 (broadcastInDim S800000x64 ![] bcast_S_S800000x64 : (⟨S_, .f32⟩ : BufTy).Contents (Elt F) → (⟨S800000x64, .f32⟩ : BufTy).Contents (Elt F)),
    binary main_v50 main_v51 main_v52 (maximumf : (⟨S800000x64, .f32⟩ : BufTy).Contents (Elt F) → (⟨S800000x64, .f32⟩ : BufTy).Contents (Elt F) → (⟨S800000x64, .f32⟩ : BufTy).Contents (Elt F)) ]

theorem ops3_sub : (ops3 : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub ..⟩

theorem ops3_fresh : ∀ op ∈ (ops3 : List (HloOp τ sig (Elt F))), op.fresh = ∅ := by
  intro _ h; (repeat (cases h with | head => rfl | tail _ h => ?_)); exact nomatch h

/-- The buffers these operations write. -/
abbrev ops3_W : List (Ref sig .tc) := [main_v38, main_v39, main_v40, main_v41, main_v42, main_v43, main_v44, main_v45, main_v46, main_v47, main_v48, main_v49, main_v50, main_cst_4, main_v51, main_v52]

theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops3_keep (V : Valuation τ sig (Elt F)) (r : Ref sig .tc) (h : r ∉ ops3_W) :
    after ops3 V (Proc.devRef .tc r) = V (Proc.devRef .tc r) :=
  after_of_writes_sub ops3 V ops3_writes h

/-- The reference's operations 61 to 69 of 165. -/
abbrev ops4 : List (HloOp τ sig (Elt F)) :=
  [ binary main_v52 main_v44 main_v53 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_v46 main_v54 (broadcastInDim S1x64 ![1] bcast_S64_S1x64_1 : (⟨S64, .f32⟩ : BufTy).Contents (Elt F) → (⟨S1x64, .f32⟩ : BufTy).Contents (Elt F)),
    unary main_v54 main_v55 (broadcastInDim S800000x64 ![0, 1] bcast_S1x64_S800000x64_0_1 : (⟨S1x64, .f32⟩ : BufTy).Contents (Elt F) → (⟨S800000x64, .f32⟩ : BufTy).Contents (Elt F)),
    binary main_v53 main_v55 main_v56 (addf : (⟨S800000x64, .f32⟩ : BufTy).Contents (Elt F) → (⟨S800000x64, .f32⟩ : BufTy).Contents (Elt F) → (⟨S800000x64, .f32⟩ : BufTy).Contents (Elt F)),
    binary main_v23 main_v56 main_v57 (addf : (⟨S800000x64, .f32⟩ : BufTy).Contents (Elt F) → (⟨S800000x64, .f32⟩ : BufTy).Contents (Elt F) → (⟨S800000x64, .f32⟩ : BufTy).Contents (Elt F)),
    nullary main_cst_5 (constant S_ .f32 0x00000000#32),
    unary main_cst_5 main_v58 (broadcastInDim S50000x64 ![] bcast_S_S50000x64 : (⟨S_, .f32⟩ : BufTy).Contents (Elt F) → (⟨S50000x64, .f32⟩ : BufTy).Contents (Elt F)),
    unary main_v3 main_v59 (broadcastInDim S800000x1 ![0] bcast_S800000_S800000x1_0 : (⟨S800000, .i32⟩ : BufTy).Contents (Elt F) → (⟨S800000x1, .i32⟩ : BufTy).Contents (Elt F)),
    ternary main_v58 main_v59 main_v57 main_v60 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ops4_sub : (ops4 : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., unary_bufs_sub .., ternary_bufs_sub ..⟩

theorem ops4_fresh : ∀ op ∈ (ops4 : List (HloOp τ sig (Elt F))), op.fresh = ∅ := by
  intro _ h; (repeat (cases h with | head => rfl | tail _ h => ?_)); exact nomatch h

/-- The buffers these operations write. -/
abbrev ops4_W : List (Ref sig .tc) := [main_v53, main_v54, main_v55, main_v56, main_v57, main_cst_5, main_v58, main_v59, main_v60]

theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops4_keep (V : Valuation τ sig (Elt F)) (r : Ref sig .tc) (h : r ∉ ops4_W) :
    after ops4 V (Proc.devRef .tc r) = V (Proc.devRef .tc r) :=
  after_of_writes_sub ops4 V ops4_writes h

/-- The reference's operations 70 to 90 of 165. -/
abbrev ops5 : List (HloOp τ sig (Elt F)) :=
  [ binary main_v13 main_v60 main_v61 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg15 main_v62 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v62 main_v63 rfl shapeCasts_S1x128x64_S128x64,
    unary main_arg16 main_v64 ((extractStridedSlice S1x64 ![0, 0] · slices_S2x64_S1x64_0_0) : (⟨S2x64, .f32⟩ : BufTy).Contents (Elt F) → (⟨S1x64, .f32⟩ : BufTy).Contents (Elt F)),
    reshape main_v64 main_v65 rfl shapeCasts_S1x64_S64,
    unary main_arg17 main_v66 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v66 main_v67 rfl shapeCasts_S1x64x64_S64x64,
    unary main_arg18 main_v68 ((extractStridedSlice S1x64 ![0, 0] · slices_S2x64_S1x64_0_0) : (⟨S2x64, .f32⟩ : BufTy).Contents (Elt F) → (⟨S1x64, .f32⟩ : BufTy).Contents (Elt F)),
    reshape main_v68 main_v69 rfl shapeCasts_S1x64_S64,
    binary main_v61 main_v63 main_v70 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v65 main_v71 (broadcastInDim S1x64 ![1] bcast_S64_S1x64_1 : (⟨S64, .f32⟩ : BufTy).Contents (Elt F) → (⟨S1x64, .f32⟩ : BufTy).Contents (Elt F)),
    unary main_v71 main_v72 (broadcastInDim S50000x64 ![0, 1] bcast_S1x64_S50000x64_0_1 : (⟨S1x64, .f32⟩ : BufTy).Contents (Elt F) → (⟨S50000x64, .f32⟩ : BufTy).Contents (Elt F)),
    binary main_v70 main_v72 main_v73 (addf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x00000000#32),
    unary main_cst_6 main_v74 (broadcastInDim S50000x64 ![] bcast_S_S50000x64 : (⟨S_, .f32⟩ : BufTy).Contents (Elt F) → (⟨S50000x64, .f32⟩ : BufTy).Contents (Elt F)),
    binary main_v73 main_v74 main_v75 (maximumf : (⟨S50000x64, .f32⟩ : BufTy).Contents (Elt F) → (⟨S50000x64, .f32⟩ : BufTy).Contents (Elt F) → (⟨S50000x64, .f32⟩ : BufTy).Contents (Elt F)),
    binary main_v75 main_v67 main_v76 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v69 main_v77 (broadcastInDim S1x64 ![1] bcast_S64_S1x64_1 : (⟨S64, .f32⟩ : BufTy).Contents (Elt F) → (⟨S1x64, .f32⟩ : BufTy).Contents (Elt F)),
    unary main_v77 main_v78 (broadcastInDim S50000x64 ![0, 1] bcast_S1x64_S50000x64_0_1 : (⟨S1x64, .f32⟩ : BufTy).Contents (Elt F) → (⟨S50000x64, .f32⟩ : BufTy).Contents (Elt F)),
    binary main_v76 main_v78 main_v79 (addf : (⟨S50000x64, .f32⟩ : BufTy).Contents (Elt F) → (⟨S50000x64, .f32⟩ : BufTy).Contents (Elt F) → (⟨S50000x64, .f32⟩ : BufTy).Contents (Elt F)),
    binary main_v13 main_v79 main_v80 (addf : (⟨S50000x64, .f32⟩ : BufTy).Contents (Elt F) → (⟨S50000x64, .f32⟩ : BufTy).Contents (Elt F) → (⟨S50000x64, .f32⟩ : BufTy).Contents (Elt F)) ]

theorem ops5_sub : (ops5 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

theorem ops5_fresh : ∀ op ∈ (ops5 : List (HloOp τ sig (Elt F))), op.fresh = ∅ := by
  intro _ h; (repeat (cases h with | head => rfl | tail _ h => ?_)); exact nomatch h

/-- The buffers these operations write. -/
abbrev ops5_W : List (Ref sig .tc) := [main_v61, main_v62, main_v63, main_v64, main_v65, main_v66, main_v67, main_v68, main_v69, main_v70, main_v71, main_v72, main_v73, main_cst_6, main_v74, main_v75, main_v76, main_v77, main_v78, main_v79, main_v80]

theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops5_keep (V : Valuation τ sig (Elt F)) (r : Ref sig .tc) (h : r ∉ ops5_W) :
    after ops5 V (Proc.devRef .tc r) = V (Proc.devRef .tc r) :=
  after_of_writes_sub ops5 V ops5_writes h

/-- The reference's operations 91 to 108 of 165. -/
abbrev ops6 : List (HloOp τ sig (Elt F)) :=
  [ nullary main_c_7 (constantI S_ 32 0#32),
    unary main_c_7 main_v81 (broadcastInDim S800000 ![] bcast_S_S800000 : (⟨S_, .i32⟩ : BufTy).Contents (Elt F) → (⟨S800000, .i32⟩ : BufTy).Contents (Elt F)),
    binary main_v1 main_v81 main_v82 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v83 (broadcastInDim S800000 ![] bcast_S_S800000 : (⟨S_, .i32⟩ : BufTy).Contents (Elt F) → (⟨S800000, .i32⟩ : BufTy).Contents (Elt F)),
    binary main_v1 main_v83 main_v84 (addi : (⟨S800000, .i32⟩ : BufTy).Contents (Elt F) → (⟨S800000, .i32⟩ : BufTy).Contents (Elt F) → (⟨S800000, .i32⟩ : BufTy).Contents (Elt F)),
    ternary main_v82 main_v84 main_v1 main_v85 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v85 main_v86 (broadcastInDim S800000x1 ![0] bcast_S800000_S800000x1_0 : (⟨S800000, .i32⟩ : BufTy).Contents (Elt F) → (⟨S800000x1, .i32⟩ : BufTy).Contents (Elt F)),
    binary main_v80 main_v86 main_v87 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_9 (constantI S_ 32 0#32),
    unary main_c_9 main_v88 (broadcastInDim S800000 ![] bcast_S_S800000 : (⟨S_, .i32⟩ : BufTy).Contents (Elt F) → (⟨S800000, .i32⟩ : BufTy).Contents (Elt F)),
    binary main_v3 main_v88 main_v89 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v90 (broadcastInDim S800000 ![] bcast_S_S800000 : (⟨S_, .i32⟩ : BufTy).Contents (Elt F) → (⟨S800000, .i32⟩ : BufTy).Contents (Elt F)),
    binary main_v3 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_v3 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v80 main_v93 main_v94 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops6_fresh : ∀ op ∈ (ops6 : List (HloOp τ sig (Elt F))), op.fresh = ∅ := by
  intro _ h; (repeat (cases h with | head => rfl | tail _ h => ?_)); exact nomatch h

/-- The buffers these operations write. -/
abbrev ops6_W : List (Ref sig .tc) := [main_c_7, main_v81, main_v82, main_c_8, main_v83, main_v84, main_v85, main_v86, main_v87, main_c_9, main_v88, main_v89, main_c_10, main_v90, main_v91, main_v92, main_v93, main_v94]

theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops6_keep (V : Valuation τ sig (Elt F)) (r : Ref sig .tc) (h : r ∉ ops6_W) :
    after ops6 V (Proc.devRef .tc r) = V (Proc.devRef .tc r) :=
  after_of_writes_sub ops6 V ops6_writes h

/-- The reference's operations 109 to 120 of 165. -/
abbrev ops7 : List (HloOp τ sig (Elt F)) :=
  [ nary ![main_v57, main_v87, main_v94] main_v95 (fun u => concatenate S800000x192 1 [⟨S800000x64, u 0⟩, ⟨S800000x64, u 1⟩, ⟨S800000x64, u 2⟩] concatenates_S800000x64_S800000x64_S800000x64_S800000x192_d1),
    unary main_arg11 main_v96 ((extractStridedSlice S1x192x64 ![1, 0, 0] · slices_S2x192x64_S1x192x64_1_0_0) : (⟨S2x192x64, .f32⟩ : BufTy).Contents (Elt F) → (⟨S1x192x64, .f32⟩ : BufTy).Contents (Elt F)),
    reshape main_v96 main_v97 rfl shapeCasts_S1x192x64_S192x64,
    unary main_arg12 main_v98 ((extractStridedSlice S1x64 ![1, 0] · slices_S2x64_S1x64_1_0) : (⟨S2x64, .f32⟩ : BufTy).Contents (Elt F) → (⟨S1x64, .f32⟩ : BufTy).Contents (Elt F)),
    reshape main_v98 main_v99 rfl shapeCasts_S1x64_S64,
    unary main_arg13 main_v100 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v100 main_v101 rfl shapeCasts_S1x64x64_S64x64,
    unary main_arg14 main_v102 ((extractStridedSlice S1x64 ![1, 0] · slices_S2x64_S1x64_1_0) : (⟨S2x64, .f32⟩ : BufTy).Contents (Elt F) → (⟨S1x64, .f32⟩ : BufTy).Contents (Elt F)),
    reshape main_v102 main_v103 rfl shapeCasts_S1x64_S64,
    binary main_v95 main_v97 main_v104 ((fun l r => Host.dotGeneral dot_S800000x192_S192x64_S800000x64_1_0_0_1_n_n none l r) : (⟨S800000x192, .f32⟩ : BufTy).Contents (Elt F) → (⟨S192x64, .f32⟩ : BufTy).Contents (Elt F) → (⟨S800000x64, .f32⟩ : BufTy).Contents (Elt F)),
    unary main_v99 main_v105 (broadcastInDim S1x64 ![1] bcast_S64_S1x64_1 : (⟨S64, .f32⟩ : BufTy).Contents (Elt F) → (⟨S1x64, .f32⟩ : BufTy).Contents (Elt F)),
    unary main_v105 main_v106 (broadcastInDim S800000x64 ![0, 1] bcast_S1x64_S800000x64_0_1 : (⟨S1x64, .f32⟩ : BufTy).Contents (Elt F) → (⟨S800000x64, .f32⟩ : BufTy).Contents (Elt F)) ]

theorem ops7_sub : (ops7 : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub ..⟩

theorem ops7_fresh : ∀ op ∈ (ops7 : List (HloOp τ sig (Elt F))), op.fresh = ∅ := by
  intro _ h; (repeat (cases h with | head => rfl | tail _ h => ?_)); exact nomatch h

/-- The buffers these operations write. -/
abbrev ops7_W : List (Ref sig .tc) := [main_v95, main_v96, main_v97, main_v98, main_v99, main_v100, main_v101, main_v102, main_v103, main_v104, main_v105, main_v106]

theorem ops7_writes : (ops7 : List (HloOp τ sig (Elt F))).Forall fun op => op.writes ⊆ (ops7_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops7_keep (V : Valuation τ sig (Elt F)) (r : Ref sig .tc) (h : r ∉ ops7_W) :
    after ops7 V (Proc.devRef .tc r) = V (Proc.devRef .tc r) :=
  after_of_writes_sub ops7 V ops7_writes h

/-- The reference's operations 121 to 133 of 165. -/
abbrev ops8 : List (HloOp τ sig (Elt F)) :=
  [ binary main_v104 main_v106 main_v107 (addf : (⟨S800000x64, .f32⟩ : BufTy).Contents (Elt F) → (⟨S800000x64, .f32⟩ : BufTy).Contents (Elt F) → (⟨S800000x64, .f32⟩ : BufTy).Contents (Elt F)),
    nullary main_cst_11 (constant S_ .f32 0x00000000#32),
    unary main_cst_11 main_v108 (broadcastInDim S800000x64 ![] bcast_S_S800000x64 : (⟨S_, .f32⟩ : BufTy).Contents (Elt F) → (⟨S800000x64, .f32⟩ : BufTy).Contents (Elt F)),
    binary main_v107 main_v108 main_v109 (maximumf : (⟨S800000x64, .f32⟩ : BufTy).Contents (Elt F) → (⟨S800000x64, .f32⟩ : BufTy).Contents (Elt F) → (⟨S800000x64, .f32⟩ : BufTy).Contents (Elt F)),
    binary main_v109 main_v101 main_v110 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_v103 main_v111 (broadcastInDim S1x64 ![1] bcast_S64_S1x64_1 : (⟨S64, .f32⟩ : BufTy).Contents (Elt F) → (⟨S1x64, .f32⟩ : BufTy).Contents (Elt F)),
    unary main_v111 main_v112 (broadcastInDim S800000x64 ![0, 1] bcast_S1x64_S800000x64_0_1 : (⟨S1x64, .f32⟩ : BufTy).Contents (Elt F) → (⟨S800000x64, .f32⟩ : BufTy).Contents (Elt F)),
    binary main_v110 main_v112 main_v113 (addf : (⟨S800000x64, .f32⟩ : BufTy).Contents (Elt F) → (⟨S800000x64, .f32⟩ : BufTy).Contents (Elt F) → (⟨S800000x64, .f32⟩ : BufTy).Contents (Elt F)),
    binary main_v57 main_v113 main_v114 (addf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v115 (broadcastInDim S50000x64 ![] bcast_S_S50000x64 : (⟨S_, .f32⟩ : BufTy).Contents (Elt F) → (⟨S50000x64, .f32⟩ : BufTy).Contents (Elt F)),
    unary main_v3 main_v116 (broadcastInDim S800000x1 ![0] bcast_S800000_S800000x1_0 : (⟨S800000, .i32⟩ : BufTy).Contents (Elt F) → (⟨S800000x1, .i32⟩ : BufTy).Contents (Elt F)),
    ternary main_v115 main_v116 main_v114 main_v117 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ops8_sub : (ops8 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub .., binary_bufs_sub .., nullary_bufs_sub .., unary_bufs_sub .., unary_bufs_sub .., ternary_bufs_sub ..⟩

theorem ops8_fresh : ∀ op ∈ (ops8 : List (HloOp τ sig (Elt F))), op.fresh = ∅ := by
  intro _ h; (repeat (cases h with | head => rfl | tail _ h => ?_)); exact nomatch h

/-- The buffers these operations write. -/
abbrev ops8_W : List (Ref sig .tc) := [main_v107, main_cst_11, main_v108, main_v109, main_v110, main_v111, main_v112, main_v113, main_v114, main_cst_12, main_v115, main_v116, main_v117]

theorem ops8_writes : (ops8 : List (HloOp τ sig (Elt F))).Forall fun op => op.writes ⊆ (ops8_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops8_keep (V : Valuation τ sig (Elt F)) (r : Ref sig .tc) (h : r ∉ ops8_W) :
    after ops8 V (Proc.devRef .tc r) = V (Proc.devRef .tc r) :=
  after_of_writes_sub ops8 V ops8_writes h

/-- The reference's operations 134 to 154 of 165. -/
abbrev ops9 : List (HloOp τ sig (Elt F)) :=
  [ binary main_v80 main_v117 main_v118 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg15 main_v119 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v119 main_v120 rfl shapeCasts_S1x128x64_S128x64,
    unary main_arg16 main_v121 ((extractStridedSlice S1x64 ![1, 0] · slices_S2x64_S1x64_1_0) : (⟨S2x64, .f32⟩ : BufTy).Contents (Elt F) → (⟨S1x64, .f32⟩ : BufTy).Contents (Elt F)),
    reshape main_v121 main_v122 rfl shapeCasts_S1x64_S64,
    unary main_arg17 main_v123 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v123 main_v124 rfl shapeCasts_S1x64x64_S64x64,
    unary main_arg18 main_v125 ((extractStridedSlice S1x64 ![1, 0] · slices_S2x64_S1x64_1_0) : (⟨S2x64, .f32⟩ : BufTy).Contents (Elt F) → (⟨S1x64, .f32⟩ : BufTy).Contents (Elt F)),
    reshape main_v125 main_v126 rfl shapeCasts_S1x64_S64,
    binary main_v118 main_v120 main_v127 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v122 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v127 main_v129 main_v130 (addf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x00000000#32),
    unary main_cst_13 main_v131 (broadcastInDim S50000x64 ![] bcast_S_S50000x64 : (⟨S_, .f32⟩ : BufTy).Contents (Elt F) → (⟨S50000x64, .f32⟩ : BufTy).Contents (Elt F)),
    binary main_v130 main_v131 main_v132 (maximumf : (⟨S50000x64, .f32⟩ : BufTy).Contents (Elt F) → (⟨S50000x64, .f32⟩ : BufTy).Contents (Elt F) → (⟨S50000x64, .f32⟩ : BufTy).Contents (Elt F)),
    binary main_v132 main_v124 main_v133 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v126 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v133 main_v135 main_v136 (addf : (⟨S50000x64, .f32⟩ : BufTy).Contents (Elt F) → (⟨S50000x64, .f32⟩ : BufTy).Contents (Elt F) → (⟨S50000x64, .f32⟩ : BufTy).Contents (Elt F)),
    binary main_v80 main_v136 main_v137 (addf : (⟨S50000x64, .f32⟩ : BufTy).Contents (Elt F) → (⟨S50000x64, .f32⟩ : BufTy).Contents (Elt F) → (⟨S50000x64, .f32⟩ : BufTy).Contents (Elt F)) ]

theorem ops9_sub : (ops9 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

theorem ops9_fresh : ∀ op ∈ (ops9 : List (HloOp τ sig (Elt F))), op.fresh = ∅ := by
  intro _ h; (repeat (cases h with | head => rfl | tail _ h => ?_)); exact nomatch h

/-- The buffers these operations write. -/
abbrev ops9_W : List (Ref sig .tc) := [main_v118, main_v119, main_v120, main_v121, main_v122, main_v123, main_v124, main_v125, main_v126, main_v127, main_v128, main_v129, main_v130, main_cst_13, main_v131, main_v132, main_v133, main_v134, main_v135, main_v136, main_v137]

theorem ops9_writes : (ops9 : List (HloOp τ sig (Elt F))).Forall fun op => op.writes ⊆ (ops9_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops9_keep (V : Valuation τ sig (Elt F)) (r : Ref sig .tc) (h : r ∉ ops9_W) :
    after ops9 V (Proc.devRef .tc r) = V (Proc.devRef .tc r) :=
  after_of_writes_sub ops9 V ops9_writes h

/-- The reference's operations 155 to 165 of 165. -/
abbrev ops10 : List (HloOp τ sig (Elt F)) :=
  [ binary main_v137 main_arg19 main_v138 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg20 main_v139 (broadcastInDim S1x64 ![1] bcast_S64_S1x64_1 : (⟨S64, .f32⟩ : BufTy).Contents (Elt F) → (⟨S1x64, .f32⟩ : BufTy).Contents (Elt F)),
    unary main_v139 main_v140 (broadcastInDim S50000x64 ![0, 1] bcast_S1x64_S50000x64_0_1 : (⟨S1x64, .f32⟩ : BufTy).Contents (Elt F) → (⟨S50000x64, .f32⟩ : BufTy).Contents (Elt F)),
    binary main_v138 main_v140 main_v141 (addf : (⟨S50000x64, .f32⟩ : BufTy).Contents (Elt F) → (⟨S50000x64, .f32⟩ : BufTy).Contents (Elt F) → (⟨S50000x64, .f32⟩ : BufTy).Contents (Elt F)),
    nullary main_cst_14 (constant S_ .f32 0x00000000#32),
    unary main_cst_14 main_v142 (broadcastInDim S50000x64 ![] bcast_S_S50000x64 : (⟨S_, .f32⟩ : BufTy).Contents (Elt F) → (⟨S50000x64, .f32⟩ : BufTy).Contents (Elt F)),
    binary main_v141 main_v142 main_v143 (maximumf : (⟨S50000x64, .f32⟩ : BufTy).Contents (Elt F) → (⟨S50000x64, .f32⟩ : BufTy).Contents (Elt F) → (⟨S50000x64, .f32⟩ : BufTy).Contents (Elt F)),
    binary main_v143 main_arg21 main_v144 ((fun l r => Host.dotGeneral dot_S50000x64_S64x6_S50000x6_1_0_0_1_n_n none l r) : (⟨S50000x64, .f32⟩ : BufTy).Contents (Elt F) → (⟨S64x6, .f32⟩ : BufTy).Contents (Elt F) → (⟨S50000x6, .f32⟩ : BufTy).Contents (Elt F)),
    unary main_arg22 main_v145 (broadcastInDim S1x6 ![1] bcast_S6_S1x6_1 : (⟨S6, .f32⟩ : BufTy).Contents (Elt F) → (⟨S1x6, .f32⟩ : BufTy).Contents (Elt F)),
    unary main_v145 main_v146 (broadcastInDim S50000x6 ![0, 1] bcast_S1x6_S50000x6_0_1 : (⟨S1x6, .f32⟩ : BufTy).Contents (Elt F) → (⟨S50000x6, .f32⟩ : BufTy).Contents (Elt F)),
    binary main_v144 main_v146 main_v147 (addf : (⟨S50000x6, .f32⟩ : BufTy).Contents (Elt F) → (⟨S50000x6, .f32⟩ : BufTy).Contents (Elt F) → (⟨S50000x6, .f32⟩ : BufTy).Contents (Elt F)) ]

theorem ops10_sub : (ops10 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops10_fresh : ∀ op ∈ (ops10 : List (HloOp τ sig (Elt F))), op.fresh = ∅ := by
  intro _ h; (repeat (cases h with | head => rfl | tail _ h => ?_)); exact nomatch h

/-- The buffers these operations write. -/
abbrev ops10_W : List (Ref sig .tc) := [main_v138, main_v139, main_v140, main_v141, main_cst_14, main_v142, main_v143, main_v144, main_v145, main_v146, main_v147]

theorem ops10_writes : (ops10 : List (HloOp τ sig (Elt F))).Forall fun op => op.writes ⊆ (ops10_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer these operations do not write keeps its contents through them. -/
theorem ops10_keep (V : Valuation τ sig (Elt F)) (r : Ref sig .tc) (h : r ∉ ops10_W) :
    after ops10 V (Proc.devRef .tc r) = V (Proc.devRef .tc r) :=
  after_of_writes_sub ops10 V ops10_writes h

/-! ## What each stretch computes, from any contents -/

set_option maxRecDepth 8192 in
theorem ops1_v1 (V : Valuation τ sig (Elt F)) :
    after ops1 V (Proc.devRef .tc main_v1)
      = Cert.Spec.sources (V (Proc.devRef .tc main_arg2)) := by
  after_results_simp <;> rfl

set_option maxRecDepth 8192 in
theorem ops1_v3 (V : Valuation τ sig (Elt F)) :
    after ops1 V (Proc.devRef .tc main_v3)
      = Cert.Spec.targets (V (Proc.devRef .tc main_arg2)) := by
  after_results_simp <;> rfl

set_option maxRecDepth 8192 in
theorem ops1_v13 (V : Valuation τ sig (Elt F)) :
    after ops1 V (Proc.devRef .tc main_v13)
      = Cert.Spec.encodeNodes (V (Proc.devRef .tc main_arg0)) (V (Proc.devRef .tc main_arg3)) (V (Proc.devRef .tc main_arg4)) (V (Proc.devRef .tc main_arg5)) (V (Proc.devRef .tc main_arg6)) := by
  after_results_simp <;> rfl

set_option maxRecDepth 8192 in
theorem ops1_v23 (V : Valuation τ sig (Elt F)) :
    after ops1 V (Proc.devRef .tc main_v23)
      = Cert.Spec.encodeEdges (V (Proc.devRef .tc main_arg1)) (V (Proc.devRef .tc main_arg7)) (V (Proc.devRef .tc main_arg8)) (V (Proc.devRef .tc main_arg9)) (V (Proc.devRef .tc main_arg10)) := by
  after_results_simp <;> rfl

set_option maxRecDepth 8192 in
theorem ops2_v30 (V : Valuation τ sig (Elt F)) :
    after ops2 V (Proc.devRef .tc main_v30)
      = Cert.Spec.gatherRows (V (Proc.devRef .tc main_v13)) (V (Proc.devRef .tc main_v1)) := by
  after_results_simp <;> rfl

set_option maxRecDepth 8192 in
theorem ops2_v37 (V : Valuation τ sig (Elt F)) :
    after ops2 V (Proc.devRef .tc main_v37)
      = Cert.Spec.gatherRows (V (Proc.devRef .tc main_v13)) (V (Proc.devRef .tc main_v3)) := by
  after_results_simp <;> rfl

set_option maxRecDepth 8192 in
theorem ops34_v57 (V : Valuation τ sig (Elt F)) :
    after ops4 (after ops3 V) (Proc.devRef .tc main_v57)
      = Cert.Spec.edgeStep (V (Proc.devRef .tc main_v23)) (V (Proc.devRef .tc main_v30)) (V (Proc.devRef .tc main_v37)) (Cert.Spec.layer0_192 (V (Proc.devRef .tc main_arg11))) (Cert.Spec.layer0_b (V (Proc.devRef .tc main_arg12))) (Cert.Spec.layer0_64 (V (Proc.devRef .tc main_arg13))) (Cert.Spec.layer0_b (V (Proc.devRef .tc main_arg14))) := by
  after_results_simp <;> rfl

set_option maxRecDepth 8192 in
theorem ops34_v60 (V : Valuation τ sig (Elt F)) :
    after ops4 (after ops3 V) (Proc.devRef .tc main_v60)
      = Cert.Spec.segmentSum (Cert.Spec.edgeStep (V (Proc.devRef .tc main_v23)) (V (Proc.devRef .tc main_v30)) (V (Proc.devRef .tc main_v37)) (Cert.Spec.layer0_192 (V (Proc.devRef .tc main_arg11))) (Cert.Spec.layer0_b (V (Proc.devRef .tc main_arg12))) (Cert.Spec.layer0_64 (V (Proc.devRef .tc main_arg13))) (Cert.Spec.layer0_b (V (Proc.devRef .tc main_arg14)))) (V (Proc.devRef .tc main_v3)) := by
  after_results_simp <;> rfl

set_option maxRecDepth 8192 in
theorem ops5_v80 (V : Valuation τ sig (Elt F)) :
    after ops5 V (Proc.devRef .tc main_v80)
      = Cert.Spec.nodeStep (V (Proc.devRef .tc main_v13)) (V (Proc.devRef .tc main_v60)) (Cert.Spec.layer0_128 (V (Proc.devRef .tc main_arg15))) (Cert.Spec.layer0_b (V (Proc.devRef .tc main_arg16))) (Cert.Spec.layer0_64 (V (Proc.devRef .tc main_arg17))) (Cert.Spec.layer0_b (V (Proc.devRef .tc main_arg18))) := by
  after_results_simp <;> rfl

set_option maxRecDepth 8192 in
theorem ops6_v87 (V : Valuation τ sig (Elt F)) :
    after ops6 V (Proc.devRef .tc main_v87)
      = Cert.Spec.gatherRows (V (Proc.devRef .tc main_v80)) (V (Proc.devRef .tc main_v1)) := by
  after_results_simp <;> rfl

set_option maxRecDepth 8192 in
theorem ops6_v94 (V : Valuation τ sig (Elt F)) :
    after ops6 V (Proc.devRef .tc main_v94)
      = Cert.Spec.gatherRows (V (Proc.devRef .tc main_v80)) (V (Proc.devRef .tc main_v3)) := by
  after_results_simp <;> rfl

set_option maxRecDepth 8192 in
theorem ops78_v114 (V : Valuation τ sig (Elt F)) :
    after ops8 (after ops7 V) (Proc.devRef .tc main_v114)
      = Cert.Spec.edgeStep (V (Proc.devRef .tc main_v57)) (V (Proc.devRef .tc main_v87)) (V (Proc.devRef .tc main_v94)) (Cert.Spec.layer1_192 (V (Proc.devRef .tc main_arg11))) (Cert.Spec.layer1_b (V (Proc.devRef .tc main_arg12))) (Cert.Spec.layer1_64 (V (Proc.devRef .tc main_arg13))) (Cert.Spec.layer1_b (V (Proc.devRef .tc main_arg14))) := by
  after_results_simp <;> rfl

set_option maxRecDepth 8192 in
theorem ops78_v117 (V : Valuation τ sig (Elt F)) :
    after ops8 (after ops7 V) (Proc.devRef .tc main_v117)
      = Cert.Spec.segmentSum (Cert.Spec.edgeStep (V (Proc.devRef .tc main_v57)) (V (Proc.devRef .tc main_v87)) (V (Proc.devRef .tc main_v94)) (Cert.Spec.layer1_192 (V (Proc.devRef .tc main_arg11))) (Cert.Spec.layer1_b (V (Proc.devRef .tc main_arg12))) (Cert.Spec.layer1_64 (V (Proc.devRef .tc main_arg13))) (Cert.Spec.layer1_b (V (Proc.devRef .tc main_arg14)))) (V (Proc.devRef .tc main_v3)) := by
  after_results_simp <;> rfl

set_option maxRecDepth 8192 in
theorem ops9_v137 (V : Valuation τ sig (Elt F)) :
    after ops9 V (Proc.devRef .tc main_v137)
      = Cert.Spec.nodeStep (V (Proc.devRef .tc main_v80)) (V (Proc.devRef .tc main_v117)) (Cert.Spec.layer1_128 (V (Proc.devRef .tc main_arg15))) (Cert.Spec.layer1_b (V (Proc.devRef .tc main_arg16))) (Cert.Spec.layer1_64 (V (Proc.devRef .tc main_arg17))) (Cert.Spec.layer1_b (V (Proc.devRef .tc main_arg18))) := by
  after_results_simp <;> rfl

set_option maxRecDepth 8192 in
theorem ops10_v147 (V : Valuation τ sig (Elt F)) :
    after ops10 V (Proc.devRef .tc main_v147)
      = Cert.Spec.decode (V (Proc.devRef .tc main_v137)) (V (Proc.devRef .tc main_arg19)) (V (Proc.devRef .tc main_arg20)) (V (Proc.devRef .tc main_arg21)) (V (Proc.devRef .tc main_arg22)) := by
  after_results_simp <;> rfl

/-! ## The stages -/

/-- The network's inputs as a valuation holds them at the 23 argument buffers. -/
def inp (V : Valuation τ sig (Elt F)) : Cert.Spec.Inputs F where
  x := V (Proc.devRef .tc main_arg0)
  ea := V (Proc.devRef .tc main_arg1)
  ei := V (Proc.devRef .tc main_arg2)
  nw1 := V (Proc.devRef .tc main_arg3)
  nb1 := V (Proc.devRef .tc main_arg4)
  nw2 := V (Proc.devRef .tc main_arg5)
  nb2 := V (Proc.devRef .tc main_arg6)
  ew1 := V (Proc.devRef .tc main_arg7)
  eb1 := V (Proc.devRef .tc main_arg8)
  ew2 := V (Proc.devRef .tc main_arg9)
  eb2 := V (Proc.devRef .tc main_arg10)
  pew1 := V (Proc.devRef .tc main_arg11)
  peb1 := V (Proc.devRef .tc main_arg12)
  pew2 := V (Proc.devRef .tc main_arg13)
  peb2 := V (Proc.devRef .tc main_arg14)
  pnw1 := V (Proc.devRef .tc main_arg15)
  pnb1 := V (Proc.devRef .tc main_arg16)
  pnw2 := V (Proc.devRef .tc main_arg17)
  pnb2 := V (Proc.devRef .tc main_arg18)
  dw1 := V (Proc.devRef .tc main_arg19)
  db1 := V (Proc.devRef .tc main_arg20)
  dw2 := V (Proc.devRef .tc main_arg21)
  db2 := V (Proc.devRef .tc main_arg22)

/-- The network's inputs as the reference's core `c` holds them at launch. -/
def inputs (m : (ℓ : Loc nD τ sig) → Buf (Elt F) ℓ) (c : Dev nD) : Cert.Spec.Inputs F where
  x := m ((c.tc : Thread nD τ).loc main_arg0)
  ea := m ((c.tc : Thread nD τ).loc main_arg1)
  ei := m ((c.tc : Thread nD τ).loc main_arg2)
  nw1 := m ((c.tc : Thread nD τ).loc main_arg3)
  nb1 := m ((c.tc : Thread nD τ).loc main_arg4)
  nw2 := m ((c.tc : Thread nD τ).loc main_arg5)
  nb2 := m ((c.tc : Thread nD τ).loc main_arg6)
  ew1 := m ((c.tc : Thread nD τ).loc main_arg7)
  eb1 := m ((c.tc : Thread nD τ).loc main_arg8)
  ew2 := m ((c.tc : Thread nD τ).loc main_arg9)
  eb2 := m ((c.tc : Thread nD τ).loc main_arg10)
  pew1 := m ((c.tc : Thread nD τ).loc main_arg11)
  peb1 := m ((c.tc : Thread nD τ).loc main_arg12)
  pew2 := m ((c.tc : Thread nD τ).loc main_arg13)
  peb2 := m ((c.tc : Thread nD τ).loc main_arg14)
  pnw1 := m ((c.tc : Thread nD τ).loc main_arg15)
  pnb1 := m ((c.tc : Thread nD τ).loc main_arg16)
  pnw2 := m ((c.tc : Thread nD τ).loc main_arg17)
  pnb2 := m ((c.tc : Thread nD τ).loc main_arg18)
  dw1 := m ((c.tc : Thread nD τ).loc main_arg19)
  db1 := m ((c.tc : Thread nD τ).loc main_arg20)
  dw2 := m ((c.tc : Thread nD τ).loc main_arg21)
  db2 := m ((c.tc : Thread nD τ).loc main_arg22)

/-- The contents after the encoders. -/
def val1 (V : Valuation τ sig (Elt F)) : Valuation τ sig (Elt F) := after ops1 V
/-- ... after the first round's gathers. -/
def val2 (V : Valuation τ sig (Elt F)) : Valuation τ sig (Elt F) := after ops2 (val1 V)
/-- ... after the first round's edge update and segment sum. -/
def val3 (V : Valuation τ sig (Elt F)) : Valuation τ sig (Elt F) := after ops4 (after ops3 (val2 V))
/-- ... after the first round's node update. -/
def val4 (V : Valuation τ sig (Elt F)) : Valuation τ sig (Elt F) := after ops5 (val3 V)
/-- ... after the second round's gathers. -/
def val5 (V : Valuation τ sig (Elt F)) : Valuation τ sig (Elt F) := after ops6 (val4 V)
/-- ... after the second round's edge update and segment sum. -/
def val6 (V : Valuation τ sig (Elt F)) : Valuation τ sig (Elt F) := after ops8 (after ops7 (val5 V))
/-- ... after the second round's node update. -/
def val7 (V : Valuation τ sig (Elt F)) : Valuation τ sig (Elt F) := after ops9 (val6 V)
/-- ... after the decoder: the end of the program. -/
def val8 (V : Valuation τ sig (Elt F)) : Valuation τ sig (Elt F) := after ops10 (val7 V)

/-- A buffer stage 1 does not write keeps its contents through it. -/
theorem val1_step (V : Valuation τ sig (Elt F)) (r : Ref sig .tc) (h0 : r ∉ ops1_W) :
    val1 V (Proc.devRef .tc r) = V (Proc.devRef .tc r) :=
  ops1_keep V r h0

/-- A buffer stage 2 does not write keeps its contents through it. -/
theorem val2_step (V : Valuation τ sig (Elt F)) (r : Ref sig .tc) (h0 : r ∉ ops2_W) :
    val2 V (Proc.devRef .tc r) = val1 V (Proc.devRef .tc r) :=
  ops2_keep (val1 V) r h0

/-- A buffer stage 3 does not write keeps its contents through it. -/
theorem val3_step (V : Valuation τ sig (Elt F)) (r : Ref sig .tc) (h0 : r ∉ ops3_W) (h1 : r ∉ ops4_W) :
    val3 V (Proc.devRef .tc r) = val2 V (Proc.devRef .tc r) :=
  (ops4_keep _ r h1).trans (ops3_keep (val2 V) r h0)

/-- A buffer stage 4 does not write keeps its contents through it. -/
theorem val4_step (V : Valuation τ sig (Elt F)) (r : Ref sig .tc) (h0 : r ∉ ops5_W) :
    val4 V (Proc.devRef .tc r) = val3 V (Proc.devRef .tc r) :=
  ops5_keep (val3 V) r h0

/-- A buffer stage 5 does not write keeps its contents through it. -/
theorem val5_step (V : Valuation τ sig (Elt F)) (r : Ref sig .tc) (h0 : r ∉ ops6_W) :
    val5 V (Proc.devRef .tc r) = val4 V (Proc.devRef .tc r) :=
  ops6_keep (val4 V) r h0

/-- A buffer stage 6 does not write keeps its contents through it. -/
theorem val6_step (V : Valuation τ sig (Elt F)) (r : Ref sig .tc) (h0 : r ∉ ops7_W) (h1 : r ∉ ops8_W) :
    val6 V (Proc.devRef .tc r) = val5 V (Proc.devRef .tc r) :=
  (ops8_keep _ r h1).trans (ops7_keep (val5 V) r h0)

/-- A buffer stage 7 does not write keeps its contents through it. -/
theorem val7_step (V : Valuation τ sig (Elt F)) (r : Ref sig .tc) (h0 : r ∉ ops9_W) :
    val7 V (Proc.devRef .tc r) = val6 V (Proc.devRef .tc r) :=
  ops9_keep (val6 V) r h0

/-- A buffer stage 8 does not write keeps its contents through it. -/
theorem val8_step (V : Valuation τ sig (Elt F)) (r : Ref sig .tc) (h0 : r ∉ ops10_W) :
    val8 V (Proc.devRef .tc r) = val7 V (Proc.devRef .tc r) :=
  ops10_keep (val7 V) r h0

/-- `r` is written by none of the program's operations. -/
abbrev Unwritten (r : Ref sig .tc) : Prop :=
  r ∉ ops1_W ∧ r ∉ ops2_W ∧ r ∉ ops3_W ∧ r ∉ ops4_W ∧ r ∉ ops5_W ∧ r ∉ ops6_W ∧ r ∉ ops7_W ∧ r ∉ ops8_W ∧ r ∉ ops9_W ∧ r ∉ ops10_W

theorem val1_arg (V : Valuation τ sig (Elt F)) (r : Ref sig .tc) (h : Unwritten r) :
    val1 V (Proc.devRef .tc r) = V (Proc.devRef .tc r) :=
  val1_step V r h.1

theorem val2_arg (V : Valuation τ sig (Elt F)) (r : Ref sig .tc) (h : Unwritten r) :
    val2 V (Proc.devRef .tc r) = V (Proc.devRef .tc r) :=
  (val2_step V r h.2.1).trans (val1_arg V r h)

theorem val3_arg (V : Valuation τ sig (Elt F)) (r : Ref sig .tc) (h : Unwritten r) :
    val3 V (Proc.devRef .tc r) = V (Proc.devRef .tc r) :=
  (val3_step V r h.2.2.1 h.2.2.2.1).trans (val2_arg V r h)

theorem val4_arg (V : Valuation τ sig (Elt F)) (r : Ref sig .tc) (h : Unwritten r) :
    val4 V (Proc.devRef .tc r) = V (Proc.devRef .tc r) :=
  (val4_step V r h.2.2.2.2.1).trans (val3_arg V r h)

theorem val5_arg (V : Valuation τ sig (Elt F)) (r : Ref sig .tc) (h : Unwritten r) :
    val5 V (Proc.devRef .tc r) = V (Proc.devRef .tc r) :=
  (val5_step V r h.2.2.2.2.2.1).trans (val4_arg V r h)

theorem val6_arg (V : Valuation τ sig (Elt F)) (r : Ref sig .tc) (h : Unwritten r) :
    val6 V (Proc.devRef .tc r) = V (Proc.devRef .tc r) :=
  (val6_step V r h.2.2.2.2.2.2.1 h.2.2.2.2.2.2.2.1).trans (val5_arg V r h)

theorem val7_arg (V : Valuation τ sig (Elt F)) (r : Ref sig .tc) (h : Unwritten r) :
    val7 V (Proc.devRef .tc r) = V (Proc.devRef .tc r) :=
  (val7_step V r h.2.2.2.2.2.2.2.2.1).trans (val6_arg V r h)

theorem val8_arg (V : Valuation τ sig (Elt F)) (r : Ref sig .tc) (h : Unwritten r) :
    val8 V (Proc.devRef .tc r) = V (Proc.devRef .tc r) :=
  (val8_step V r h.2.2.2.2.2.2.2.2.2).trans (val7_arg V r h)

/-! ## What the live buffers hold after each stage -/

theorem val1_v1 (V : Valuation τ sig (Elt F)) : val1 V (Proc.devRef .tc main_v1) = Cert.Spec.sources (inp V).ei := by
  refine (ops1_v1 V).trans ?_
  rfl

theorem val1_v3 (V : Valuation τ sig (Elt F)) : val1 V (Proc.devRef .tc main_v3) = Cert.Spec.targets (inp V).ei := by
  refine (ops1_v3 V).trans ?_
  rfl

theorem val1_v13 (V : Valuation τ sig (Elt F)) : val1 V (Proc.devRef .tc main_v13) = Cert.Spec.nodes0 (inp V) := by
  refine (ops1_v13 V).trans ?_
  rfl

theorem val1_v23 (V : Valuation τ sig (Elt F)) : val1 V (Proc.devRef .tc main_v23) = Cert.Spec.edges0 (inp V) := by
  refine (ops1_v23 V).trans ?_
  rfl

theorem val2_v30 (V : Valuation τ sig (Elt F)) : val2 V (Proc.devRef .tc main_v30) = Cert.Spec.gatherRows (Cert.Spec.nodes0 (inp V)) (Cert.Spec.sources (inp V).ei) := by
  refine (ops2_v30 (val1 V)).trans ?_
  rw [val1_v13 V, val1_v1 V]

theorem val2_v37 (V : Valuation τ sig (Elt F)) : val2 V (Proc.devRef .tc main_v37) = Cert.Spec.gatherRows (Cert.Spec.nodes0 (inp V)) (Cert.Spec.targets (inp V).ei) := by
  refine (ops2_v37 (val1 V)).trans ?_
  rw [val1_v13 V, val1_v3 V]

theorem val2_v1 (V : Valuation τ sig (Elt F)) : val2 V (Proc.devRef .tc main_v1) = Cert.Spec.sources (inp V).ei :=
  (val2_step V main_v1 (by decide)).trans (val1_v1 V)

theorem val2_v3 (V : Valuation τ sig (Elt F)) : val2 V (Proc.devRef .tc main_v3) = Cert.Spec.targets (inp V).ei :=
  (val2_step V main_v3 (by decide)).trans (val1_v3 V)

theorem val2_v13 (V : Valuation τ sig (Elt F)) : val2 V (Proc.devRef .tc main_v13) = Cert.Spec.nodes0 (inp V) :=
  (val2_step V main_v13 (by decide)).trans (val1_v13 V)

theorem val2_v23 (V : Valuation τ sig (Elt F)) : val2 V (Proc.devRef .tc main_v23) = Cert.Spec.edges0 (inp V) :=
  (val2_step V main_v23 (by decide)).trans (val1_v23 V)

theorem val3_v57 (V : Valuation τ sig (Elt F)) : val3 V (Proc.devRef .tc main_v57) = Cert.Spec.edges1 (inp V) := by
  refine (ops34_v57 (val2 V)).trans ?_
  rw [val2_v23 V, val2_v30 V, val2_v37 V, val2_arg V main_arg11 (by decide), val2_arg V main_arg12 (by decide), val2_arg V main_arg13 (by decide), val2_arg V main_arg14 (by decide)]
  rfl

theorem val3_v60 (V : Valuation τ sig (Elt F)) : val3 V (Proc.devRef .tc main_v60) = Cert.Spec.segmentSum (Cert.Spec.edges1 (inp V)) (Cert.Spec.targets (inp V).ei) := by
  refine (ops34_v60 (val2 V)).trans ?_
  rw [val2_v23 V, val2_v30 V, val2_v37 V, val2_v3 V, val2_arg V main_arg11 (by decide), val2_arg V main_arg12 (by decide), val2_arg V main_arg13 (by decide), val2_arg V main_arg14 (by decide)]
  rfl

theorem val3_v1 (V : Valuation τ sig (Elt F)) : val3 V (Proc.devRef .tc main_v1) = Cert.Spec.sources (inp V).ei :=
  (val3_step V main_v1 (by decide) (by decide)).trans (val2_v1 V)

theorem val3_v3 (V : Valuation τ sig (Elt F)) : val3 V (Proc.devRef .tc main_v3) = Cert.Spec.targets (inp V).ei :=
  (val3_step V main_v3 (by decide) (by decide)).trans (val2_v3 V)

theorem val3_v13 (V : Valuation τ sig (Elt F)) : val3 V (Proc.devRef .tc main_v13) = Cert.Spec.nodes0 (inp V) :=
  (val3_step V main_v13 (by decide) (by decide)).trans (val2_v13 V)

theorem val4_v80 (V : Valuation τ sig (Elt F)) : val4 V (Proc.devRef .tc main_v80) = Cert.Spec.nodes1 (inp V) := by
  refine (ops5_v80 (val3 V)).trans ?_
  rw [val3_v13 V, val3_v60 V, val3_arg V main_arg15 (by decide), val3_arg V main_arg16 (by decide), val3_arg V main_arg17 (by decide), val3_arg V main_arg18 (by decide)]
  rfl

theorem val4_v1 (V : Valuation τ sig (Elt F)) : val4 V (Proc.devRef .tc main_v1) = Cert.Spec.sources (inp V).ei :=
  (val4_step V main_v1 (by decide)).trans (val3_v1 V)

theorem val4_v3 (V : Valuation τ sig (Elt F)) : val4 V (Proc.devRef .tc main_v3) = Cert.Spec.targets (inp V).ei :=
  (val4_step V main_v3 (by decide)).trans (val3_v3 V)

theorem val4_v57 (V : Valuation τ sig (Elt F)) : val4 V (Proc.devRef .tc main_v57) = Cert.Spec.edges1 (inp V) :=
  (val4_step V main_v57 (by decide)).trans (val3_v57 V)

theorem val5_v87 (V : Valuation τ sig (Elt F)) : val5 V (Proc.devRef .tc main_v87) = Cert.Spec.gatherRows (Cert.Spec.nodes1 (inp V)) (Cert.Spec.sources (inp V).ei) := by
  refine (ops6_v87 (val4 V)).trans ?_
  rw [val4_v80 V, val4_v1 V]

theorem val5_v94 (V : Valuation τ sig (Elt F)) : val5 V (Proc.devRef .tc main_v94) = Cert.Spec.gatherRows (Cert.Spec.nodes1 (inp V)) (Cert.Spec.targets (inp V).ei) := by
  refine (ops6_v94 (val4 V)).trans ?_
  rw [val4_v80 V, val4_v3 V]

theorem val5_v3 (V : Valuation τ sig (Elt F)) : val5 V (Proc.devRef .tc main_v3) = Cert.Spec.targets (inp V).ei :=
  (val5_step V main_v3 (by decide)).trans (val4_v3 V)

theorem val5_v57 (V : Valuation τ sig (Elt F)) : val5 V (Proc.devRef .tc main_v57) = Cert.Spec.edges1 (inp V) :=
  (val5_step V main_v57 (by decide)).trans (val4_v57 V)

theorem val5_v80 (V : Valuation τ sig (Elt F)) : val5 V (Proc.devRef .tc main_v80) = Cert.Spec.nodes1 (inp V) :=
  (val5_step V main_v80 (by decide)).trans (val4_v80 V)

theorem val6_v114 (V : Valuation τ sig (Elt F)) : val6 V (Proc.devRef .tc main_v114) = Cert.Spec.edges2 (inp V) := by
  refine (ops78_v114 (val5 V)).trans ?_
  rw [val5_v57 V, val5_v87 V, val5_v94 V, val5_arg V main_arg11 (by decide), val5_arg V main_arg12 (by decide), val5_arg V main_arg13 (by decide), val5_arg V main_arg14 (by decide)]
  rfl

theorem val6_v117 (V : Valuation τ sig (Elt F)) : val6 V (Proc.devRef .tc main_v117) = Cert.Spec.segmentSum (Cert.Spec.edges2 (inp V)) (Cert.Spec.targets (inp V).ei) := by
  refine (ops78_v117 (val5 V)).trans ?_
  rw [val5_v57 V, val5_v87 V, val5_v94 V, val5_v3 V, val5_arg V main_arg11 (by decide), val5_arg V main_arg12 (by decide), val5_arg V main_arg13 (by decide), val5_arg V main_arg14 (by decide)]
  rfl

theorem val6_v80 (V : Valuation τ sig (Elt F)) : val6 V (Proc.devRef .tc main_v80) = Cert.Spec.nodes1 (inp V) :=
  (val6_step V main_v80 (by decide) (by decide)).trans (val5_v80 V)

theorem val7_v137 (V : Valuation τ sig (Elt F)) : val7 V (Proc.devRef .tc main_v137) = Cert.Spec.nodes2 (inp V) := by
  refine (ops9_v137 (val6 V)).trans ?_
  rw [val6_v80 V, val6_v117 V, val6_arg V main_arg15 (by decide), val6_arg V main_arg16 (by decide), val6_arg V main_arg17 (by decide), val6_arg V main_arg18 (by decide)]
  rfl

theorem val8_v147 (V : Valuation τ sig (Elt F)) : val8 V (Proc.devRef .tc main_v147) = Cert.Spec.network (inp V) := by
  refine (ops10_v147 (val7 V)).trans ?_
  rw [val7_v137 V, val7_arg V main_arg19 (by decide), val7_arg V main_arg20 (by decide), val7_arg V main_arg21 (by decide), val7_arg V main_arg22 (by decide)]
  rfl

/-! ## The whole program -/

/-- The reference's 165 operations: its three parts, each the stretches it holds. -/
abbrev ops : List (HloOp τ sig (Elt F)) :=
  (ops1 ++ (ops2 ++ ops3)) ++ ((ops4 ++ (ops5 ++ (ops6 ++ ops7))) ++ (ops8 ++ (ops9 ++ ops10)))

set_option maxRecDepth 8192 in
theorem part0_eq (d : Dev nD) : main_part0 (F := F) d = seq (ops1 ++ (ops2 ++ ops3)) := rfl
set_option maxRecDepth 8192 in
theorem part1_eq (d : Dev nD) : main_part1 (F := F) d = seq (ops4 ++ (ops5 ++ (ops6 ++ ops7))) := rfl
set_option maxRecDepth 8192 in
theorem part2_eq (d : Dev nD) : main_part2 (F := F) d = seq (ops8 ++ (ops9 ++ ops10)) := rfl

theorem main_eq (d : Dev nD) : main (F := F) d = seq ops := by
  show main (F := F) d
    = seq ((ops1 ++ (ops2 ++ ops3)) ++ ((ops4 ++ (ops5 ++ (ops6 ++ ops7))) ++ (ops8 ++ (ops9 ++ ops10))))
  rw [seq_append (ops1 ++ (ops2 ++ ops3)) ((ops4 ++ (ops5 ++ (ops6 ++ ops7))) ++ (ops8 ++ (ops9 ++ ops10))),
    seq_append (ops4 ++ (ops5 ++ (ops6 ++ ops7))) (ops8 ++ (ops9 ++ ops10)), ← part0_eq d, ← part1_eq d, ← part2_eq d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.mpr fun op h => ?_
  simp only [List.mem_append] at h
  rcases h with (h | h | h) | (h | h | h | h) | (h | h | h)
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h
  · exact List.forall_iff_forall_mem.mp ops6_sub op h
  · exact List.forall_iff_forall_mem.mp ops7_sub op h
  · exact List.forall_iff_forall_mem.mp ops8_sub op h
  · exact List.forall_iff_forall_mem.mp ops9_sub op h
  · exact List.forall_iff_forall_mem.mp ops10_sub op h

theorem ops_fresh : ∀ op ∈ (ops : List (HloOp τ sig (Elt F))), op.fresh = ∅ := by
  intro op h
  simp only [List.mem_append] at h
  rcases h with (h | h | h) | (h | h | h | h) | (h | h | h)
  · exact ops1_fresh op h
  · exact ops2_fresh op h
  · exact ops3_fresh op h
  · exact ops4_fresh op h
  · exact ops5_fresh op h
  · exact ops6_fresh op h
  · exact ops7_fresh op h
  · exact ops8_fresh op h
  · exact ops9_fresh op h
  · exact ops10_fresh op h

/-- The contents after the whole program are the last stage's. -/
theorem after_ops (V : Valuation τ sig (Elt F)) : after ops V = val8 V := by
  simp only [ops, StableHlo.after_append]
  rfl

/-- The launch contents' inputs are the launch memory's. -/
theorem inp_launch (m : (ℓ : Loc nD τ sig) → Buf (Elt F) ℓ) (c : Dev nD) : inp (launchContents m c) = inputs m c := rfl

/-- On every device, for any float values, from any memory with zero counters: every weakly fair execution of the
    reference terminates with its result buffer at the network of the launch contents and the 23 arguments unchanged. -/
theorem run_network (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = Cert.Spec.network (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v147).trans ((congrFun (after_ops _) _).trans ((val8_v147 _).trans (congrArg Cert.Spec.network (inp_launch m c)))),
      (h c main_arg0).trans ((congrFun (after_ops _) _).trans (val8_arg _ main_arg0 (by decide))),
      (h c main_arg1).trans ((congrFun (after_ops _) _).trans (val8_arg _ main_arg1 (by decide))),
      (h c main_arg2).trans ((congrFun (after_ops _) _).trans (val8_arg _ main_arg2 (by decide))),
      (h c main_arg3).trans ((congrFun (after_ops _) _).trans (val8_arg _ main_arg3 (by decide))),
      (h c main_arg4).trans ((congrFun (after_ops _) _).trans (val8_arg _ main_arg4 (by decide))),
      (h c main_arg5).trans ((congrFun (after_ops _) _).trans (val8_arg _ main_arg5 (by decide))),
      (h c main_arg6).trans ((congrFun (after_ops _) _).trans (val8_arg _ main_arg6 (by decide))),
      (h c main_arg7).trans ((congrFun (after_ops _) _).trans (val8_arg _ main_arg7 (by decide))),
      (h c main_arg8).trans ((congrFun (after_ops _) _).trans (val8_arg _ main_arg8 (by decide))),
      (h c main_arg9).trans ((congrFun (after_ops _) _).trans (val8_arg _ main_arg9 (by decide))),
      (h c main_arg10).trans ((congrFun (after_ops _) _).trans (val8_arg _ main_arg10 (by decide))),
      (h c main_arg11).trans ((congrFun (after_ops _) _).trans (val8_arg _ main_arg11 (by decide))),
      (h c main_arg12).trans ((congrFun (after_ops _) _).trans (val8_arg _ main_arg12 (by decide))),
      (h c main_arg13).trans ((congrFun (after_ops _) _).trans (val8_arg _ main_arg13 (by decide))),
      (h c main_arg14).trans ((congrFun (after_ops _) _).trans (val8_arg _ main_arg14 (by decide))),
      (h c main_arg15).trans ((congrFun (after_ops _) _).trans (val8_arg _ main_arg15 (by decide))),
      (h c main_arg16).trans ((congrFun (after_ops _) _).trans (val8_arg _ main_arg16 (by decide))),
      (h c main_arg17).trans ((congrFun (after_ops _) _).trans (val8_arg _ main_arg17 (by decide))),
      (h c main_arg18).trans ((congrFun (after_ops _) _).trans (val8_arg _ main_arg18 (by decide))),
      (h c main_arg19).trans ((congrFun (after_ops _) _).trans (val8_arg _ main_arg19 (by decide))),
      (h c main_arg20).trans ((congrFun (after_ops _) _).trans (val8_arg _ main_arg20 (by decide))),
      (h c main_arg21).trans ((congrFun (after_ops _) _).trans (val8_arg _ main_arg21 (by decide))),
      (h c main_arg22).trans ((congrFun (after_ops _) _).trans (val8_arg _ main_arg22 (by decide)))⟩)
    (run_seq scopedRefs_eq scopedSems_eq defs main (fun _ => ops) main_eq (fun _ => ops_sub) m ρ (fun _ => ops_fresh))

end Cert.RefRun

end
-- ==== Proof.lean ====
/-
  The certificate: the kernel (a message-passing graph network whose dense steps run as seven tiled kernel regions,
  with the row gathers and the segment sums on the host) against its jnp reference, over the extended reals.

  Frames. The two kernel programs' frames are the generated ones; the reference's is its run (read back by hand,
  stretch by stretch) with the result dropped. The idealization rewrote nothing, so there is nothing to preserve.

  Values. Both programs compute the network of Spec.lean / Network.lean of the 23 argument arrays. For the
  reference its line of 165 operations is read back stretch by stretch (RefRunByStages). For the kernel, each region leaves the reference's step of its
  operands because a perceptron's row depends on that row only, whatever the tiling (the region modules, over
  LibRowMlp's entry formula: a change of float format is the identity on the extended reals, and the matrix
  unit's product into zeros is the plain sum); the host stretches slice, recast, gather and sum exactly as the
  reference does, except that the kernel's gather replaces a row by a fill value where the wrapped index leaves
  [0, 49999], which under the precondition's index range [-50000, 50000) never happens (IndexRange, TakeRows);
  KernelChain reads every buffer at the boundary where it is used. The precondition's finiteness half is not used:
  the two sides are the same sums in the same order, and no law that fails at the infinities is needed.
-/
import proofs.«417864_j35218731827626_1_alg».proof.Defs
import proofs.«417864_j35218731827626_1_alg».proof.Proof.Gen.Kernel
import proofs.«417864_j35218731827626_1_alg».proof.Proof.Gen.Kernel.Skeleton
import proofs.«417864_j35218731827626_1_alg».proof.Proof.Gen.Kernel.Launch
import proofs.«417864_j35218731827626_1_alg».proof.Proof.Gen.Kernel.Points
import proofs.«417864_j35218731827626_1_alg».proof.Proof.Gen.Kernel.Frame
import proofs.«417864_j35218731827626_1_alg».proof.Proof.Gen.KernelIdeal
import proofs.«417864_j35218731827626_1_alg».proof.Proof.Gen.KernelIdeal.Skeleton
import proofs.«417864_j35218731827626_1_alg».proof.Proof.Gen.KernelIdeal.Launch
import proofs.«417864_j35218731827626_1_alg».proof.Proof.Gen.KernelIdeal.Points
import proofs.«417864_j35218731827626_1_alg».proof.Proof.Gen.KernelIdeal.Frame
import proofs.«417864_j35218731827626_1_alg».proof.Proof.Gen.ReferenceIdeal
import proofs.«417864_j35218731827626_1_alg».proof.Proof.Gen.Pre_finite_inputs
import proofs.«417864_j35218731827626_1_alg».proof.Proof.IndexRange
import proofs.«417864_j35218731827626_1_alg».proof.Proof.KernelRun
import proofs.«417864_j35218731827626_1_alg».proof.Proof.KernelChain
import proofs.«417864_j35218731827626_1_alg».proof.Proof.RefRunByStages
import Idealize.ShloMosaic.Adequacy
import Idealize.ShloMosaic.Init

noncomputable section

namespace Cert.Proof

open Idealize.ShloMosaic Idealize.SL.Sem

/-- The word-level kernel program runs, faults nowhere, and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.RefRun.run_network (F := Ideal) m ρ)

/-- The idealization rewrote no operation. -/
theorem preserves : Cert.preserves_Kernel_KernelIdeal := trivial

/-- From memories that agree on the 23 arguments, with every edge index in [-50000, 50000), both programs end with
    the network of the arguments in their result buffer. -/
theorem algebraic : Cert.algebraic_KernelIdeal_ReferenceIdeal := by
  intro m ρ m' ρ' hpre hagree
  have hr : ∀ c, Cert.KernelValue.InRange m c := fun c =>
    Cert.IndexRange.edge_list_in_range _ _ _ _ _ _ _ _ _ _ _ _ _ _ _ _ _ _ _ _ _ _ _ (hpre c)
  refine ⟨fun c => Cert.Spec.network (Cert.KernelValue.inputs m c), ?_, ?_⟩
  · exact (θ_run Cert.KernelIdeal.defs _ _).mono
      (fun r h c => ⟨(h c).1.trans (Cert.KernelValue.result_at m ρ c (hr c)), (h c).2⟩)
      (Cert.KernelIdeal.GenNamed.run_named m ρ)
  · refine (θ_run Cert.ReferenceIdeal.defs _ _).mono (fun r h c => ⟨(h c).1.trans ?_, (h c).2⟩)
      (Cert.RefRun.run_network (F := Ideal) m' ρ')
    obtain ⟨h0, h1, h2, h3, h4, h5, h6, h7, h8, h9, h10, h11, h12, h13, h14, h15, h16, h17, h18, h19, h20, h21, h22⟩ := hagree c
    unfold Cert.RefRun.inputs Cert.KernelValue.inputs
    rw [h0, h1, h2, h3, h4, h5, h6, h7, h8, h9, h10, h11, h12, h13, h14, h15, h16, h17, h18, h19, h20, h21, h22]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
